-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S_ : Shape := ⟨0, ![]⟩

class Facts : Prop where
  reducesTo_S_S_d : S_.ReducesTo [] S_
  h_S_ : 0 < S_.numel
  bcast_S_S1024x200 : S_.BroadcastsInDim S1024x200 (![] : Fin 0 → Fin S1024x200.rank)
  reducesTo_S1024x200_S_d0_1 : S1024x200.ReducesTo [0, 1] S_

variable [Facts]

def fn {F : FTy → Type} [FloatOps F] (main_arg0 : IVec S1024x200 32) (main_arg1 : FVec F S_ .f32) : IVec S_ 1 :=
  let main_v0 : FVec F S_ .f32 := Host.absf main_arg1
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_c_0 : IVec S_ 32 := constantI S_ 32 0#32
  let main_v3 : IVec S1024x200 32 := broadcastInDim S1024x200 ![] bcast_S_S1024x200 main_c_0
  let main_v4 : IVec S1024x200 1 := cmpi .sge main_arg0 main_v3
  let main_c_1 : IVec S_ 32 := constantI S_ 32 99999#32
  let main_v5 : IVec S1024x200 32 := broadcastInDim S1024x200 ![] bcast_S_S1024x200 main_c_1
  let main_v6 : IVec S1024x200 1 := cmpi .sle main_arg0 main_v5
  let main_v7 : IVec S1024x200 1 := andi main_v4 main_v6
  let main_c_2 : IVec S_ 1 := constantI S_ 1 1#1
  let main_v8 : IVec S_ 1 := (fun x v => Host.reduce IntOp.andi x v reducesTo_S1024x200_S_d0_1 h_S_) main_v7 main_c_2
  let main_v9 : IVec S_ 1 := andi main_v2 main_v8
  main_v9
-- ==== Kernel.lean ====
abbrev S1024x200 : Shape := ⟨2, ![1024, 200]⟩
abbrev S_ : Shape := ⟨0, ![]⟩
abbrev S16 : Shape := ⟨1, ![16]⟩
abbrev S100000 : Shape := ⟨1, ![100000]⟩
abbrev S1024x100000 : Shape := ⟨2, ![1024, 100000]⟩
abbrev S32x200 : Shape := ⟨2, ![32, 200]⟩
abbrev S1x16 : Shape := ⟨2, ![1, 16]⟩
abbrev S1x100000 : Shape := ⟨2, ![1, 100000]⟩

abbrev nBuf : Table → Nat
  | .hbm => 6
  | .local .scVector .vmem => 3
  | _ => 0

abbrev bufTy : (tb : Table) → Fin (nBuf tb) → BufTy
  | .hbm, ⟨0, _⟩ => ⟨S1024x200, .i32⟩
  | .hbm, ⟨1, _⟩ => ⟨S_, .f32⟩
  | .hbm, ⟨2, _⟩ => ⟨S16, .f32⟩
  | .hbm, ⟨3, _⟩ => ⟨S_, .f32⟩
  | .hbm, ⟨4, _⟩ => ⟨S100000, .f32⟩
  | .hbm, ⟨5, _⟩ => ⟨S1024x100000, .f32⟩
  | .local .scVector .vmem, ⟨0, _⟩ => ⟨S32x200, .i32⟩
  | .local .scVector .vmem, ⟨1, _⟩ => ⟨S100000, .f32⟩
  | .local .scVector .vmem, ⟨2, _⟩ => ⟨S16, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_v0_scv : Ref sig .scVector := ⟨.hbm, 2, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_4_r0 : BitVec 32 := 0#32
  ![v2.toNat, 0]
@[reducible] def k0_t1_loop : Scf.Loop 32 :=
  let c0_i32_1 : BitVec 32 := 0#32
  let c32_i32_2 : BitVec 32 := 32#32
  let v10 : BitVec 32 := Scalar.addi c0_i32_1 c32_i32_2
  let c1_i32 : BitVec 32 := 1#32
  ⟨c0_i32_1, v10, c1_i32⟩
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v11 : Index := Scalar.indexCast arg9
  let c0_4 : Index := 0#32
  ![v11.toNat, 0]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v13 : Index := Scalar.indexCast arg9
  let c16 : Index := 16#32
  ![v13.toNat, 16]
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v15 : Index := Scalar.indexCast arg9
  let c32 : Index := 32#32
  ![v15.toNat, 32]
def k0_off5 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v17 : Index := Scalar.indexCast arg9
  let c48 : Index := 48#32
  ![v17.toNat, 48]
def k0_off6 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v19 : Index := Scalar.indexCast arg9
  let c64 : Index := 64#32
  ![v19.toNat, 64]
def k0_off7 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v21 : Index := Scalar.indexCast arg9
  let c80 : Index := 80#32
  ![v21.toNat, 80]
def k0_off8 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v23 : Index := Scalar.indexCast arg9
  let c96 : Index := 96#32
  ![v23.toNat, 96]
def k0_off9 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v25 : Index := Scalar.indexCast arg9
  let c112 : Index := 112#32
  ![v25.toNat, 112]
def k0_off10 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v27 : Index := Scalar.indexCast arg9
  let c128 : Index := 128#32
  ![v27.toNat, 128]
def k0_off11 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v29 : Index := Scalar.indexCast arg9
  let c144 : Index := 144#32
  ![v29.toNat, 144]
def k0_off12 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v31 : Index := Scalar.indexCast arg9
  let c160 : Index := 160#32
  ![v31.toNat, 160]
def k0_off13 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v33 : Index := Scalar.indexCast arg9
  let c176 : Index := 176#32
  ![v33.toNat, 176]
def k0_off14 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v35 : Index := Scalar.indexCast arg9
  let c184 : Index := 184#32
  ![v35.toNat, 184]
def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c1_i32 : BitVec 32 := 1#32
  let arg9 : BitVec 32 := Scf.iv c0_i32_1 c1_i32 k0_t1
  let v128 : BitVec 32 := Scalar.addi v2 arg9
  let c0_i32_31_r3 : BitVec 32 := 0#32
  ![v128.toNat, 0]

def k0_chk1 (v12 : IVec S16 32) : Prop :=
  (∀ a x, ((![v12] : Fin 1 → IVec S16 32) a x).toNat < S100000.size a) ∧
  (∀ a x, ((![v12] : Fin 1 → IVec S16 32) a x).toNat < S100000.size a) ∧
  (∀ a x, ((![v12] : Fin 1 → IVec S16 32) a x).toNat < S100000.size a) ∧
  (∀ a x, ((![v12] : Fin 1 → IVec S16 32) a x).toNat < S100000.size a)
instance k0_chk1.dec : ∀ (v12 : IVec S16 32), Decidable (k0_chk1 v12) := fun v12 => decidable_of_iff' _ (Iff.of_eq (k0_chk1.eq_1 v12))
theorem k0_idx1_inb : ∀ (v12 : IVec S16 32) (k0_hw1 : k0_chk1 v12), ∀ a x, ((![v12] : Fin 1 → IVec S16 32) a x).toNat < S100000.size a := fun v12 k0_hw1 => k0_hw1.1
theorem k0_idx14_inb : ∀ (v12 : IVec S16 32) (k0_hw1 : k0_chk1 v12), ∀ a x, ((![v12] : Fin 1 → IVec S16 32) a x).toNat < S100000.size a := fun v12 k0_hw1 => k0_hw1.2.1
theorem k0_idx27_inb : ∀ (v12 : IVec S16 32) (k0_hw1 : k0_chk1 v12), ∀ a x, ((![v12] : Fin 1 → IVec S16 32) a x).toNat < S100000.size a := fun v12 k0_hw1 => k0_hw1.2.2.1
theorem k0_idx40_inb : ∀ (v12 : IVec S16 32) (k0_hw1 : k0_chk1 v12), ∀ a x, ((![v12] : Fin 1 → IVec S16 32) a x).toNat < S100000.size a := fun v12 k0_hw1 => k0_hw1.2.2.2

def k0_chk2 (v14 : IVec S16 32) : Prop :=
  (∀ a x, ((![v14] : Fin 1 → IVec S16 32) a x).toNat < S100000.size a) ∧
  (∀ a x, ((![v14] : Fin 1 → IVec S16 32) a x).toNat < S100000.size a) ∧
  (∀ a x, ((![v14] : Fin 1 → IVec S16 32) a x).toNat < S100000.size a) ∧
  (∀ a x, ((![v14] : Fin 1 → IVec S16 32) a x).toNat < S100000.size a)
instance k0_chk2.dec : ∀ (v14 : IVec S16 32), Decidable (k0_chk2 v14) := fun v14 => decidable_of_iff' _ (Iff.of_eq (k0_chk2.eq_1 v14))
theorem k0_idx2_inb : ∀ (v14 : IVec S16 32) (k0_hw2 : k0_chk2 v14), ∀ a x, ((![v14] : Fin 1 → IVec S16 32) a x).toNat < S100000.size a := fun v14 k0_hw2 => k0_hw2.1
theorem k0_idx15_inb : ∀ (v14 : IVec S16 32) (k0_hw2 : k0_chk2 v14), ∀ a x, ((![v14] : Fin 1 → IVec S16 32) a x).toNat < S100000.size a := fun v14 k0_hw2 => k0_hw2.2.1
theorem k0_idx28_inb : ∀ (v14 : IVec S16 32) (k0_hw2 : k0_chk2 v14), ∀ a x, ((![v14] : Fin 1 → IVec S16 32) a x).toNat < S100000.size a := fun v14 k0_hw2 => k0_hw2.2.2.1
theorem k0_idx41_inb : ∀ (v14 : IVec S16 32) (k0_hw2 : k0_chk2 v14), ∀ a x, ((![v14] : Fin 1 → IVec S16 32) a x).toNat < S100000.size a := fun v14 k0_hw2 => k0_hw2.2.2.2

def k0_chk3 (v16 : IVec S16 32) : Prop :=
  (∀ a x, ((![v16] : Fin 1 → IVec S16 32) a x).toNat < S100000.size a) ∧
  (∀ a x, ((![v16] : Fin 1 → IVec S16 32) a x).toNat < S100000.size a) ∧
  (∀ a x, ((![v16] : Fin 1 → IVec S16 32) a x).toNat < S100000.size a) ∧
  (∀ a x, ((![v16] : Fin 1 → IVec S16 32) a x).toNat < S100000.size a)
instance k0_chk3.dec : ∀ (v16 : IVec S16 32), Decidable (k0_chk3 v16) := fun v16 => decidable_of_iff' _ (Iff.of_eq (k0_chk3.eq_1 v16))
theorem k0_idx3_inb : ∀ (v16 : IVec S16 32) (k0_hw3 : k0_chk3 v16), ∀ a x, ((![v16] : Fin 1 → IVec S16 32) a x).toNat < S100000.size a := fun v16 k0_hw3 => k0_hw3.1
theorem k0_idx16_inb : ∀ (v16 : IVec S16 32) (k0_hw3 : k0_chk3 v16), ∀ a x, ((![v16] : Fin 1 → IVec S16 32) a x).toNat < S100000.size a := fun v16 k0_hw3 => k0_hw3.2.1
theorem k0_idx29_inb : ∀ (v16 : IVec S16 32) (k0_hw3 : k0_chk3 v16), ∀ a x, ((![v16] : Fin 1 → IVec S16 32) a x).toNat < S100000.size a := fun v16 k0_hw3 => k0_hw3.2.2.1
theorem k0_idx42_inb : ∀ (v16 : IVec S16 32) (k0_hw3 : k0_chk3 v16), ∀ a x, ((![v16] : Fin 1 → IVec S16 32) a x).toNat < S100000.size a := fun v16 k0_hw3 => k0_hw3.2.2.2

def k0_chk4 (v18 : IVec S16 32) : Prop :=
  (∀ a x, ((![v18] : Fin 1 → IVec S16 32) a x).toNat < S100000.size a) ∧
  (∀ a x, ((![v18] : Fin 1 → IVec S16 32) a x).toNat < S100000.size a) ∧
  (∀ a x, ((![v18] : Fin 1 → IVec S16 32) a x).toNat < S100000.size a) ∧
  (∀ a x, ((![v18] : Fin 1 → IVec S16 32) a x).toNat < S100000.size a)
instance k0_chk4.dec : ∀ (v18 : IVec S16 32), Decidable (k0_chk4 v18) := fun v18 => decidable_of_iff' _ (Iff.of_eq (k0_chk4.eq_1 v18))
theorem k0_idx4_inb : ∀ (v18 : IVec S16 32) (k0_hw4 : k0_chk4 v18), ∀ a x, ((![v18] : Fin 1 → IVec S16 32) a x).toNat < S100000.size a := fun v18 k0_hw4 => k0_hw4.1
theorem k0_idx17_inb : ∀ (v18 : IVec S16 32) (k0_hw4 : k0_chk4 v18), ∀ a x, ((![v18] : Fin 1 → IVec S16 32) a x).toNat < S100000.size a := fun v18 k0_hw4 => k0_hw4.2.1
theorem k0_idx30_inb : ∀ (v18 : IVec S16 32) (k0_hw4 : k0_chk4 v18), ∀ a x, ((![v18] : Fin 1 → IVec S16 32) a x).toNat < S100000.size a := fun v18 k0_hw4 => k0_hw4.2.2.1
theorem k0_idx43_inb : ∀ (v18 : IVec S16 32) (k0_hw4 : k0_chk4 v18), ∀ a x, ((![v18] : Fin 1 → IVec S16 32) a x).toNat < S100000.size a := fun v18 k0_hw4 => k0_hw4.2.2.2

def k0_chk5 (v20 : IVec S16 32) : Prop :=
  (∀ a x, ((![v20] : Fin 1 → IVec S16 32) a x).toNat < S100000.size a) ∧
  (∀ a x, ((![v20] : Fin 1 → IVec S16 32) a x).toNat < S100000.size a) ∧
  (∀ a x, ((![v20] : Fin 1 → IVec S16 32) a x).toNat < S100000.size a) ∧
  (∀ a x, ((![v20] : Fin 1 → IVec S16 32) a x).toNat < S100000.size a)
instance k0_chk5.dec : ∀ (v20 : IVec S16 32), Decidable (k0_chk5 v20) := fun v20 => decidable_of_iff' _ (Iff.of_eq (k0_chk5.eq_1 v20))
theorem k0_idx5_inb : ∀ (v20 : IVec S16 32) (k0_hw5 : k0_chk5 v20), ∀ a x, ((![v20] : Fin 1 → IVec S16 32) a x).toNat < S100000.size a := fun v20 k0_hw5 => k0_hw5.1
theorem k0_idx18_inb : ∀ (v20 : IVec S16 32) (k0_hw5 : k0_chk5 v20), ∀ a x, ((![v20] : Fin 1 → IVec S16 32) a x).toNat < S100000.size a := fun v20 k0_hw5 => k0_hw5.2.1
theorem k0_idx31_inb : ∀ (v20 : IVec S16 32) (k0_hw5 : k0_chk5 v20), ∀ a x, ((![v20] : Fin 1 → IVec S16 32) a x).toNat < S100000.size a := fun v20 k0_hw5 => k0_hw5.2.2.1
theorem k0_idx44_inb : ∀ (v20 : IVec S16 32) (k0_hw5 : k0_chk5 v20), ∀ a x, ((![v20] : Fin 1 → IVec S16 32) a x).toNat < S100000.size a := fun v20 k0_hw5 => k0_hw5.2.2.2

def k0_chk6 (v22 : IVec S16 32) : Prop :=
  (∀ a x, ((![v22] : Fin 1 → IVec S16 32) a x).toNat < S100000.size a) ∧
  (∀ a x, ((![v22] : Fin 1 → IVec S16 32) a x).toNat < S100000.size a) ∧
  (∀ a x, ((![v22] : Fin 1 → IVec S16 32) a x).toNat < S100000.size a) ∧
  (∀ a x, ((![v22] : Fin 1 → IVec S16 32) a x).toNat < S100000.size a)
instance k0_chk6.dec : ∀ (v22 : IVec S16 32), Decidable (k0_chk6 v22) := fun v22 => decidable_of_iff' _ (Iff.of_eq (k0_chk6.eq_1 v22))
theorem k0_idx6_inb : ∀ (v22 : IVec S16 32) (k0_hw6 : k0_chk6 v22), ∀ a x, ((![v22] : Fin 1 → IVec S16 32) a x).toNat < S100000.size a := fun v22 k0_hw6 => k0_hw6.1
theorem k0_idx19_inb : ∀ (v22 : IVec S16 32) (k0_hw6 : k0_chk6 v22), ∀ a x, ((![v22] : Fin 1 → IVec S16 32) a x).toNat < S100000.size a := fun v22 k0_hw6 => k0_hw6.2.1
theorem k0_idx32_inb : ∀ (v22 : IVec S16 32) (k0_hw6 : k0_chk6 v22), ∀ a x, ((![v22] : Fin 1 → IVec S16 32) a x).toNat < S100000.size a := fun v22 k0_hw6 => k0_hw6.2.2.1
theorem k0_idx45_inb : ∀ (v22 : IVec S16 32) (k0_hw6 : k0_chk6 v22), ∀ a x, ((![v22] : Fin 1 → IVec S16 32) a x).toNat < S100000.size a := fun v22 k0_hw6 => k0_hw6.2.2.2

def k0_chk7 (v24 : IVec S16 32) : Prop :=
  (∀ a x, ((![v24] : Fin 1 → IVec S16 32) a x).toNat < S100000.size a) ∧
  (∀ a x, ((![v24] : Fin 1 → IVec S16 32) a x).toNat < S100000.size a) ∧
  (∀ a x, ((![v24] : Fin 1 → IVec S16 32) a x).toNat < S100000.size a) ∧
  (∀ a x, ((![v24] : Fin 1 → IVec S16 32) a x).toNat < S100000.size a)
instance k0_chk7.dec : ∀ (v24 : IVec S16 32), Decidable (k0_chk7 v24) := fun v24 => decidable_of_iff' _ (Iff.of_eq (k0_chk7.eq_1 v24))
theorem k0_idx7_inb : ∀ (v24 : IVec S16 32) (k0_hw7 : k0_chk7 v24), ∀ a x, ((![v24] : Fin 1 → IVec S16 32) a x).toNat < S100000.size a := fun v24 k0_hw7 => k0_hw7.1
theorem k0_idx20_inb : ∀ (v24 : IVec S16 32) (k0_hw7 : k0_chk7 v24), ∀ a x, ((![v24] : Fin 1 → IVec S16 32) a x).toNat < S100000.size a := fun v24 k0_hw7 => k0_hw7.2.1
theorem k0_idx33_inb : ∀ (v24 : IVec S16 32) (k0_hw7 : k0_chk7 v24), ∀ a x, ((![v24] : Fin 1 → IVec S16 32) a x).toNat < S100000.size a := fun v24 k0_hw7 => k0_hw7.2.2.1
theorem k0_idx46_inb : ∀ (v24 : IVec S16 32) (k0_hw7 : k0_chk7 v24), ∀ a x, ((![v24] : Fin 1 → IVec S16 32) a x).toNat < S100000.size a := fun v24 k0_hw7 => k0_hw7.2.2.2

def k0_chk8 (v26 : IVec S16 32) : Prop :=
  (∀ a x, ((![v26] : Fin 1 → IVec S16 32) a x).toNat < S100000.size a) ∧
  (∀ a x, ((![v26] : Fin 1 → IVec S16 32) a x).toNat < S100000.size a) ∧
  (∀ a x, ((![v26] : Fin 1 → IVec S16 32) a x).toNat < S100000.size a) ∧
  (∀ a x, ((![v26] : Fin 1 → IVec S16 32) a x).toNat < S100000.size a)
instance k0_chk8.dec : ∀ (v26 : IVec S16 32), Decidable (k0_chk8 v26) := fun v26 => decidable_of_iff' _ (Iff.of_eq (k0_chk8.eq_1 v26))
theorem k0_idx8_inb : ∀ (v26 : IVec S16 32) (k0_hw8 : k0_chk8 v26), ∀ a x, ((![v26] : Fin 1 → IVec S16 32) a x).toNat < S100000.size a := fun v26 k0_hw8 => k0_hw8.1
theorem k0_idx21_inb : ∀ (v26 : IVec S16 32) (k0_hw8 : k0_chk8 v26), ∀ a x, ((![v26] : Fin 1 → IVec S16 32) a x).toNat < S100000.size a := fun v26 k0_hw8 => k0_hw8.2.1
theorem k0_idx34_inb : ∀ (v26 : IVec S16 32) (k0_hw8 : k0_chk8 v26), ∀ a x, ((![v26] : Fin 1 → IVec S16 32) a x).toNat < S100000.size a := fun v26 k0_hw8 => k0_hw8.2.2.1
theorem k0_idx47_inb : ∀ (v26 : IVec S16 32) (k0_hw8 : k0_chk8 v26), ∀ a x, ((![v26] : Fin 1 → IVec S16 32) a x).toNat < S100000.size a := fun v26 k0_hw8 => k0_hw8.2.2.2

def k0_chk9 (v28 : IVec S16 32) : Prop :=
  (∀ a x, ((![v28] : Fin 1 → IVec S16 32) a x).toNat < S100000.size a) ∧
  (∀ a x, ((![v28] : Fin 1 → IVec S16 32) a x).toNat < S100000.size a) ∧
  (∀ a x, ((![v28] : Fin 1 → IVec S16 32) a x).toNat < S100000.size a) ∧
  (∀ a x, ((![v28] : Fin 1 → IVec S16 32) a x).toNat < S100000.size a)
instance k0_chk9.dec : ∀ (v28 : IVec S16 32), Decidable (k0_chk9 v28) := fun v28 => decidable_of_iff' _ (Iff.of_eq (k0_chk9.eq_1 v28))
theorem k0_idx9_inb : ∀ (v28 : IVec S16 32) (k0_hw9 : k0_chk9 v28), ∀ a x, ((![v28] : Fin 1 → IVec S16 32) a x).toNat < S100000.size a := fun v28 k0_hw9 => k0_hw9.1
theorem k0_idx22_inb : ∀ (v28 : IVec S16 32) (k0_hw9 : k0_chk9 v28), ∀ a x, ((![v28] : Fin 1 → IVec S16 32) a x).toNat < S100000.size a := fun v28 k0_hw9 => k0_hw9.2.1
theorem k0_idx35_inb : ∀ (v28 : IVec S16 32) (k0_hw9 : k0_chk9 v28), ∀ a x, ((![v28] : Fin 1 → IVec S16 32) a x).toNat < S100000.size a := fun v28 k0_hw9 => k0_hw9.2.2.1
theorem k0_idx48_inb : ∀ (v28 : IVec S16 32) (k0_hw9 : k0_chk9 v28), ∀ a x, ((![v28] : Fin 1 → IVec S16 32) a x).toNat < S100000.size a := fun v28 k0_hw9 => k0_hw9.2.2.2

def k0_chk10 (v30 : IVec S16 32) : Prop :=
  (∀ a x, ((![v30] : Fin 1 → IVec S16 32) a x).toNat < S100000.size a) ∧
  (∀ a x, ((![v30] : Fin 1 → IVec S16 32) a x).toNat < S100000.size a) ∧
  (∀ a x, ((![v30] : Fin 1 → IVec S16 32) a x).toNat < S100000.size a) ∧
  (∀ a x, ((![v30] : Fin 1 → IVec S16 32) a x).toNat < S100000.size a)
instance k0_chk10.dec : ∀ (v30 : IVec S16 32), Decidable (k0_chk10 v30) := fun v30 => decidable_of_iff' _ (Iff.of_eq (k0_chk10.eq_1 v30))
theorem k0_idx10_inb : ∀ (v30 : IVec S16 32) (k0_hw10 : k0_chk10 v30), ∀ a x, ((![v30] : Fin 1 → IVec S16 32) a x).toNat < S100000.size a := fun v30 k0_hw10 => k0_hw10.1
theorem k0_idx23_inb : ∀ (v30 : IVec S16 32) (k0_hw10 : k0_chk10 v30), ∀ a x, ((![v30] : Fin 1 → IVec S16 32) a x).toNat < S100000.size a := fun v30 k0_hw10 => k0_hw10.2.1
theorem k0_idx36_inb : ∀ (v30 : IVec S16 32) (k0_hw10 : k0_chk10 v30), ∀ a x, ((![v30] : Fin 1 → IVec S16 32) a x).toNat < S100000.size a := fun v30 k0_hw10 => k0_hw10.2.2.1
theorem k0_idx49_inb : ∀ (v30 : IVec S16 32) (k0_hw10 : k0_chk10 v30), ∀ a x, ((![v30] : Fin 1 → IVec S16 32) a x).toNat < S100000.size a := fun v30 k0_hw10 => k0_hw10.2.2.2

def k0_chk11 (v32 : IVec S16 32) : Prop :=
  (∀ a x, ((![v32] : Fin 1 → IVec S16 32) a x).toNat < S100000.size a) ∧
  (∀ a x, ((![v32] : Fin 1 → IVec S16 32) a x).toNat < S100000.size a) ∧
  (∀ a x, ((![v32] : Fin 1 → IVec S16 32) a x).toNat < S100000.size a) ∧
  (∀ a x, ((![v32] : Fin 1 → IVec S16 32) a x).toNat < S100000.size a)
instance k0_chk11.dec : ∀ (v32 : IVec S16 32), Decidable (k0_chk11 v32) := fun v32 => decidable_of_iff' _ (Iff.of_eq (k0_chk11.eq_1 v32))
theorem k0_idx11_inb : ∀ (v32 : IVec S16 32) (k0_hw11 : k0_chk11 v32), ∀ a x, ((![v32] : Fin 1 → IVec S16 32) a x).toNat < S100000.size a := fun v32 k0_hw11 => k0_hw11.1
theorem k0_idx24_inb : ∀ (v32 : IVec S16 32) (k0_hw11 : k0_chk11 v32), ∀ a x, ((![v32] : Fin 1 → IVec S16 32) a x).toNat < S100000.size a := fun v32 k0_hw11 => k0_hw11.2.1
theorem k0_idx37_inb : ∀ (v32 : IVec S16 32) (k0_hw11 : k0_chk11 v32), ∀ a x, ((![v32] : Fin 1 → IVec S16 32) a x).toNat < S100000.size a := fun v32 k0_hw11 => k0_hw11.2.2.1
theorem k0_idx50_inb : ∀ (v32 : IVec S16 32) (k0_hw11 : k0_chk11 v32), ∀ a x, ((![v32] : Fin 1 → IVec S16 32) a x).toNat < S100000.size a := fun v32 k0_hw11 => k0_hw11.2.2.2

def k0_chk12 (v34 : IVec S16 32) : Prop :=
  (∀ a x, ((![v34] : Fin 1 → IVec S16 32) a x).toNat < S100000.size a) ∧
  (∀ a x, ((![v34] : Fin 1 → IVec S16 32) a x).toNat < S100000.size a) ∧
  (∀ a x, ((![v34] : Fin 1 → IVec S16 32) a x).toNat < S100000.size a) ∧
  (∀ a x, ((![v34] : Fin 1 → IVec S16 32) a x).toNat < S100000.size a)
instance k0_chk12.dec : ∀ (v34 : IVec S16 32), Decidable (k0_chk12 v34) := fun v34 => decidable_of_iff' _ (Iff.of_eq (k0_chk12.eq_1 v34))
theorem k0_idx12_inb : ∀ (v34 : IVec S16 32) (k0_hw12 : k0_chk12 v34), ∀ a x, ((![v34] : Fin 1 → IVec S16 32) a x).toNat < S100000.size a := fun v34 k0_hw12 => k0_hw12.1
theorem k0_idx25_inb : ∀ (v34 : IVec S16 32) (k0_hw12 : k0_chk12 v34), ∀ a x, ((![v34] : Fin 1 → IVec S16 32) a x).toNat < S100000.size a := fun v34 k0_hw12 => k0_hw12.2.1
theorem k0_idx38_inb : ∀ (v34 : IVec S16 32) (k0_hw12 : k0_chk12 v34), ∀ a x, ((![v34] : Fin 1 → IVec S16 32) a x).toNat < S100000.size a := fun v34 k0_hw12 => k0_hw12.2.2.1
theorem k0_idx51_inb : ∀ (v34 : IVec S16 32) (k0_hw12 : k0_chk12 v34), ∀ a x, ((![v34] : Fin 1 → IVec S16 32) a x).toNat < S100000.size a := fun v34 k0_hw12 => k0_hw12.2.2.2

def k0_chk13 (v36 : IVec S16 32) : Prop :=
  (∀ a x, ((![v36] : Fin 1 → IVec S16 32) a x).toNat < S100000.size a) ∧
  (∀ a x, ((![v36] : Fin 1 → IVec S16 32) a x).toNat < S100000.size a) ∧
  (∀ a x, ((![v36] : Fin 1 → IVec S16 32) a x).toNat < S100000.size a) ∧
  (∀ a x, ((![v36] : Fin 1 → IVec S16 32) a x).toNat < S100000.size a)
instance k0_chk13.dec : ∀ (v36 : IVec S16 32), Decidable (k0_chk13 v36) := fun v36 => decidable_of_iff' _ (Iff.of_eq (k0_chk13.eq_1 v36))
theorem k0_idx13_inb : ∀ (v36 : IVec S16 32) (k0_hw13 : k0_chk13 v36), ∀ a x, ((![v36] : Fin 1 → IVec S16 32) a x).toNat < S100000.size a := fun v36 k0_hw13 => k0_hw13.1
theorem k0_idx26_inb : ∀ (v36 : IVec S16 32) (k0_hw13 : k0_chk13 v36), ∀ a x, ((![v36] : Fin 1 → IVec S16 32) a x).toNat < S100000.size a := fun v36 k0_hw13 => k0_hw13.2.1
theorem k0_idx39_inb : ∀ (v36 : IVec S16 32) (k0_hw13 : k0_chk13 v36), ∀ a x, ((![v36] : Fin 1 → IVec S16 32) a x).toNat < S100000.size a := fun v36 k0_hw13 => k0_hw13.2.2.1
theorem k0_idx52_inb : ∀ (v36 : IVec S16 32) (k0_hw13 : k0_chk13 v36), ∀ a x, ((![v36] : Fin 1 → IVec S16 32) a x).toNat < S100000.size a := fun v36 k0_hw13 => k0_hw13.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S16 : S_.BroadcastsInDim S16 (![] : Fin 0 → Fin S16.rank)
  bcast_S_S100000 : S_.BroadcastsInDim S100000 (![] : Fin 0 → Fin S100000.rank)
  inb_S16_S16_0 : ∀ a, (![0] : Fin 1 → Nat) a + S16.size a ≤ S16.size a
  h_S16 : 0 < S16.numel
  iota_S16_d0_w32_scVector : S16.Iotas .scVector 32 [0]
  h_S1x16 : 0 < S1x16.numel
  shapeCasts_S1x16_S16 : S1x16.ShapeCasts S16
  h_S100000 : 0 < S100000.numel
  squeezes_S1x100000_S100000 : S1x100000.Squeezes S100000
  hcc0_scoped0 : 0 + S_.numel ≤ 4
  hcc0_scoped1 : 1 + S_.numel ≤ 4
  hcc0_scoped2 : 2 + S_.numel ≤ 4
  hcc0_scoped3 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32x200.size a ≤ S1024x200.size a
  k0_t1_ok : k0_t1_loop.OK
  k0_off2_inb : ∀ k0_t1 : Fin k0_t1_loop.trips, ∀ a, (k0_off2 k0_t1) a + S1x16.size a ≤ S32x200.size a
  k0_off3_inb : ∀ k0_t1 : Fin k0_t1_loop.trips, ∀ a, (k0_off3 k0_t1) a + S1x16.size a ≤ S32x200.size a
  k0_off4_inb : ∀ k0_t1 : Fin k0_t1_loop.trips, ∀ a, (k0_off4 k0_t1) a + S1x16.size a ≤ S32x200.size a
  k0_off5_inb : ∀ k0_t1 : Fin k0_t1_loop.trips, ∀ a, (k0_off5 k0_t1) a + S1x16.size a ≤ S32x200.size a
  k0_off6_inb : ∀ k0_t1 : Fin k0_t1_loop.trips, ∀ a, (k0_off6 k0_t1) a + S1x16.size a ≤ S32x200.size a
  k0_off7_inb : ∀ k0_t1 : Fin k0_t1_loop.trips, ∀ a, (k0_off7 k0_t1) a + S1x16.size a ≤ S32x200.size a
  k0_off8_inb : ∀ k0_t1 : Fin k0_t1_loop.trips, ∀ a, (k0_off8 k0_t1) a + S1x16.size a ≤ S32x200.size a
  k0_off9_inb : ∀ k0_t1 : Fin k0_t1_loop.trips, ∀ a, (k0_off9 k0_t1) a + S1x16.size a ≤ S32x200.size a
  k0_off10_inb : ∀ k0_t1 : Fin k0_t1_loop.trips, ∀ a, (k0_off10 k0_t1) a + S1x16.size a ≤ S32x200.size a
  k0_off11_inb : ∀ k0_t1 : Fin k0_t1_loop.trips, ∀ a, (k0_off11 k0_t1) a + S1x16.size a ≤ S32x200.size a
  k0_off12_inb : ∀ k0_t1 : Fin k0_t1_loop.trips, ∀ a, (k0_off12 k0_t1) a + S1x16.size a ≤ S32x200.size a
  k0_off13_inb : ∀ k0_t1 : Fin k0_t1_loop.trips, ∀ a, (k0_off13 k0_t1) a + S1x16.size a ≤ S32x200.size a
  k0_off14_inb : ∀ k0_t1 : Fin k0_t1_loop.trips, ∀ a, (k0_off14 k0_t1) a + S1x16.size a ≤ S32x200.size a
  k0_off15_inb : ∀ (i : grid0.Coords) (k0_t1 : Fin k0_t1_loop.trips), ∀ a, (k0_off15 i k0_t1) a + S1x100000.size a ≤ S1024x100000.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3

class Facts : Prop extends Facts₀ where

variable [Facts]
-- ==== ReferenceIdeal.lean ====
abbrev S1024x200 : Shape := ⟨2, ![1024, 200]⟩
abbrev S_ : Shape := ⟨0, ![]⟩
abbrev S1024 : Shape := ⟨1, ![1024]⟩
abbrev S204800 : Shape := ⟨1, ![204800]⟩
abbrev S1024x100000 : Shape := ⟨2, ![1024, 100000]⟩
abbrev S204800x1 : Shape := ⟨2, ![204800, 1]⟩
abbrev S204800x2 : Shape := ⟨2, ![204800, 2]⟩
abbrev S1 : Shape := ⟨1, ![1]⟩

abbrev nBuf : Space → Nat
  | .hbm => 37
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S_, .f32⟩
  | .hbm, ⟨2, _⟩ => ⟨S1024, .i32⟩
  | .hbm, ⟨3, _⟩ => ⟨S1024x200, .i32⟩
  | .hbm, ⟨4, _⟩ => ⟨S204800, .i32⟩
  | .hbm, ⟨5, _⟩ => ⟨S204800, .i32⟩
  | .hbm, ⟨6, _⟩ => ⟨S_, .f32⟩
  | .hbm, ⟨7, _⟩ => ⟨S1024x100000, .f32⟩
  | .hbm, ⟨8, _⟩ => ⟨S_, .i32⟩
  | .hbm, ⟨9, _⟩ => ⟨S204800, .i32⟩
  | .hbm, ⟨10, _⟩ => ⟨S204800, .i1⟩
  | .hbm, ⟨11, _⟩ => ⟨S_, .i32⟩
  | .hbm, ⟨12, _⟩ => ⟨S204800, .i32⟩
  | .hbm, ⟨13, _⟩ => ⟨S204800, .i32⟩
  | .hbm, ⟨14, _⟩ => ⟨S204800, .i32⟩
  | .hbm, ⟨15, _⟩ => ⟨S_, .i32⟩
  | .hbm, ⟨16, _⟩ => ⟨S204800, .i32⟩
  | .hbm, ⟨17, _⟩ => ⟨S204800, .i1⟩
  | .hbm, ⟨18, _⟩ => ⟨S_, .i32⟩
  | .hbm, ⟨19, _⟩ => ⟨S204800, .i32⟩
  | .hbm, ⟨20, _⟩ => ⟨S204800, .i32⟩
  | .hbm, ⟨21, _⟩ => ⟨S204800, .i32⟩
  | .hbm, ⟨22, _⟩ => ⟨S204800x1, .i32⟩
  | .hbm, ⟨23, _⟩ => ⟨S204800x1, .i32⟩
  | .hbm, ⟨24, _⟩ => ⟨S204800x2, .i32⟩
  | .hbm, ⟨25, _⟩ => ⟨S_, .f32⟩
  | .hbm, ⟨26, _⟩ => ⟨S204800, .f32⟩
  | .hbm, ⟨27, _⟩ => ⟨S1024x100000, .f32⟩
  | .hbm, ⟨28, _⟩ => ⟨S_, .i32⟩
  | .hbm, ⟨29, _⟩ => ⟨S1, .i32⟩
  | .hbm, ⟨30, _⟩ => ⟨S_, .f32⟩
  | .hbm, ⟨31, _⟩ => ⟨S1024, .f32⟩
  | .hbm, ⟨32, _⟩ => ⟨S1024x100000, .f32⟩
  | .hbm, ⟨33, _⟩ => ⟨S_, .f32⟩
  | .hbm, ⟨34, _⟩ => ⟨S1024x100000, .f32⟩
  | .hbm, ⟨35, _⟩ => ⟨S1024x100000, .f32⟩
  | .hbm, ⟨36, _⟩ => ⟨S1024x100000, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S1024_S1024x200_0 : S1024.BroadcastsInDim S1024x200 (![0] : Fin 1 → Fin S1024x200.rank)
  shapeCasts_S1024x200_S204800 : S1024x200.ShapeCasts S204800
  bcast_S_S1024x100000 : S_.BroadcastsInDim S1024x100000 (![] : Fin 0 → Fin S1024x100000.rank)
  bcast_S_S204800 : S_.BroadcastsInDim S204800 (![] : Fin 0 → Fin S204800.rank)
  bcast_S204800_S204800x1_0 : S204800.BroadcastsInDim S204800x1 (![0] : Fin 1 → Fin S204800x1.rank)
  concatenates_S204800x1_S204800x1_S204800x2_d1 : Shape.Concatenates [S204800x1, S204800x1] S204800x2 1
  bcast_S_S1 : S_.BroadcastsInDim S1 (![] : Fin 0 → Fin S1.rank)
  bcast_S_S1024 : S_.BroadcastsInDim S1024 (![] : Fin 0 → Fin S1024.rank)
  scatter_S1024x100000_S204800x2_S204800_n_01_01_1_wf : ScatterDims.WF S1024x100000 S204800x2 S204800 [] [0, 1] [0, 1] 1
  scatter_S1024x100000_S1_S1024_0_1_1_0_wf : ScatterDims.WF S1024x100000 S1 S1024 [0] [1] [1] 0

variable [Facts₀]

def scatter_S1024x100000_S204800x2_S204800_n_01_01_1 : ScatterDims S1024x100000 S204800x2 S204800 where
  updateWindowDims := []
  insertedWindowDims := [0, 1]
  scatterDimsToOperandDims := [0, 1]
  indexVectorDim := 1
  wf := scatter_S1024x100000_S204800x2_S204800_n_01_01_1_wf
def scatter_S1024x100000_S1_S1024_0_1_1_0 : ScatterDims S1024x100000 S1 S1024 where
  updateWindowDims := [0]
  insertedWindowDims := [1]
  scatterDimsToOperandDims := [1]
  indexVectorDim := 0
  wf := scatter_S1024x100000_S1_S1024_0_1_1_0_wf

class Facts : Prop extends Facts₀ where

variable [Facts]
-- ==== Proof.Trip.lean ====
/-
  One document row on one vector subcore, as pure functions of the row's index vectors.

  The kernel treats a row of 200 token ids as thirteen 16-lane index vectors (twelve aligned ones and a tail
  vector that overlaps the twelfth, so its scatter-add carries a mask). On a count row that starts at one constant
  it (1) adds one at every masked lane's token, (2) reads the counts back at every lane and stores, at the lane's
  token, the count encoded as c / (c + e) (zero where the token is the padding token 1), (3) after the row has
  been copied out, stores the constant back at every lane's token. Here the three phases are folds of the
  indexed store over the list of index vectors, for any float instance.
-/
import Idealize.ShloMosaic.PureOps
import Idealize.ShloMosaic.PureOps.Ideal

noncomputable section

namespace Cert.Trip

open Idealize.ShloMosaic

abbrev L16 : Shape := ⟨1, ![16]⟩
abbrev N : Shape := ⟨1, ![100000]⟩

variable {F : FTy → Type} [FloatOps F]

/-- One 16-lane vector of token ids, each a valid index of the count row, with the mask its scatter-add carries. -/
structure Lane16 where
  idx : IVec L16 32
  inb : ∀ a x, ((![idx] : Fin 1 → IVec L16 32) a x).toNat < N.size a
  mask : IVec L16 1

/-- Every lane stored. -/
def allLanes : IVec L16 1 := fun _ => 1#1

/-- The count row's index a lane names. -/
def Lane16.at (o : Lane16) (x : L16.Idx) : N.Idx := idxAt ![o.idx] o.inb x

/-- A count `c` encoded against `e`: c / (c + e), and zero at the padding token 1. -/
def encLane (e : FVec F L16 .f32) (idx : IVec L16 32) (c : Vec F L16 .f32) : FVec F L16 .f32 :=
  select (cmpi .eq idx (broadcast L16 1#32)) (broadcast L16 (Scalar.ofBits .f32 0x00000000#32)) (divf c (addf c e))

/-- Phase 1: `one` added at every masked lane's token, vector by vector, lane by lane. -/
def counted (ops : List Lane16) (one : FVec F L16 .f32) (f : Vec F N .f32) : Vec F N .f32 :=
  ops.foldl (fun g o => storeIdx g ![o.idx] one o.mask true o.inb) f

/-- Phase 2: at every lane's token, the encoding of the count `g₁` holds there. -/
def encoded (ops : List Lane16) (e : FVec F L16 .f32) (g₁ f : Vec F N .f32) : Vec F N .f32 :=
  ops.foldl (fun g o => storeIdx g ![o.idx] (encLane e o.idx (loadIdx g₁ ![o.idx] o.inb)) allLanes false o.inb) f

/-- Phase 3: `z` stored at every lane's token. -/
def cleared (ops : List Lane16) (z : FVec F L16 .f32) (f : Vec F N .f32) : Vec F N .f32 :=
  ops.foldl (fun g o => storeIdx g ![o.idx] z allLanes false o.inb) f

/-- The row that is copied out: phases 1 and 2 from the start row `f₀`. -/
def rowOut (ops : List Lane16) (one e : FVec F L16 .f32) (f₀ : Vec F N .f32) : Vec F N .f32 :=
  encoded ops e (counted ops one f₀) (counted ops one f₀)

/-- A token some lane of some vector names. -/
def Named (ops : List Lane16) (j : N.Idx) : Prop := ∃ o ∈ ops, ∃ x : L16.Idx, o.at x = j

/-! ### One indexed store, lane by lane -/

section OneStore
variable {s : Shape} {e : EltTy} {d : Fin 1 → Nat}

/-- Two multi-indices whose coordinates have equal values are equal. -/
theorem idx_val_eq_iff (j i : s.Idx) : (∀ a, (j a).val = (i a).val) ↔ j = i := by
  constructor
  · intro h; funext a; exact Fin.ext (h a)
  · rintro rfl a; rfl

/-- Every index of a rank-one shape is the multi-index of its lane. -/
theorem ofLane_zero (x : (⟨1, d⟩ : Shape).Idx) : Shape.ofLane (x 0) = x := by
  funext a
  have ha : a = 0 := Fin.eq_zero a
  subst ha
  rfl

/-- What one lane of an indexed store does to the base's contents. -/
def laneStep (idxs : Fin s.rank → IVec ⟨1, d⟩ 32) (v : Vec F ⟨1, d⟩ e) (mask : IVec ⟨1, d⟩ 1) (add : Bool)
    (h : ∀ a x, (idxs a x).toNat < s.size a) (g : Vec F s e) (k : Fin (d 0)) : Vec F s e :=
  let x := Shape.ofLane k
  if mask x = 1 then
    let i := idxAt idxs h x
    let y := if add then Elt.idxAdd e (g i) (v x) else v x
    fun j => if (∀ a, (j a).val = (i a).val) then y else g j
  else g

theorem storeIdx_eq_foldl (f : Vec F s e) (idxs : Fin s.rank → IVec ⟨1, d⟩ 32) (v : Vec F ⟨1, d⟩ e)
    (mask : IVec ⟨1, d⟩ 1) (add : Bool) (h : ∀ a x, (idxs a x).toNat < s.size a) :
    storeIdx f idxs v mask add h = (List.finRange (d 0)).foldl (laneStep idxs v mask add h) f := rfl

variable (idxs : Fin s.rank → IVec ⟨1, d⟩ 32) (v : Vec F ⟨1, d⟩ e) (mask : IVec ⟨1, d⟩ 1) (add : Bool)
  (h : ∀ a x, (idxs a x).toNat < s.size a)

/-- One lane at one index: a set lane that names the index writes it, every other lane leaves it. -/
theorem laneStep_apply (g : Vec F s e) (k : Fin (d 0)) (j : s.Idx) :
    laneStep idxs v mask add h g k j =
      if mask (Shape.ofLane k) = 1 ∧ idxAt idxs h (Shape.ofLane k) = j then
        (if add then Elt.idxAdd e (g j) (v (Shape.ofLane k)) else v (Shape.ofLane k))
      else g j := by
  unfold laneStep
  by_cases hm : mask (Shape.ofLane k) = 1
  · by_cases hj : idxAt idxs h (Shape.ofLane k) = j
    · have hj' : ∀ a, (j a).val = (idxAt idxs h (Shape.ofLane k) a).val := by rw [hj]; intro a; rfl
      simp only [hm, if_true, hj', implies_true, true_and]
      rw [if_pos hj, hj]
    · have hj' : ¬ ∀ a, (j a).val = (idxAt idxs h (Shape.ofLane k) a).val :=
        fun hh => hj ((idx_val_eq_iff _ _).1 hh).symm
      simp only [hm, if_true, hj', if_false, true_and]
      rw [if_neg hj]
  · simp only [hm, if_false, false_and]

/-- One overwriting lane at one index. -/
theorem laneStep_store (g : Vec F s e) (k : Fin (d 0)) (j : s.Idx) :
    laneStep idxs v mask false h g k j =
      if mask (Shape.ofLane k) = 1 ∧ idxAt idxs h (Shape.ofLane k) = j then v (Shape.ofLane k) else g j := by
  rw [laneStep_apply]; rfl

/-- An index no set lane of the list names is left as it was. -/
theorem foldl_laneStep_of_not_hit (l : List (Fin (d 0))) (f : Vec F s e) (j : s.Idx)
    (hn : ∀ k ∈ l, ¬ (mask (Shape.ofLane k) = 1 ∧ idxAt idxs h (Shape.ofLane k) = j)) :
    l.foldl (laneStep idxs v mask add h) f j = f j := by
  induction l generalizing f with
  | nil => rfl
  | cons k l ih =>
    rw [List.foldl_cons, ih _ (fun k' hk' => hn k' (List.mem_cons_of_mem _ hk')), laneStep_apply,
      if_neg (hn k (by simp))]

/-- Overwriting stores whose set lanes naming `j` all carry `y` keep the value `y` at `j`. -/
theorem foldl_laneStep_eq_of_start (l : List (Fin (d 0))) (f : Vec F s e) (j : s.Idx) (y : Elt F e)
    (hv : ∀ k ∈ l, mask (Shape.ofLane k) = 1 → idxAt idxs h (Shape.ofLane k) = j → v (Shape.ofLane k) = y)
    (hf : f j = y) :
    l.foldl (laneStep idxs v mask false h) f j = y := by
  induction l generalizing f with
  | nil => exact hf
  | cons k l ih =>
    rw [List.foldl_cons]
    apply ih _ (fun k' hk' => hv k' (List.mem_cons_of_mem _ hk'))
    rw [laneStep_store]
    split_ifs with hc
    · exact hv k (by simp) hc.1 hc.2
    · exact hf

/-- Overwriting stores whose set lanes naming `j` all carry `y`, one of them at least, leave `y` at `j`. -/
theorem foldl_laneStep_eq_of_hit (l : List (Fin (d 0))) (f : Vec F s e) (j : s.Idx) (y : Elt F e)
    (hv : ∀ k ∈ l, mask (Shape.ofLane k) = 1 → idxAt idxs h (Shape.ofLane k) = j → v (Shape.ofLane k) = y)
    (hex : ∃ k ∈ l, mask (Shape.ofLane k) = 1 ∧ idxAt idxs h (Shape.ofLane k) = j) :
    l.foldl (laneStep idxs v mask false h) f j = y := by
  induction l generalizing f with
  | nil => obtain ⟨k, hk, _⟩ := hex; exact absurd hk (by simp)
  | cons k l ih =>
    rw [List.foldl_cons]
    have hv' : ∀ k' ∈ l, mask (Shape.ofLane k') = 1 → idxAt idxs h (Shape.ofLane k') = j → v (Shape.ofLane k') = y :=
      fun k' hk' => hv k' (List.mem_cons_of_mem _ hk')
    by_cases hc : mask (Shape.ofLane k) = 1 ∧ idxAt idxs h (Shape.ofLane k) = j
    · apply foldl_laneStep_eq_of_start idxs v mask h l _ j y hv'
      rw [laneStep_store, if_pos hc]
      exact hv k (by simp) hc.1 hc.2
    · apply ih _ hv'
      obtain ⟨k', hk', hc'⟩ := hex
      rcases List.mem_cons.1 hk' with rfl | hk''
      · exact absurd hc' hc
      · exact ⟨k', hk'', hc'⟩

variable (f : Vec F s e) (j : s.Idx)

/-- An indexed store leaves an index no set lane names as it was. -/
theorem storeIdx_of_not_hit (hn : ∀ x, mask x = 1 → idxAt idxs h x ≠ j) :
    storeIdx f idxs v mask add h j = f j := by
  rw [storeIdx_eq_foldl]
  exact foldl_laneStep_of_not_hit idxs v mask add h _ f j (fun k _ hc => hn _ hc.1 hc.2)

/-- An overwriting indexed store whose set lanes naming `j` all carry `y` keeps `y` at `j`. -/
theorem storeIdx_eq_of_start (y : Elt F e) (hv : ∀ x, mask x = 1 → idxAt idxs h x = j → v x = y) (hf : f j = y) :
    storeIdx f idxs v mask false h j = y := by
  rw [storeIdx_eq_foldl]
  exact foldl_laneStep_eq_of_start idxs v mask h _ f j y (fun k _ => hv _) hf

/-- An overwriting indexed store whose set lanes naming `j` all carry `y`, one of them at least, leaves
    `y` at `j`. -/
theorem storeIdx_eq_of_hit (y : Elt F e) (hv : ∀ x, mask x = 1 → idxAt idxs h x = j → v x = y)
    (hex : ∃ x, mask x = 1 ∧ idxAt idxs h x = j) :
    storeIdx f idxs v mask false h j = y := by
  rw [storeIdx_eq_foldl]
  obtain ⟨x, hx⟩ := hex
  refine foldl_laneStep_eq_of_hit idxs v mask h _ f j y (fun k _ => hv _) ⟨x 0, List.mem_finRange _, ?_⟩
  rw [ofLane_zero]; exact hx

end OneStore

/-! ### A phase: indexed stores vector by vector -/

/-- The common form of the three phases: one indexed store per index vector, its value and mask the vector's. -/
def foldStore (ops : List Lane16) (v : Lane16 → FVec F L16 .f32) (m : Lane16 → IVec L16 1) (add : Bool)
    (f : Vec F N .f32) : Vec F N .f32 :=
  ops.foldl (fun g o => storeIdx g ![o.idx] (v o) (m o) add o.inb) f

theorem counted_eq_foldStore (ops : List Lane16) (one : FVec F L16 .f32) (f : Vec F N .f32) :
    counted ops one f = foldStore ops (fun _ => one) (fun o => o.mask) true f := rfl

theorem encoded_eq_foldStore (ops : List Lane16) (e : FVec F L16 .f32) (g₁ f : Vec F N .f32) :
    encoded ops e g₁ f
      = foldStore ops (fun o => encLane e o.idx (loadIdx g₁ ![o.idx] o.inb)) (fun _ => allLanes) false f := rfl

theorem cleared_eq_foldStore (ops : List Lane16) (z : FVec F L16 .f32) (f : Vec F N .f32) :
    cleared ops z f = foldStore ops (fun _ => z) (fun _ => allLanes) false f := rfl

theorem foldStore_cons (o : Lane16) (ops : List Lane16) (v : Lane16 → FVec F L16 .f32) (m : Lane16 → IVec L16 1)
    (add : Bool) (f : Vec F N .f32) :
    foldStore (o :: ops) v m add f = foldStore ops v m add (storeIdx f ![o.idx] (v o) (m o) add o.inb) := rfl

/-- A token no lane names is left as it was by a whole phase. -/
theorem foldStore_of_not_named (ops : List Lane16) (v : Lane16 → FVec F L16 .f32) (m : Lane16 → IVec L16 1)
    (add : Bool) (f : Vec F N .f32) (j : N.Idx) (hn : ¬ Named ops j) :
    foldStore ops v m add f j = f j := by
  induction ops generalizing f with
  | nil => rfl
  | cons o ops ih =>
    have h1 : ¬ Named ops j := fun ⟨o', ho', x, hx⟩ => hn ⟨o', List.mem_cons_of_mem _ ho', x, hx⟩
    have h2 : ∀ x, o.at x ≠ j := fun x hx => hn ⟨o, by simp, x, hx⟩
    rw [foldStore_cons, ih _ h1]
    exact storeIdx_of_not_hit (s := N) (e := .f32) (d := ![16]) ![o.idx] (v o) (m o) add o.inb f j (fun x _ => h2 x)

/-- An overwriting phase whose set lanes naming `j` all carry `y` keeps `y` at `j`. -/
theorem foldStore_eq_of_start (ops : List Lane16) (v : Lane16 → FVec F L16 .f32) (m : Lane16 → IVec L16 1)
    (f : Vec F N .f32) (j : N.Idx) (y : F .f32)
    (hv : ∀ o ∈ ops, ∀ x, m o x = 1 → o.at x = j → v o x = y) (hf : f j = y) :
    foldStore ops v m false f j = y := by
  induction ops generalizing f with
  | nil => exact hf
  | cons o ops ih =>
    rw [foldStore_cons]
    apply ih _ (fun o' ho' => hv o' (List.mem_cons_of_mem _ ho'))
    exact storeIdx_eq_of_start (s := N) (e := .f32) (d := ![16]) ![o.idx] (v o) (m o) o.inb f j y (hv o (by simp)) hf

/-- An overwriting phase whose set lanes naming `j` all carry `y`, one of them at least, leaves `y` at `j`. -/
theorem foldStore_eq_of_hit (ops : List Lane16) (v : Lane16 → FVec F L16 .f32) (m : Lane16 → IVec L16 1)
    (f : Vec F N .f32) (j : N.Idx) (y : F .f32)
    (hv : ∀ o ∈ ops, ∀ x, m o x = 1 → o.at x = j → v o x = y)
    (hex : ∃ o ∈ ops, ∃ x, m o x = 1 ∧ o.at x = j) :
    foldStore ops v m false f j = y := by
  induction ops generalizing f with
  | nil => obtain ⟨o, ho, _⟩ := hex; exact absurd ho (by simp)
  | cons o ops ih =>
    rw [foldStore_cons]
    have hv' : ∀ o' ∈ ops, ∀ x, m o' x = 1 → o'.at x = j → v o' x = y :=
      fun o' ho' => hv o' (List.mem_cons_of_mem _ ho')
    by_cases hc : ∃ x, m o x = 1 ∧ o.at x = j
    · apply foldStore_eq_of_start ops v m _ j y hv'
      exact storeIdx_eq_of_hit (s := N) (e := .f32) (d := ![16]) ![o.idx] (v o) (m o) o.inb f j y (hv o (by simp)) hc
    · apply ih _ hv'
      obtain ⟨o', ho', hc'⟩ := hex
      rcases List.mem_cons.1 ho' with rfl | ho''
      · exact absurd hc' hc
      · exact ⟨o', ho'', hc'⟩

/-- With every lane stored, a named token is one some set lane names. -/
theorem named_allLanes {ops : List Lane16} {j : N.Idx} (hn : Named ops j) :
    ∃ o ∈ ops, ∃ x, (fun _ : Lane16 => allLanes) o x = 1 ∧ o.at x = j := by
  obtain ⟨o, ho, x, hx⟩ := hn
  exact ⟨o, ho, x, rfl, hx⟩

/-- A lane's word is its token: two lanes that name one token hold the same word. -/
theorem idx_eq_of_at_eq {o o' : Lane16} {x x' : L16.Idx} (hh : o'.at x' = o.at x) : o'.idx x' = o.idx x := by
  have h0 := congrArg (fun i : N.Idx => (i 0).val) hh
  exact BitVec.eq_of_toNat_eq h0

/-- The encoding at a lane depends only on the lane's word, its count and its `e`. -/
theorem encLane_congr {e e' : FVec F L16 .f32} {idx idx' : IVec L16 32} {c c' : Vec F L16 .f32} {x x' : L16.Idx}
    (hi : idx x = idx' x') (hc : c x = c' x') (he : e x = e' x') :
    encLane e idx c x = encLane e' idx' c' x' := by
  simp only [encLane, select, cmpi, broadcast, divf, addf, hi, hc, he]

/-- A token no lane names keeps the start row's element through phase 1. -/
theorem counted_of_not_named (ops : List Lane16) (one : FVec F L16 .f32) (f₀ : Vec F N .f32) (j : N.Idx) (h : ¬ Named ops j) :
    counted ops one f₀ j = f₀ j := by
  rw [counted_eq_foldStore]; exact foldStore_of_not_named _ _ _ _ _ _ h

/-- A token no lane of the row names keeps the start row's element through phases 1 and 2. -/
theorem rowOut_of_not_named (ops : List Lane16) (one e : FVec F L16 .f32) (f₀ : Vec F N .f32) (j : N.Idx) (h : ¬ Named ops j) :
    rowOut ops one e f₀ j = f₀ j := by
  unfold rowOut
  rw [encoded_eq_foldStore, foldStore_of_not_named _ _ _ _ _ _ h]
  exact counted_of_not_named ops one f₀ j h

/-- From a constant row, storing that constant back at every named token after phases 1 and 2 gives the constant
    row again: a token no lane names was never written, and a named one is overwritten. -/
theorem cleared_rowOut (ops : List Lane16) (one e : FVec F L16 .f32) (zc : F .f32) :
    cleared ops (fun _ => zc) (rowOut ops one e (fun _ => zc)) = fun _ => zc := by
  funext j
  rw [cleared_eq_foldStore]
  by_cases hn : Named ops j
  · exact foldStore_eq_of_hit ops _ _ _ j zc (fun _ _ _ _ _ => rfl) (named_allLanes hn)
  · rw [foldStore_of_not_named _ _ _ _ _ _ hn]
    exact rowOut_of_not_named ops one e _ j hn

/-- A named token holds, after phases 1 and 2, the encoding of its count against a lane-constant `e`: every lane
    that names it stores that same value (the lane's word is the token, the count is the token's), so the order of
    the stores does not matter. -/
theorem rowOut_of_named (ops : List Lane16) (one : FVec F L16 .f32) (ec : F .f32) (f₀ : Vec F N .f32) (j : N.Idx)
    (o : Lane16) (ho : o ∈ ops) (x : L16.Idx) (hx : o.at x = j) :
    rowOut ops one (fun _ => ec) f₀ j = encLane (fun _ => ec) o.idx (fun _ => counted ops one f₀ j) x := by
  unfold rowOut
  rw [encoded_eq_foldStore]
  refine foldStore_eq_of_hit ops _ _ _ j _ ?_ (named_allLanes ⟨o, ho, x, hx⟩)
  intro o' _ x' _ hx'
  refine encLane_congr (idx_eq_of_at_eq (hx'.trans hx.symm)) ?_ rfl
  show counted ops one f₀ (o'.at x') = counted ops one f₀ j
  rw [hx']

/-! ### Phase 1 at the ideal instance: adding one counts the set lanes -/

section IdealCount
variable {s : Shape} {d : Fin 1 → Nat}
  (idxs : Fin s.rank → IVec ⟨1, d⟩ 32) (mask : IVec ⟨1, d⟩ 1) (h : ∀ a x, (idxs a x).toNat < s.size a)

/-- Adding one lane by lane: the lanes of the list that are set and name `j` are counted onto the start value. -/
theorem foldl_laneStep_add_one (l : List (Fin (d 0))) (f : s.Idx → EReal) (j : s.Idx) :
    l.foldl (laneStep (F := Ideal) (e := .f32) idxs (fun _ => (1 : EReal)) mask true h) f j
      = f j + ((l.countP fun k => decide (mask (Shape.ofLane k) = 1 ∧ idxAt idxs h (Shape.ofLane k) = j) : ℕ) : EReal) := by
  induction l generalizing f with
  | nil => simp
  | cons k l ih =>
    rw [List.foldl_cons, ih, laneStep_apply, List.countP_cons]
    by_cases hc : mask (Shape.ofLane k) = 1 ∧ idxAt idxs h (Shape.ofLane k) = j
    · rw [if_pos hc, if_pos rfl, Elt.idxAdd_f32, Ideal.idxAddf_def, if_pos (decide_eq_true hc)]
      push_cast
      rw [add_assoc, add_comm (1 : EReal)]
    · rw [if_neg hc, if_neg (by simpa using hc), Nat.add_zero]

/-- The lanes satisfying a property, counted along the list of lanes or as a finite set of indices. -/
theorem countP_finRange_eq_card (p : (⟨1, d⟩ : Shape).Idx → Prop) [DecidablePred p] :
    (List.finRange (d 0)).countP (fun k => decide (p (Shape.ofLane k))) = (Finset.univ.filter p).card := by
  have h1 := (List.nodup_finRange (d 0)).card_eq_countP (P := fun k => p (Shape.ofLane k))
  rw [List.toFinset_finRange] at h1
  rw [← h1]
  refine Finset.card_bij' (fun k _ => Shape.ofLane k) (fun x _ => x 0) ?_ ?_ ?_ ?_
  · intro k hk; simpa using hk
  · intro x hx
    have hx' : p x := by simpa using hx
    simp only [Finset.mem_filter, Finset.mem_univ, true_and]
    rw [ofLane_zero]; exact hx'
  · intro k _; rfl
  · intro x _; exact ofLane_zero x

/-- One indexed store adding one, at the ideal instance: the set lanes that name `j` are counted onto it. -/
theorem storeIdx_add_one_ideal (f : s.Idx → EReal) (j : s.Idx) :
    storeIdx (F := Ideal) (e := .f32) f idxs (fun _ => (1 : EReal)) mask true h j
      = f j + (((Finset.univ.filter fun x : (⟨1, d⟩ : Shape).Idx => mask x = 1 ∧ idxAt idxs h x = j).card : ℕ) : EReal) := by
  rw [storeIdx_eq_foldl, foldl_laneStep_add_one,
    countP_finRange_eq_card (fun x => mask x = 1 ∧ idxAt idxs h x = j)]

end IdealCount

/-- At the ideal instance, adding 1 in phase 1 leaves at token j the start value plus the number of masked lanes
    that name j. -/
theorem counted_ideal_add (ops : List Lane16) (f₀ : N.Idx → EReal) (j : N.Idx) :
    counted (F := Ideal) ops (fun _ => (1 : EReal)) f₀ j
      = f₀ j + (((ops.map fun o => (Finset.univ.filter fun x : L16.Idx => o.mask x = 1 ∧ o.at x = j).card).sum : ℕ) : EReal) := by
  induction ops generalizing f₀ with
  | nil => simp [counted]
  | cons o ops ih =>
    have hc : counted (F := Ideal) (o :: ops) (fun _ => (1 : EReal)) f₀
        = counted (F := Ideal) ops (fun _ => (1 : EReal))
            (storeIdx (F := Ideal) (e := .f32) f₀ ![o.idx] (fun _ => (1 : EReal)) o.mask true o.inb) := rfl
    rw [hc, ih, storeIdx_add_one_ideal (s := N) (d := ![16]) ![o.idx] o.mask o.inb f₀ j, List.map_cons, List.sum_cons]
    push_cast
    rw [add_assoc]
    rfl

/-- At the ideal instance, from the zero row and adding 1, phase 1 leaves at token j the number of masked lanes that name j. -/
theorem counted_ideal (ops : List Lane16) (j : N.Idx) :
    counted (F := Ideal) ops (fun _ => (1 : EReal)) (fun _ => (0 : EReal)) j
      = (((ops.map fun o => (Finset.univ.filter fun x : L16.Idx => o.mask x = 1 ∧ o.at x = j).card).sum : ℕ) : EReal) := by
  rw [counted_ideal_add, zero_add]

end Cert.Trip

end
-- ==== Proof.Res.lean ====
/-
  What the tile task and the launch share: the program as the launch theorem sees it, the resource algebra (the
  handshakes' rounds beside the transfers' counters: the kernel only makes local copies and waits for each before
  it goes on), the arrays and each tile's share of them, and the row a tile leaves in `out` as a pure function of
  the launch memory.

  Tile (c, s) has number w = 2 s + c and owns rows [32 w, 32 w + 32) of the token ids and of the result; the
  broadcast `exp` argument and the zero row are read whole by every tile, so each tile holds a read share of them.
-/
import proofs.«205751_g1185410973873_cont_main3_201_3_alg».proof.Defs
import proofs.«205751_g1185410973873_cont_main3_201_3_alg».proof.Proof.Gen.KernelIdeal
import proofs.«205751_g1185410973873_cont_main3_201_3_alg».proof.Proof.Gen.KernelIdeal.Skeleton
import proofs.«205751_g1185410973873_cont_main3_201_3_alg».proof.Proof.Trip
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev idsLoc (d : Dev nD) : Loc nD τ sig := (SparseCore.T d).loc main_arg0
abbrev betaLoc (d : Dev nD) : Loc nD τ sig := (SparseCore.T d).loc main_arg1
abbrev bvLoc (d : Dev nD) : Loc nD τ sig := (SparseCore.T d).loc main_v0
abbrev cstLoc (d : Dev nD) : Loc nD τ sig := (SparseCore.T d).loc main_cst
abbrev zLoc (d : Dev nD) : Loc nD τ sig := (SparseCore.T d).loc main_v1
abbrev outLoc (d : Dev nD) : Loc nD τ sig := (SparseCore.T d).loc main_v2

/-- The kernel's memrefs, spelt as the body table passes them. -/
abbrev idsW : Memref sig .scVector .hbm S1024x200 .i32 := Memref.whole main_arg0_scv
abbrev bvW : Memref sig .scVector .hbm S16 .f32 := Memref.whole main_v0_scv
abbrev zW : Memref sig .scVector .hbm S100000 .f32 := Memref.whole main_v1_scv
abbrev outW : Memref sig .scVector .hbm S1024x100000 .f32 := Memref.whole main_v2_scv
abbrev s0W : Memref sig .scVector .vmem S32x200 .i32 := Memref.whole cc0_scratch0
abbrev s1W : Memref sig .scVector .vmem S100000 .f32 := Memref.whole cc0_scratch1
abbrev s2W : Memref sig .scVector .vmem S16 .f32 := Memref.whole cc0_scratch2

/-! ## A tile -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The tile's thread. -/
abbrev thrV (d : Dev nD) (L : grid0.Coords) : Thread nD τ := V d (cV L) (jV L)

/-- The tile's 32 rows of token ids, as the task slices them; -/
abbrev idsSl (L : grid0.Coords) : Memref sig .scVector .hbm S32x200 .i32 :=
  (idsW).slice (Rect.unit (s := S1024x200) (k0_off1 L) S32x200.size (k0_off1_inb L)) (fun _ => rfl)
/-- row `k` of the tile's rows of the result, as trip `k` slices and squeezes it. -/
abbrev outRow (L : grid0.Coords) (k : Fin k0_t1_loop.trips) : Memref sig .scVector .hbm S100000 .f32 :=
  ((outW).slice (Rect.unit (s := S1024x100000) (k0_off15 L k) S1x100000.size (k0_off15_inb L k)) (fun _ => rfl)).squeeze S100000 squeezes_S1x100000_S100000

/-- The elements of the token ids a tile owns, -/
abbrev idsSet (L : grid0.Coords) : Finset S1024x200.Idx := (idsSl L).view.set
/-- one row of the result, and the tile's 32 rows of it. -/
abbrev outRowSet (L : grid0.Coords) (k : Fin k0_t1_loop.trips) : Finset S1024x100000.Idx := (outRow L k).view.set
def outSet (L : grid0.Coords) : Finset S1024x100000.Idx := Finset.univ.biUnion (outRowSet L)

/-! ## What a tile computes -/

variable [FloatOps F]

/-- Every token id names an element of a count row. (What the certificate's precondition says of the launch memory.) -/
def IdsOK : Prop := ∀ (d : Dev nD) (i : S1024x200.Idx), ((m (idsLoc d) : Vec F S1024x200 .i32) i).toNat < 100000

variable (d : Dev nD)

/-- The tile's token rows, as its scratch holds them after the fetch. -/
def idsScr (L : grid0.Coords) : Vec F S32x200 .i32 := (idsSl L).view.read (Elt F) (m (idsLoc d))

/-- Sixteen tokens of a scratch row, at the offsets `off`. -/
def laneAt (L : grid0.Coords) (off : Fin 2 → Nat) (hoff : ∀ a, off a + S1x16.size a ≤ S32x200.size a) : IVec S16 32 :=
  shapeCast S16 ((s0W).view.readAt (Elt F) (Rect.unit (s := S32x200) off S1x16.size hoff).toLoadRect (idsScr m d L)) shapeCasts_S1x16_S16

def LaneOK (v : IVec S16 32) : Prop := ∀ a x, ((![v] : Fin 1 → IVec S16 32) a x).toNat < S100000.size a

/-- A lane's words are words of the token ids, so they are in range. -/
theorem laneOK_of_idsOK (hok : IdsOK m) (L : grid0.Coords) (off : Fin 2 → Nat) (hoff : ∀ a, off a + S1x16.size a ≤ S32x200.size a) :
    LaneOK (laneAt m d L off hoff) := by
  intro a x
  have ha : a = 0 := Subsingleton.elim _ _
  subst ha
  exact hok d ((idsSl L).view.emb ((s0W).view.emb ((Rect.unit (s := S32x200) off S1x16.size hoff).toLoadRect.idx
    (Shape.reshapeEquiv shapeCasts_S1x16_S16 x))))

/-- The row's tokens at columns 0..15, as trip `k` loads them. -/
def lane2 (L : grid0.Coords) (k : Fin k0_t1_loop.trips) : IVec S16 32 :=
  laneAt m d L (k0_off2 k) (k0_off2_inb k)
/-- The row's tokens at columns 16..31, as trip `k` loads them. -/
def lane3 (L : grid0.Coords) (k : Fin k0_t1_loop.trips) : IVec S16 32 :=
  laneAt m d L (k0_off3 k) (k0_off3_inb k)
/-- The row's tokens at columns 32..47, as trip `k` loads them. -/
def lane4 (L : grid0.Coords) (k : Fin k0_t1_loop.trips) : IVec S16 32 :=
  laneAt m d L (k0_off4 k) (k0_off4_inb k)
/-- The row's tokens at columns 48..63, as trip `k` loads them. -/
def lane5 (L : grid0.Coords) (k : Fin k0_t1_loop.trips) : IVec S16 32 :=
  laneAt m d L (k0_off5 k) (k0_off5_inb k)
/-- The row's tokens at columns 64..79, as trip `k` loads them. -/
def lane6 (L : grid0.Coords) (k : Fin k0_t1_loop.trips) : IVec S16 32 :=
  laneAt m d L (k0_off6 k) (k0_off6_inb k)
/-- The row's tokens at columns 80..95, as trip `k` loads them. -/
def lane7 (L : grid0.Coords) (k : Fin k0_t1_loop.trips) : IVec S16 32 :=
  laneAt m d L (k0_off7 k) (k0_off7_inb k)
/-- The row's tokens at columns 96..111, as trip `k` loads them. -/
def lane8 (L : grid0.Coords) (k : Fin k0_t1_loop.trips) : IVec S16 32 :=
  laneAt m d L (k0_off8 k) (k0_off8_inb k)
/-- The row's tokens at columns 112..127, as trip `k` loads them. -/
def lane9 (L : grid0.Coords) (k : Fin k0_t1_loop.trips) : IVec S16 32 :=
  laneAt m d L (k0_off9 k) (k0_off9_inb k)
/-- The row's tokens at columns 128..143, as trip `k` loads them. -/
def lane10 (L : grid0.Coords) (k : Fin k0_t1_loop.trips) : IVec S16 32 :=
  laneAt m d L (k0_off10 k) (k0_off10_inb k)
/-- The row's tokens at columns 144..159, as trip `k` loads them. -/
def lane11 (L : grid0.Coords) (k : Fin k0_t1_loop.trips) : IVec S16 32 :=
  laneAt m d L (k0_off11 k) (k0_off11_inb k)
/-- The row's tokens at columns 160..175, as trip `k` loads them. -/
def lane12 (L : grid0.Coords) (k : Fin k0_t1_loop.trips) : IVec S16 32 :=
  laneAt m d L (k0_off12 k) (k0_off12_inb k)
/-- The row's tokens at columns 176..191, as trip `k` loads them. -/
def lane13 (L : grid0.Coords) (k : Fin k0_t1_loop.trips) : IVec S16 32 :=
  laneAt m d L (k0_off13 k) (k0_off13_inb k)
/-- The row's tokens at columns 184..199, as trip `k` loads them. -/
def lane14 (L : grid0.Coords) (k : Fin k0_t1_loop.trips) : IVec S16 32 :=
  laneAt m d L (k0_off14 k) (k0_off14_inb k)

/-- The thirteen index vectors of trip `k`: twelve aligned ones and the tail vector, whose scatter-add stores only
    its upper eight lanes (the lower eight repeat the twelfth vector's upper eight). -/
def tileOps (hok : IdsOK m) (L : grid0.Coords) (k : Fin k0_t1_loop.trips) : List Trip.Lane16 :=
  [
    ⟨lane2 m d L k, laneOK_of_idsOK m d hok L _ _, Trip.allLanes⟩,
    ⟨lane3 m d L k, laneOK_of_idsOK m d hok L _ _, Trip.allLanes⟩,
    ⟨lane4 m d L k, laneOK_of_idsOK m d hok L _ _, Trip.allLanes⟩,
    ⟨lane5 m d L k, laneOK_of_idsOK m d hok L _ _, Trip.allLanes⟩,
    ⟨lane6 m d L k, laneOK_of_idsOK m d hok L _ _, Trip.allLanes⟩,
    ⟨lane7 m d L k, laneOK_of_idsOK m d hok L _ _, Trip.allLanes⟩,
    ⟨lane8 m d L k, laneOK_of_idsOK m d hok L _ _, Trip.allLanes⟩,
    ⟨lane9 m d L k, laneOK_of_idsOK m d hok L _ _, Trip.allLanes⟩,
    ⟨lane10 m d L k, laneOK_of_idsOK m d hok L _ _, Trip.allLanes⟩,
    ⟨lane11 m d L k, laneOK_of_idsOK m d hok L _ _, Trip.allLanes⟩,
    ⟨lane12 m d L k, laneOK_of_idsOK m d hok L _ _, Trip.allLanes⟩,
    ⟨lane13 m d L k, laneOK_of_idsOK m d hok L _ _, Trip.allLanes⟩,
    ⟨lane14 m d L k, laneOK_of_idsOK m d hok L _ _, k0_pay2⟩
  ]

/-- What the tile's scratch holds of the broadcast `exp` argument after its fetch, loaded, and its `exp`. -/
def ebOf (bv : Vec F S16 .f32) : FVec F S16 .f32 :=
  k0_pay1 ((s2W).view.readAt (Elt F) (Rect.unit (s := S16) ![0] S16.size inb_S16_S16_0).toLoadRect ((bvW).view.read (Elt F) bv))

/-- The row trip `k` of tile `L` copies out, from a count row that starts at the constant `zc`. -/
def tileRow (hok : IdsOK m) (bv : Vec F S16 .f32) (zc : F .f32) (L : grid0.Coords) (k : Fin k0_t1_loop.trips) : Vec F S100000 .f32 :=
  Trip.rowOut (tileOps m d hok L k) (k0_pay3 (F := F)) (ebOf bv) (fun _ => zc)

/-! ## A tile's share of the arrays -/

/-- The read share tile (c, s) holds of an array every tile reads whole. -/
abbrev tileShare (c : Fin 2) (s : Fin 16) : PosShare TreeShare := Transfers.shareTok (Transfers.shareTok fullShare 2 c) 16 s

omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

/-- What the launch hands tile `L`: its rows of the token ids, a read share of the broadcast `exp` argument (at `bv`)
    and of the zero row (at `zv`), and its rows of the result (at whatever they hold). -/
def goRes (bv : Buf (Elt F) (bvLoc d)) (zv : Buf (Elt F) (zLoc d)) (L : grid0.Coords) : sProp 𝕄 :=
  iprop((idsLoc d ↦[idsSet L]{fullShare} m (idsLoc d))
    ∗ (bvLoc d ↦{tileShare (cL L) (sL L)} bv)
    ∗ (zLoc d ↦{tileShare (cL L) (sL L)} zv)
    ∗ ∃ f, outLoc d ↦[outSet L]{fullShare} f)

/-- What the tile hands back: the same, its rows of the result at what its trips computed. -/
def tdRes (hok : IdsOK m) (bv : Buf (Elt F) (bvLoc d)) (zv : Buf (Elt F) (zLoc d)) (zc : F .f32) (L : grid0.Coords) : sProp 𝕄 :=
  iprop((idsLoc d ↦[idsSet L]{fullShare} m (idsLoc d))
    ∗ (bvLoc d ↦{tileShare (cL L) (sL L)} bv)
    ∗ (zLoc d ↦{tileShare (cL L) (sL L)} zv)
    ∗ ∃ f, (outLoc d ↦[outSet L]{fullShare} f)
        ∗ ⌜∀ (k : Fin k0_t1_loop.trips) (y : S100000.Idx), (f : Vec F S1024x100000 .f32) ((outRow L k).view.emb y) = tileRow m d hok bv zc L k y⌝)

/-! ## The two arrays @main makes before the call -/

/-- The `exp` argument broadcast to sixteen lanes, and the zero row, as @main's host operations leave them. -/
def bvOf : Vec F S16 .f32 := broadcastInDim S16 ![] bcast_S_S16 (m (betaLoc d) : Vec F S_ .f32)
def zvOf : Vec F S100000 .f32 := broadcastInDim S100000 ![] bcast_S_S100000 (constant S_ .f32 0x00000000#32 : Vec F S_ .f32)
/-- The zero row's one value. -/
def zc0 : F .f32 := (constant S_ .f32 0x00000000#32 : Vec F S_ .f32) (fun a => a.elim0)

theorem zvOf_eq : (zvOf (F := F)) = fun _ => zc0 := by
  funext j
  rfl

/-- Tile (c, s) of the grid. -/
def Lof (c : Fin 2) (s : Fin 16) : grid0.Coords := coordsV (Fin.cast bound_zero.symm c) (Fin.cast bound_one.symm s)

end Cert.Proof.KI

end
-- ==== Proof.Rows.lean ====
/-
  Which elements of the arrays a tile's memrefs are: tile (c, s) has number w = 2 s + c; its rows of the token ids
  are rows [32 w, 32 w + 32), and row k of its rows of the result is row 32 w + k, all 100000 columns.
-/
import proofs.«205751_g1185410973873_cont_main3_201_3_alg».proof.Proof.Res

noncomputable section

namespace Cert.Proof.KI

open Cert.KernelIdeal Cert.KernelIdeal.Gen
open Idealize.ShloMosaic

/-- The first row of tile `L`. -/
def baseRow (L : grid0.Coords) : ℕ := 64 * (L 1).val + 32 * (L 0).val

/-- An element of the result is in row `k` of tile `L`'s rows exactly when its row number is the tile's first row plus `k`. -/
theorem mem_outRowSet (L : grid0.Coords) (k : Fin k0_t1_loop.trips) (i : S1024x100000.Idx) :
    i ∈ outRowSet L k ↔ (i 0).val = baseRow L + k.val := by
  show i ∈ (((View.whole main_v2_scv).slice (Rect.unit (s := S1024x100000) (k0_off15 L k) S1x100000.size (k0_off15_inb L k))).reshape
      S100000 squeezes_S1x100000_S100000.numel_eq).set ↔ _
  rw [View.set_reshape, View.set_slice_whole, Rect.mem_set_unit, k0_off15_eq]
  show (∀ a : Fin 2, _) ↔ _
  rw [Fin.forall_fin_two]
  have h1 : (i 1).val < 100000 := (i 1).isLt
  show (64 * (L 1).val + 32 * (L 0).val + k.val ≤ (i 0).val ∧ (i 0).val < 64 * (L 1).val + 32 * (L 0).val + k.val + 1)
      ∧ (0 ≤ (i 1).val ∧ (i 1).val < 0 + 100000) ↔ _
  unfold baseRow
  omega

/-- The element of the result that column `y` of row `k` of tile `L` is: its row number, -/
theorem outRow_emb_row (L : grid0.Coords) (k : Fin k0_t1_loop.trips) (y : S100000.Idx) :
    (((outRow L k).view.emb y : S1024x100000.Idx) 0).val = baseRow L + k.val := by
  -- the squeezed row's element y is the [1 × 100000] row's element matched with y, placed at the row's offsets
  show k0_off15 L k 0
      + 1 * ((Shape.reshapeEquiv (s := S1x100000) (s' := S100000) squeezes_S1x100000_S100000.numel_eq y) 0).val = baseRow L + k.val
  have hoff : k0_off15 L k 0 = 64 * (L 1).val + 32 * (L 0).val + k.val := congrFun (k0_off15_eq L k) 0
  have h0 : ((Shape.reshapeEquiv (s := S1x100000) (s' := S100000) squeezes_S1x100000_S100000.numel_eq y) 0).val < 1 :=
    ((Shape.reshapeEquiv (s := S1x100000) (s' := S100000) squeezes_S1x100000_S100000.numel_eq y) 0).isLt
  unfold baseRow
  omega

/-- and its column. -/
theorem outRow_emb_col (L : grid0.Coords) (k : Fin k0_t1_loop.trips) (y : S100000.Idx) :
    (((outRow L k).view.emb y : S1024x100000.Idx) 1).val = (y 0).val := by
  show k0_off15 L k 1
      + 1 * ((Shape.reshapeEquiv (s := S1x100000) (s' := S100000) squeezes_S1x100000_S100000.numel_eq y) 1).val = (y 0).val
  have hoff : k0_off15 L k 1 = 0 := congrFun (k0_off15_eq L k) 1
  -- dropping the leading axis of size one: the matched element is y behind the coordinate 0
  have hre : ((Shape.reshapeEquiv (s := S1x100000) (s' := S100000) squeezes_S1x100000_S100000.numel_eq y) 1).val = (y 0).val :=
    congrArg (fun z : S1x100000.Idx => (z 1).val)
      (Shape.reshapeEquiv_cons_one (n := 1) (d := ![100000]) squeezes_S1x100000_S100000.numel_eq y)
  omega

/-- An element of the token ids is the tile's exactly when its row is one of the tile's 32. -/
theorem mem_idsSet (L : grid0.Coords) (i : S1024x200.Idx) :
    i ∈ idsSet L ↔ baseRow L ≤ (i 0).val ∧ (i 0).val < baseRow L + 32 := by
  show i ∈ ((View.whole main_arg0_scv).slice (Rect.unit (s := S1024x200) (k0_off1 L) S32x200.size (k0_off1_inb L))).set ↔ _
  rw [View.set_slice_whole, Rect.mem_set_unit, k0_off1_eq]
  show (∀ a : Fin 2, _) ↔ _
  rw [Fin.forall_fin_two]
  have h1 : (i 1).val < 200 := (i 1).isLt
  show (64 * (L 1).val + 32 * (L 0).val ≤ (i 0).val ∧ (i 0).val < 64 * (L 1).val + 32 * (L 0).val + 32)
      ∧ (0 ≤ (i 1).val ∧ (i 1).val < 0 + 200) ↔ _
  unfold baseRow
  omega

/-- The loop makes 32 trips. -/
theorem trips_eq : k0_t1_loop.trips = 32 := by
  decide

/-- Column `y` of one row of a tile is in another row of it only if the rows are the same. -/
theorem outRow_emb_mem_iff (L : grid0.Coords) (k k' : Fin k0_t1_loop.trips) (y : S100000.Idx) :
    (outRow L k').view.emb y ∈ outRowSet L k ↔ k' = k := by
  rw [mem_outRowSet, outRow_emb_row]
  constructor
  · intro h; exact Fin.ext (by omega)
  · intro h; rw [h]

/-- Every row of a tile's rows of the result is among the tile's elements of it. -/
theorem outRowSet_subset (L : grid0.Coords) (k : Fin k0_t1_loop.trips) : outRowSet L k ⊆ outSet L :=
  Finset.subset_biUnion_of_mem (outRowSet L) (Finset.mem_univ k)

end Cert.Proof.KI

end
-- ==== Proof.Body.lean ====
/-
  The task of one vector subcore, run once at a symbolic tile: three fetches (its rows of the token ids, the zero
  row, the broadcast `exp` argument), then for each of its 32 rows the three scatter phases over the count row with
  the copy-out of the row between the second and the third.
-/
import proofs.«205751_g1185410973873_cont_main3_201_3_alg».proof.Proof.Res
import proofs.«205751_g1185410973873_cont_main3_201_3_alg».proof.Proof.Rows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-! ## The tile's own semaphores and scratch -/

abbrev cell0 : GSem nD τ sig := (thrV d L, .dma cc0_scoped0.sem)
abbrev cell1 : GSem nD τ sig := (thrV d L, .dma cc0_scoped1.sem)
abbrev cell2 : GSem nD τ sig := (thrV d L, .dma cc0_scoped2.sem)
abbrev cell3 : GSem nD τ sig := (thrV d L, .dma cc0_scoped3.sem)

omit [FloatOps F] in
/-- The four semaphores the task's copies complete on are among the tile's own. -/
theorem ownSems0_V :
    (ownSems0 (thrV d L) : sProp 𝕄)
      = iprop(semVal (cell0 d L) 0 ∗ semVal (cell1 d L) 0 ∗ semVal (cell2 d L) 0 ∗ semVal (cell3 d L) 0
          ∗ bigSep (((((ownCells (thrV d L)).erase (cell0 d L)).erase (cell1 d L)).erase (cell2 d L)).erase (cell3 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped3.sem : SemLoc sig).isScoped .scVector = true; decide⟩⟩⟩⟩)]

omit [FloatOps F] in
/-- The three scratch buffers are among the tile's own. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The arrays as the tile's memrefs address them -/

omit [FloatOps F] in
theorem pts_ids (f : Buf (Elt F) (idsLoc d)) :
    ((idsSl L).view.loc (thrV d L) ↦[(idsSl L).view.set]{fullShare} f : sProp 𝕄) = idsLoc d ↦[idsSet L]{fullShare} f := rfl
omit [FloatOps F] in
theorem pts_bv (q : PosShare TreeShare) (f : Buf (Elt F) (bvLoc d)) :
    ((bvW).view.loc (thrV d L) ↦{q} f : sProp 𝕄) = bvLoc d ↦{q} f := rfl
omit [FloatOps F] in
theorem pts_z (q : PosShare TreeShare) (f : Buf (Elt F) (zLoc d)) :
    ((zW).view.loc (thrV d L) ↦{q} f : sProp 𝕄) = zLoc d ↦{q} f := rfl
omit [FloatOps F] in
theorem pts_s0 (f : Buf (Elt F) ((thrV d L).loc cc0_scratch0)) :
    ((s0W).view.loc (thrV d L) ↦{fullShare} f : sProp 𝕄) = (thrV d L).loc cc0_scratch0 ↦{fullShare} f := rfl
omit [FloatOps F] in
theorem pts_s1 (f : Buf (Elt F) ((thrV d L).loc cc0_scratch1)) :
    ((s1W).view.loc (thrV d L) ↦{fullShare} f : sProp 𝕄) = (thrV d L).loc cc0_scratch1 ↦{fullShare} f := rfl
omit [FloatOps F] in
theorem pts_s2 (f : Buf (Elt F) ((thrV d L).loc cc0_scratch2)) :
    ((s2W).view.loc (thrV d L) ↦{fullShare} f : sProp 𝕄) = (thrV d L).loc cc0_scratch2 ↦{fullShare} f := rfl

/-! ## The indexed store and load of the count row -/

/-- The indexed store (plain or adding) into the count row held whole: the row rewritten to the scatter of what it held. -/
theorem wp_scatter {α : Type} {Q : α → sProp 𝕄} {idxs : Fin S100000.rank → IVec S16 32} {v : Vec F S16 .f32} {mask : IVec S16 1} {add : Bool}
    {hin : ∀ a x, (idxs a x).toNat < S100000.size a} {hs : ((s1W).access (.whole S100000)).Stores Finset.univ}
    {k : PUnit → Prog (TpuEff nD τ sig (Elt F) Λ₀ (thrV d L).2) α} (f : Vec F S100000 .f32) :
    ((s1W).view.loc (thrV d L) ↦{fullShare} f : sProp 𝕄)
      ⊢ iprop((((s1W).view.loc (thrV d L) ↦{fullShare} (storeIdx f idxs v mask add hin : Vec F S100000 .f32))
            -∗ wp frame (wpE (defs₀ (F := F)) 𝒱₀ (thrV d L) none) Set.univ (k ⟨⟩) Q)
        -∗ wp frame (wpE (defs₀ (F := F)) 𝒱₀ (thrV d L) none) Set.univ (SparseCore.vectorStoreIdx s1W idxs v mask add hin hs >>= k) Q) := by
  have h := SparseCore.wp_vectorStoreIdx (defs := defs₀ (F := F)) 𝒱₀ (thrV d L) none Set.univ (base := s1W) (idxs := idxs) (v := v)
    (mask := mask) (add := add) (h := hin) (hs := hs) (k := k) (Q := Q) (f := f)
  have e1 : View.read (Elt F) ((s1W).access (Rect.whole S100000)) f = f := Memref.read_access_whole (Elt F) cc0_scratch1 f
  have e2 : ∀ w : Vec F S100000 .f32, View.write (Elt F) ((s1W).access (Rect.whole S100000)) f w Finset.univ = w :=
    fun w => Memref.write_access_whole_univ (Elt F) cc0_scratch1 f w
  have e0 : ((s1W).access (Rect.whole S100000)).set = Finset.univ := Memref.set_access_whole cc0_scratch1
  rw [e1, e2, e0] at h
  exact h

/-- The same, the scattered row named `g`. -/
theorem wp_scatter_to {α : Type} {Q : α → sProp 𝕄} {idxs : Fin S100000.rank → IVec S16 32} {v : Vec F S16 .f32} {mask : IVec S16 1} {add : Bool}
    {hin : ∀ a x, (idxs a x).toNat < S100000.size a} {hs : ((s1W).access (.whole S100000)).Stores Finset.univ}
    {k : PUnit → Prog (TpuEff nD τ sig (Elt F) Λ₀ (thrV d L).2) α} (f g : Vec F S100000 .f32)
    (h : (storeIdx f idxs v mask add hin : Vec F S100000 .f32) = g) :
    ((s1W).view.loc (thrV d L) ↦{fullShare} f : sProp 𝕄)
      ⊢ iprop((((s1W).view.loc (thrV d L) ↦{fullShare} g)
            -∗ wp frame (wpE (defs₀ (F := F)) 𝒱₀ (thrV d L) none) Set.univ (k ⟨⟩) Q)
        -∗ wp frame (wpE (defs₀ (F := F)) 𝒱₀ (thrV d L) none) Set.univ (SparseCore.vectorStoreIdx s1W idxs v mask add hin hs >>= k) Q) := by
  subst h; exact wp_scatter (F := F) d L f

/-- The indexed load from the count row held whole: the gather of what it holds. -/
theorem wp_gather {α : Type} {Q : α → sProp 𝕄} {idxs : Fin S100000.rank → IVec S16 32}
    {hin : ∀ a x, (idxs a x).toNat < S100000.size a} {hl : (s1W).view.Loads}
    {k : Vec F S16 .f32 → Prog (TpuEff nD τ sig (Elt F) Λ₀ (thrV d L).2) α} (f : Vec F S100000 .f32) :
    ((s1W).view.loc (thrV d L) ↦{fullShare} f : sProp 𝕄)
      ⊢ iprop((((s1W).view.loc (thrV d L) ↦{fullShare} f)
            -∗ wp frame (wpE (defs₀ (F := F)) 𝒱₀ (thrV d L) none) Set.univ (k (loadIdx f idxs hin)) Q)
        -∗ wp frame (wpE (defs₀ (F := F)) 𝒱₀ (thrV d L) none) Set.univ (SparseCore.vectorLoadIdx s1W idxs hin hl >>= k) Q) := by
  have h := SparseCore.wp_vectorLoadIdx (defs := defs₀ (F := F)) 𝒱₀ (thrV d L) none Set.univ (base := s1W) (idxs := idxs)
    (h := hin) (hl := hl) (k := k) (Q := Q) (S := ((s1W).access (Rect.whole S100000)).set) (q := fullShare) (f := f) subset_rfl
  have e1 : View.read (Elt F) ((s1W).access (Rect.whole S100000)) f = f := Memref.read_access_whole (Elt F) cc0_scratch1 f
  have e0 : ((s1W).access (Rect.whole S100000)).set = Finset.univ := Memref.set_access_whole cc0_scratch1
  rw [e1, e0] at h
  exact h

omit [FloatOps F] in
/-- The count row held at contents equal to `g` is held at `g`. -/
theorem pts_s1_congr (f g : Vec F S100000 .f32) (h : f = g) :
    ((s1W).view.loc (thrV d L) ↦{fullShare} f : sProp 𝕄) ⊢ (s1W).view.loc (thrV d L) ↦{fullShare} g := by
  subst h; exact Entails.of_eq rfl

omit [FloatOps F] in
/-- A row of the result written whole with `w` reads `w` at its own elements, -/
theorem outRow_writes_emb (k : Fin k0_t1_loop.trips) (fo : (outRow L k).view.ty.Contents (Elt F)) (w : S100000.Idx → Elt F .f32) (y : S100000.Idx) :
    ((outRow L k).view.writes (Elt F) fo [⟨Rect.whole S100000, w⟩]) ((outRow L k).view.emb y) = w y := by
  have h1 := View.read_writes_cons_emb (outRow L k).view fo (Rect.whole S100000) w [] y
  rw [Rect.emb_whole_apply] at h1
  exact ((View.read_apply _ _).trans (cast_eq _ _)).symm.trans h1

omit [FloatOps F] in
/-- and keeps every other element of the array. -/
theorem outRow_writes_off (k : Fin k0_t1_loop.trips) (fo : (outRow L k).view.ty.Contents (Elt F)) (Lp : List (View.Piece (Elt F) S100000 .f32))
    (i : (outRow L k).view.ty.Idx) (hi : ∀ y, (outRow L k).view.emb y ≠ i) :
    (outRow L k).view.writes (Elt F) fo Lp i = fo i :=
  View.writes_apply_of_forall_ne _ _ _ hi

/-! ## One trip -/

set_option hygiene false in
local macro "scat" : tactic => `(tactic| (iapply (wp_scatter (F := F) d L _) $$ Hs1; iintro Hs1))
set_option hygiene false in
local macro "gath" : tactic => `(tactic| (iapply (wp_gather (F := F) d L _) $$ Hs1; iintro Hs1))

set_option maxHeartbeats 4000000 in
/-- One trip at a symbolic row `k`: from the token rows, the constant count row and row `k` of the tile's rows of the
    result, the three phases and the copy-out between the second and the third leave the count row constant again and
    row `k` at the encoded counts, every other element of the result as it was. -/
theorem trip (hok : IdsOK m) (v2 : BitVec 32) (v3 : Vec F S16 .f32) (k : Fin k0_t1_loop.trips)
    (O : CellTallies nD τ sig (HIx 1)) (W : Waits sig (HIx 1)) (fo : Buf (Elt F) (outLoc d)) :
    (iprop(Transfers.MayWaits (thrV d L) (default : HIx 1) O
        ∗ ((s0W).view.loc (thrV d L) ↦{fullShare} (idsScr m d L : Vec F S32x200 .i32))
        ∗ ((s1W).view.loc (thrV d L) ↦{fullShare} (fun _ => zc0 : Vec F S100000 .f32))
        ∗ ((outRow L k).view.loc (thrV d L) ↦[(outRow L k).view.set]{fullShare} fo)
        ∗ semVal (thrV d L, SemLoc.dma cc0_scoped3.sem) 0 ∗ owes (thrV d L) O W) : sProp 𝕄)
      ⊢ wp frame (wpE (defs₀ (F := F)) 𝒱₀ (thrV d L) none) Set.univ
          (k0_t1_body L idsW (Memref.isWhole_whole _) bvW (Memref.isWhole_whole _) zW (Memref.isWhole_whole _) outW (Memref.isWhole_whole _)
            s0W (Memref.isWhole_whole _) s1W (Memref.isWhole_whole _) s2W (Memref.isWhole_whole _) cc0_scoped0 cc0_scoped1 cc0_scoped2 cc0_scoped3 v2 v3 k ())
          fun _ => iprop(Transfers.MayWaits (thrV d L) (default : HIx 1) O
            ∗ ((s0W).view.loc (thrV d L) ↦{fullShare} (idsScr m d L : Vec F S32x200 .i32))
            ∗ ((s1W).view.loc (thrV d L) ↦{fullShare} (fun _ => zc0 : Vec F S100000 .f32))
            ∗ (∃ f' : Buf (Elt F) (outLoc d), ((outRow L k).view.loc (thrV d L) ↦[(outRow L k).view.set]{fullShare} f')
                ∗ ⌜(∀ y : S100000.Idx, (f' : Vec F S1024x100000 .f32) ((outRow L k).view.emb y)
                      = Trip.rowOut (tileOps m d hok L k) (k0_pay3 (F := F)) (k0_pay1 v3) (fun _ => zc0) y)
                    ∧ ∀ i : S1024x100000.Idx, (∀ y, (outRow L k).view.emb y ≠ i) → (f' : Vec F S1024x100000 .f32) i = (fo : Vec F S1024x100000 .f32) i⌝)
            ∗ semVal (thrV d L, SemLoc.dma cc0_scoped3.sem) 0
            ∗ owes (thrV d L) O (insert (SemLoc.dma cc0_scoped3.sem, (default : HIx 1)) W)) := by
  have hL := laneOK_of_idsOK m d hok L
  iintro ⟨Hmw, Hs0, Hs1, Hrow, Hsem3, HO⟩
  unfold k0_t1_body
  sl_exec (disch := first | exact ⟨hL _ _, hL _ _, hL _ _, hL _ _⟩)
  scat; scat; scat; scat; scat; scat; scat; scat; scat; scat; scat; scat
  -- the last store of phase 1 leaves the counts
  iapply (wp_scatter_to (F := F) d L _ (Trip.counted (tileOps m d hok L k) (k0_pay3 (F := F)) (fun _ => zc0)) ?h1) $$ Hs1
  case h1 =>
    unfold Trip.counted tileOps
    simp only [List.foldl_cons, List.foldl_nil]
    rfl
  iintro Hs1
  gath; gath; gath; gath; gath; gath; gath; gath; gath; gath; gath; gath; gath
  scat; scat; scat
  sl_exec
  scat; scat; scat; scat; scat; scat
  sl_exec
  scat; scat; scat
  -- the last store of phase 2 leaves the encoded row
  iapply (wp_scatter_to (F := F) d L _ (Trip.rowOut (tileOps m d hok L k) (k0_pay3 (F := F)) (k0_pay1 v3) (fun _ => zc0)) ?h2) $$ Hs1
  case h2 =>
    unfold Trip.rowOut Trip.encoded tileOps
    simp only [List.foldl_cons, List.foldl_nil]
    rfl
  iintro Hs1
  sl_exec
  scat; scat; scat; scat; scat; scat; scat; scat; scat; scat; scat; scat
  -- the last store of phase 3 has the constant back at every named token
  iapply (wp_scatter_to (F := F) d L _ (fun _ => zc0) ?h3) $$ Hs1
  case h3 =>
    refine Eq.trans ?_ (Trip.cleared_rowOut (tileOps m d hok L k) (k0_pay3 (F := F)) (k0_pay1 v3) zc0)
    unfold Trip.cleared tileOps
    simp only [List.foldl_cons, List.foldl_nil]
    rfl
  iintro Hs1
  sl_exec
  sl_step
  isplitl [Hmw]; · iexact Hmw
  isplitl [Hs0]; · iexact Hs0
  isplitl [Hs1]; · iexact Hs1
  isplitl [Hrow]
  · iexists _; isplitl [Hrow]; · iexact Hrow
    ipureintro
    refine ⟨fun y => ?_, fun i hi => ?_⟩
    · exact (outRow_writes_emb (F := F) L k _ _ y).trans rfl
    · exact outRow_writes_off (F := F) L k _ _ i hi
  isplitl [Hsem3]; · iexact Hsem3
  iexact HO

omit [FloatOps F] in
theorem pts_s0_congr (f g : Vec F S32x200 .i32) (h : f = g) :
    ((s0W).view.loc (thrV d L) ↦{fullShare} f : sProp 𝕄) ⊢ (s0W).view.loc (thrV d L) ↦{fullShare} g := by
  subst h; exact Entails.of_eq rfl

omit [FloatOps F] in
theorem pts_row (k : Fin k0_t1_loop.trips) (f : Buf (Elt F) (outLoc d)) :
    ((outRow L k).view.loc (thrV d L) ↦[(outRow L k).view.set]{fullShare} f : sProp 𝕄) = outLoc d ↦[outRowSet L k]{fullShare} f := rfl

/-! ## The loop -/

/-- Before trip `kk`: the token rows and the constant count row in their scratches, the tile's rows of the result at
    contents whose rows before `kk` are what their trips copied out, the copy-out's semaphore at zero. -/
def inv (hok : IdsOK m) (v3 : Vec F S16 .f32) (O : CellTallies nD τ sig (HIx 1)) (W : Waits sig (HIx 1)) (kk : Nat) (_ : PUnit) : sProp 𝕄 :=
  iprop(Transfers.MayWaits (thrV d L) (default : HIx 1) O
    ∗ ((s0W).view.loc (thrV d L) ↦{fullShare} (idsScr m d L : Vec F S32x200 .i32))
    ∗ ((s1W).view.loc (thrV d L) ↦{fullShare} (fun _ => zc0 : Vec F S100000 .f32))
    ∗ (∃ f : Buf (Elt F) (outLoc d), (outLoc d ↦[outSet L]{fullShare} f)
        ∗ ⌜∀ k' : Fin k0_t1_loop.trips, k'.val < kk → ∀ y : S100000.Idx, (f : Vec F S1024x100000 .f32) ((outRow L k').view.emb y)
              = Trip.rowOut (tileOps m d hok L k') (k0_pay3 (F := F)) (k0_pay1 v3) (fun _ => zc0) y⌝)
    ∗ semVal (thrV d L, SemLoc.dma cc0_scoped3.sem) 0
    ∗ ∃ W', ⌜∀ p ∈ W', p ∈ W ∨ p.2 = none⌝ ∗ owes (thrV d L) O W')

set_option maxHeartbeats 4000000 in
/-- The task on tile `L` of device `d`: from its share of the arrays (the zero row at the constant `zc`) to the same
    with its rows of the result at what its trips computed; its scratch and semaphores as it found them. -/
theorem tile_body (hF : (K (F := F)).Facts) (hok : IdsOK m) (bv : Buf (Elt F) (bvLoc d)) (zv : Buf (Elt F) (zLoc d)) (zc : F .f32)
    (hz : (zv : Vec F S100000 .f32) = fun _ => zc) (hzc : zc = zc0)
    (O : CellTallies nD τ sig (HIx 1)) (W : Waits sig (HIx 1)) (hO : ∀ g, O g none = 0) :
    iprop(levAts (K (F := F)).L (K (F := F)).lev ∗ emp ∗ goRes m d bv zv L
        ∗ scopedBufs (thrV d L) ∗ scopedSems0 (thrV d L) ∗ owes (thrV d L) O W)
      ⊢ wp frame (wpE (defs₀ (F := F)) 𝒱₀ (thrV d L) none) Set.univ
          (cc0__sc_body L idsW (Memref.isWhole_whole _) bvW (Memref.isWhole_whole _) zW (Memref.isWhole_whole _) outW (Memref.isWhole_whole _)
            s0W (Memref.isWhole_whole _) s1W (Memref.isWhole_whole _) s2W (Memref.isWhole_whole _) cc0_scoped0 cc0_scoped1 cc0_scoped2 cc0_scoped3)
          fun _ => iprop(tdRes m d hok bv zv zc L ∗ scopedBufs (thrV d L) ∗ scopedSems0 (thrV d L)
            ∗ ∃ W', ⌜∀ p ∈ W', p ∈ W ∨ p.2 = none⌝ ∗ owes (thrV d L) O W') := by
  subst hzc
  rw [(K (F := F)).scopedBufs_V hF d (cV L) (jV L), SparseCore.Cfg.scopedSems0_V (Val := Elt F) d (cV L) (jV L), ownSems0_V, ownBufs_V]
  unfold goRes
  iintro ⟨#Hlv, -, ⟨Hids, Hbv, Hzv, ⟨%fo, Hout⟩⟩, ⟨⟨%f0, Hs0⟩, ⟨%f1, Hs1⟩, ⟨%f2, Hs2⟩, Hbufs⟩, ⟨Hsem0, Hsem1, Hsem2, Hsem3, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hids' := (Entails.of_eq (pts_ids (F := F) d L _).symm) $$ Hids
  ihave Hbv' := (Entails.of_eq (pts_bv (F := F) d L _ _).symm) $$ Hbv
  ihave Hzv' := (Entails.of_eq (pts_z (F := F) d L _ _).symm) $$ Hzv
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_unfold [cc0__sc_body]
  sl_exec
  sl_for (inv m d L hok (View.readAt (Elt F) (s2W).view (Rect.unit (s := S16) ![0] S16.size inb_S16_S16_0).toLoadRect (View.write (Elt F) (s2W).view f2 (tile_body.sl.dma0_2 d bv) Finset.univ)) O W) $$ [Hmw Hs0' Hs1' Hout Hsem3 HO]
  case region =>
    intro k _
    unfold inv
    iintro ⟨Hmw, Hs0, Hs1, ⟨%f, Hout, %hf⟩, Hsem3, %W', %hW', HO⟩
    -- row k of the tile's rows, and the rest of them
    ihave Hsp := (pointsTo_split_subset (q := fullShare) (f := f) (outRowSet_subset L k)).1 $$ Hout
    icases Hsp with ⟨Hrow, Hrest⟩
    ihave Hrow' := (Entails.of_eq (pts_row (F := F) d L k _).symm) $$ Hrow
    iapply (wp_wand_r Idealize.ShloMosaic.frame (wpE (defs₀ (F := F)) 𝒱₀ (thrV d L) none) Set.univ)
    isplitl [Hmw Hs0 Hs1 Hrow' Hsem3 HO]
    · iapply (trip m d L hok _ _ k O W' f)
      isplitl [Hmw]; · iexact Hmw
      isplitl [Hs0]; · iexact Hs0
      isplitl [Hs1]; · iexact Hs1
      isplitl [Hrow']; · iexact Hrow'
      isplitl [Hsem3]; · iexact Hsem3
      iexact HO
    iintro %_ ⟨Hmw, Hs0, Hs1, ⟨%f', Hrow', %hf'⟩, Hsem3, HO⟩
    ihave Hrow := (Entails.of_eq (pts_row (F := F) d L k _)) $$ Hrow'
    ihave Hj := (pointsTo_join (ℓ := outLoc d) (q := fullShare) (I := outRowSet L k) (J := outSet L \ outRowSet L k) Finset.disjoint_sdiff) $$ [Hrow Hrest]
    · isplitl [Hrow] <;> iassumption
    rw [Finset.union_sdiff_of_subset (outRowSet_subset L k)]
    isplitl [Hmw]; · iexact Hmw
    isplitl [Hs0]; · iexact Hs0
    isplitl [Hs1]; · iexact Hs1
    isplitl [Hj]
    · iexists _; isplitl [Hj]; · iexact Hj
      ipureintro
      intro k' hk' y
      by_cases hkk : k' = k
      · subst hkk
        have hnot : (outRow L k').view.emb y ∉ outSet L \ outRowSet L k' :=
          fun h => (Finset.mem_sdiff.mp h).2 (View.emb_mem_set _ y)
        exact (Finset.piecewise_eq_of_notMem (outSet L \ outRowSet L k') f f' hnot).trans (hf'.1 y)
      · have hmem : (outRow L k').view.emb y ∈ outSet L \ outRowSet L k :=
          Finset.mem_sdiff.mpr ⟨outRowSet_subset L k' (View.emb_mem_set _ y), fun h => hkk ((outRow_emb_mem_iff L k k' y).mp h)⟩
        exact (Finset.piecewise_eq_of_mem (outSet L \ outRowSet L k) f f' hmem).trans (hf k' (by omega) y)
    isplitl [Hsem3]; · iexact Hsem3
    iexists _; isplitr
    swap; · iexact HO
    ipureintro; intro p hp
    rcases Finset.mem_insert.mp hp with hp | hp
    · exact .inr (hp ▸ rfl)
    · exact hW' p hp
  · unfold inv
    isplitl [Hmw]; · iexact Hmw
    isplitl [Hs0']
    · iapply (pts_s0_congr (F := F) d L _ _ ?h0)
      swap; · iexact Hs0'
      exact View.write_whole_univ _ _ _
    isplitl [Hs1']
    · iapply (pts_s1_congr (F := F) d L _ _ ?h1)
      swap; · iexact Hs1'
      exact (View.write_whole_univ _ _ _).trans hz
    isplitl [Hout]
    · iexists fo; isplitl [Hout]; · iexact Hout
      ipureintro; intro k' hk'; exact absurd hk' (Nat.not_lt_zero _)
    isplitl [Hsem3]; · iexact Hsem3
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro %_ HI
  unfold inv
  icases HI with ⟨-, Hs0, Hs1, ⟨%f, Hout, %hf⟩, Hsem3, %W', %hW', HO⟩
  sl_exec
  sl_step
  unfold tdRes
  have e2 : View.write (Elt F) (s2W).view f2 (tile_body.sl.dma0_2 d bv) Finset.univ = (bvW).view.read (Elt F) bv :=
    View.write_whole_univ _ _ _
  isplitl [Hids' Hbv' Hzv' Hout]
  · isplitl [Hids']; · iapply (Entails.of_eq (pts_ids (F := F) d L _)); iexact Hids'
    isplitl [Hbv']; · iapply (Entails.of_eq (pts_bv (F := F) d L _ _)); iexact Hbv'
    isplitl [Hzv']; · iapply (Entails.of_eq (pts_z (F := F) d L _ _)); iexact Hzv'
    iexists f; isplitl [Hout]; · iexact Hout
    ipureintro; intro k y
    have h := hf k k.isLt y
    rw [e2] at h
    exact h
  isplitl [Hs0 Hs1 Hs2' Hbufs]
  · isplitl [Hs0]; · iexists _; iapply (Entails.of_eq (pts_s0 (F := F) d L _)); iexact Hs0
    isplitl [Hs1]; · iexists _; iapply (Entails.of_eq (pts_s1 (F := F) d L _)); iexact Hs1
    isplitl [Hs2']; · iexists _; iapply (Entails.of_eq (pts_s2 (F := F) d L _)); iexact Hs2'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists W'; isplitr
  · ipureintro; exact hW'
  · iexact HO

end Cert.Proof.KI

end
-- ==== Proof.Launch.lean ====
/-
  The launch: what each handshake of the one SparseCore call carries, the tile task as the launch theorem's
  obligation, @main on the TensorCore (two broadcasts and a constant, the call, nothing after it), and the run of the
  whole thread family with its strongest post: the arguments unchanged and every row of the result at what the
  tile that owns it computed.
-/
import proofs.«205751_g1185410973873_cont_main3_201_3_alg».proof.Proof.Res
import proofs.«205751_g1185410973873_cont_main3_201_3_alg».proof.Proof.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-- The call hands SparseCore `c` its sixteen tiles' shares and takes them back; a tile is handed its own. Neither
    the sequencers nor the tiles keep anything of the launch's between calls. -/
def P (hok : IdsOK m) : (K (F := F)).Pay (nD := nD) (Val := Elt F) (Name := ℕ) (U := UU) where
  st := fun q d c => match q with
    | 0 => bigSep Finset.univ fun s : Fin 16 => goRes m d (bvOf m d) (zvOf (F := F)) (Lof (Fin.cast nCore_zero c) s)
  dn := fun q d c => match q with
    | 0 => bigSep Finset.univ fun s : Fin 16 => tdRes m d hok (bvOf m d) (zvOf (F := F)) zc0 (Lof (Fin.cast nCore_zero c) s)
  go := fun q d c i => match q with
    | 0 => goRes m d (bvOf m d) (zvOf (F := F)) (Lof (Fin.cast nCore_zero c) (Fin.cast nSub_zero i))
  td := fun q d c i => match q with
    | 0 => tdRes m d hok (bvOf m d) (zvOf (F := F)) zc0 (Lof (Fin.cast nCore_zero c) (Fin.cast nSub_zero i))
  x := fun _ _ => iprop(emp)

/-- What the run leaves: on every device each row of the result at what its tile's trip computed, the token ids
    and the `exp` argument as they were. -/
def QC (hok : IdsOK m) : PUnit × MemSt nD τ sig (Elt F) → Prop := fun r => ∀ c : Dev nD,
  (∀ (L : grid0.Coords) (k : Fin k0_t1_loop.trips) (y : S100000.Idx),
      (r.2.mem (outLoc c) : Vec F S1024x100000 .f32) ((outRow L k).view.emb y) = tileRow m c hok (bvOf m c) zc0 L k y)
    ∧ r.2.mem (idsLoc c) = m (idsLoc c) ∧ r.2.mem (betaLoc c) = m (betaLoc c)

/-! ## The payloads travel inside the cells' invariants -/

instance goRes_storable (d : Dev nD) (bv : Buf (Elt F) (bvLoc d)) (zv : Buf (Elt F) (zLoc d)) (L : grid0.Coords) :
    BI.Storable (upEmb : UEmb _ 𝕄) (goRes m d bv zv L) := by
  unfold goRes; infer_instance

instance tdRes_storable (hok : IdsOK m) (d : Dev nD) (bv : Buf (Elt F) (bvLoc d)) (zv : Buf (Elt F) (zLoc d)) (zc : F .f32) (L : grid0.Coords) :
    BI.Storable (upEmb : UEmb _ 𝕄) (tdRes m d hok bv zv zc L) := by
  unfold tdRes; infer_instance

instance P_storable (hok : IdsOK m) : (P (F := F) m hok).IsStorable where
  st q d c := match q with
    | 0 => (inferInstance : BI.Storable (upEmb : UEmb _ 𝕄)
        (bigSep Finset.univ fun s : Fin 16 => goRes m d (bvOf m d) (zvOf (F := F)) (Lof (Fin.cast nCore_zero c) s)))
  dn q d c := match q with
    | 0 => (inferInstance : BI.Storable (upEmb : UEmb _ 𝕄)
        (bigSep Finset.univ fun s : Fin 16 => tdRes m d hok (bvOf m d) (zvOf (F := F)) zc0 (Lof (Fin.cast nCore_zero c) s)))
  go q d c i := match q with
    | 0 => (inferInstance : BI.Storable (upEmb : UEmb _ 𝕄)
        (goRes m d (bvOf m d) (zvOf (F := F)) (Lof (Fin.cast nCore_zero c) (Fin.cast nSub_zero i))))
  td q d c i := match q with
    | 0 => (inferInstance : BI.Storable (upEmb : UEmb _ 𝕄)
        (tdRes m d hok (bvOf m d) (zvOf (F := F)) zc0 (Lof (Fin.cast nCore_zero c) (Fin.cast nSub_zero i))))

/-! ## The tile task as the launch theorem's obligation -/

theorem defs₀_vector (c : Fin τ.nSC) (s : Fin τ.nSub) :
    defs₀ (F := F) (.scVector c s) 0 ()
      = SparseCore.onTile hcore0 hsub0 (fun c s => cc0__sc_body (coordsV c s)
          idsW (Memref.isWhole_whole _) bvW (Memref.isWhole_whole _) zW (Memref.isWhole_whole _) outW (Memref.isWhole_whole _)
          s0W (Memref.isWhole_whole _) s1W (Memref.isWhole_whole _) s2W (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hok : IdsOK m) : (K (F := F)).TileObl (D (F := F)) 𝒱 (P m hok) v₀ 0 := by
  intro d c i O W hO _ _
  -- the kernel owes nothing for a protocol of its own
  simp only [show (P m hok).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hok (bvOf m d) (zvOf (F := F)) zc0 zvOf_eq rfl O W hO).trans
    (wp_mono frame _ _ fun _ => obl_post)

/-! ## A SparseCore's share is its sixteen tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (hok : IdsOK m) : (K (F := F)).VecSplit' (P m hok) 0 := by
  intro d c
  show (bigSep Finset.univ fun s : Fin 16 => goRes m d (bvOf m d) (zvOf (F := F)) (Lof (Fin.cast nCore_zero c) s))
    ⊢ |={Set.univ}=> iprop(
      (bigSep Finset.univ fun i : Fin ((K (F := F)).nSub 0) =>
        goRes m d (bvOf m d) (zvOf (F := F)) (Lof (Fin.cast nCore_zero c) (Fin.cast nSub_zero i)))
      ∗ ((bigSep Finset.univ fun i : Fin ((K (F := F)).nSub 0) =>
          tdRes m d hok (bvOf m d) (zvOf (F := F)) zc0 (Lof (Fin.cast nCore_zero c) (Fin.cast nSub_zero i)))
          -∗ bigSep Finset.univ fun s : Fin 16 => tdRes m d hok (bvOf m d) (zvOf (F := F)) zc0 (Lof (Fin.cast nCore_zero c) s)))
  rw [bigSep_tasks (F := F) (fun s => goRes m d (bvOf m d) (zvOf (F := F)) (Lof (Fin.cast nCore_zero c) s)),
    bigSep_tasks (F := F) (fun s => tdRes m d hok (bvOf m d) (zvOf (F := F)) zc0 (Lof (Fin.cast nCore_zero c) s))]
  iintro H; imodintro
  isplitl [H]; · iexact H
  iintro H; iexact H

/-! ## The launch element: the handshakes' rounds; the transfers' counters start at nothing -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (hok : IdsOK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hok).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The tiles' rows: pairwise apart, together everything

Tile (c, s) has number w = 2 s + c; an element of the token ids or of the result belongs to it exactly when its row
lies in [32 w, 32 w + 32). -/

/-- The number of tile (c, s). -/
def wOf (p : Fin 2 × Fin 16) : ℕ := 2 * p.2.val + p.1.val

theorem tiles_disjoint {X : Type} [DecidableEq X] (Kf : Fin 2 × Fin 16 → Finset X) (r : X → ℕ)
    (hK : ∀ p i, i ∈ Kf p → 32 * wOf p ≤ r i ∧ r i < 32 * wOf p + 32) :
    ∀ p ∈ (Finset.univ : Finset (Fin 2 × Fin 16)), ∀ p' ∈ (Finset.univ : Finset (Fin 2 × Fin 16)), p ≠ p' → Disjoint (Kf p) (Kf p') := by
  intro p _ p' _ hne
  rw [Finset.disjoint_left]
  intro i h1 h2
  have a1 := hK p i h1
  have a2 := hK p' i h2
  have b1 := p.1.isLt
  have b2 := p'.1.isLt
  unfold wOf at a1 a2
  exact hne (Prod.ext (Fin.ext (by omega)) (Fin.ext (by omega)))

theorem tiles_cover {X : Type} [Fintype X] [DecidableEq X] (Kf : Fin 2 × Fin 16 → Finset X) (r : X → ℕ)
    (hK : ∀ p i, 32 * wOf p ≤ r i ∧ r i < 32 * wOf p + 32 → i ∈ Kf p) (hr : ∀ i, r i < 1024) :
    (Finset.univ : Finset (Fin 2 × Fin 16)).biUnion Kf = Finset.univ := by
  ext i
  simp only [Finset.mem_biUnion, Finset.mem_univ, true_and, iff_true]
  have := hr i
  refine ⟨(⟨(r i / 32) % 2, by omega⟩, ⟨r i / 64, by omega⟩), hK _ i ?_⟩
  unfold wOf; dsimp only; omega

omit [FloatOps F] in
theorem Lof_zero (p : Fin 2 × Fin 16) : ((Lof p.1 p.2) 0).val = p.1.val := rfl
omit [FloatOps F] in
theorem Lof_one (p : Fin 2 × Fin 16) : ((Lof p.1 p.2) 1).val = p.2.val := rfl

/-- Membership in a unit-stride rectangle of a matrix, axis by axis. -/
theorem mem_unit2 {n0 n1 : ℕ} (off size : Fin 2 → ℕ) (inb : ∀ a, off a + size a ≤ (⟨2, ![n0, n1]⟩ : Shape).size a)
    (i : (⟨2, ![n0, n1]⟩ : Shape).Idx) :
    i ∈ (Rect.unit (s := ⟨2, ![n0, n1]⟩) off size inb).set
      ↔ (off 0 ≤ (i 0).val ∧ (i 0).val < off 0 + size 0) ∧ (off 1 ≤ (i 1).val ∧ (i 1).val < off 1 + size 1) := by
  rw [Rect.mem_set_unit]; exact Fin.forall_fin_two

omit [FloatOps F] in
theorem mem_idsSet_tile (p : Fin 2 × Fin 16) (i : S1024x200.Idx) :
    i ∈ idsSet (Lof p.1 p.2) ↔ 32 * wOf p ≤ (i 0).val ∧ (i 0).val < 32 * wOf p + 32 := by
  show i ∈ ((View.whole (main_arg0_scv : Ref sig .scVector)).slice
      (Rect.unit (s := S1024x200) (k0_off1 (Lof p.1 p.2)) S32x200.size (k0_off1_inb (Lof p.1 p.2)))).set ↔ _
  rw [View.set_slice_whole]
  refine (mem_unit2 (n0 := 1024) (n1 := 200) _ _ _ i).trans ?_
  rw [k0_off1_eq]
  have h1 : (i 1).val < 200 := (i 1).isLt
  have e0 := Lof_zero p
  have e1 := Lof_one p
  show (64 * ((Lof p.1 p.2) 1).val + 32 * ((Lof p.1 p.2) 0).val ≤ (i 0).val
        ∧ (i 0).val < 64 * ((Lof p.1 p.2) 1).val + 32 * ((Lof p.1 p.2) 0).val + 32)
      ∧ (0 ≤ (i 1).val ∧ (i 1).val < 0 + 200) ↔ _
  unfold wOf
  omega

theorem loop_trips : k0_t1_loop.trips = 32 := by decide

omit [FloatOps F] in
theorem mem_outRowSet_tile (p : Fin 2 × Fin 16) (k : Fin k0_t1_loop.trips) (i : S1024x100000.Idx) :
    i ∈ outRowSet (Lof p.1 p.2) k ↔ (i 0).val = 32 * wOf p + k.val := by
  show i ∈ (((View.whole (main_v2_scv : Ref sig .scVector)).slice
      (Rect.unit (s := S1024x100000) (k0_off15 (Lof p.1 p.2) k) S1x100000.size (k0_off15_inb (Lof p.1 p.2) k))).reshape S100000
        squeezes_S1x100000_S100000.numel_eq).set ↔ _
  rw [View.set_reshape, View.set_slice_whole]
  refine (mem_unit2 (n0 := 1024) (n1 := 100000) _ _ _ i).trans ?_
  rw [k0_off15_eq]
  have h1 : (i 1).val < 100000 := (i 1).isLt
  have e0 := Lof_zero p
  have e1 := Lof_one p
  show (64 * ((Lof p.1 p.2) 1).val + 32 * ((Lof p.1 p.2) 0).val + k.val ≤ (i 0).val
        ∧ (i 0).val < 64 * ((Lof p.1 p.2) 1).val + 32 * ((Lof p.1 p.2) 0).val + k.val + 1)
      ∧ (0 ≤ (i 1).val ∧ (i 1).val < 0 + 100000) ↔ _
  unfold wOf
  omega

omit [FloatOps F] in
theorem mem_outSet_tile (p : Fin 2 × Fin 16) (i : S1024x100000.Idx) :
    i ∈ outSet (Lof p.1 p.2) ↔ 32 * wOf p ≤ (i 0).val ∧ (i 0).val < 32 * wOf p + 32 := by
  unfold outSet
  simp only [Finset.mem_biUnion, Finset.mem_univ, true_and, mem_outRowSet_tile]
  constructor
  · rintro ⟨k, hk⟩
    have : k.val < 32 := Nat.lt_of_lt_of_le k.isLt (le_of_eq loop_trips)
    omega
  · intro h
    exact ⟨⟨(i 0).val - 32 * wOf p, by rw [loop_trips]; omega⟩, by dsimp only; omega⟩

omit [FloatOps F] in
theorem idsSets_disjoint : ∀ p ∈ (Finset.univ : Finset (Fin 2 × Fin 16)), ∀ p' ∈ (Finset.univ : Finset (Fin 2 × Fin 16)), p ≠ p' →
    Disjoint (idsSet (Lof p.1 p.2)) (idsSet (Lof p'.1 p'.2)) :=
  tiles_disjoint (fun p => idsSet (Lof p.1 p.2)) (fun i => (i 0).val) fun p i h => (mem_idsSet_tile p i).mp h
omit [FloatOps F] in
theorem idsSets_cover : (Finset.univ : Finset (Fin 2 × Fin 16)).biUnion (fun p => idsSet (Lof p.1 p.2)) = Finset.univ :=
  tiles_cover (fun p => idsSet (Lof p.1 p.2)) (fun i => (i 0).val) (fun p i h => (mem_idsSet_tile p i).mpr h) fun i => (i 0).isLt
omit [FloatOps F] in
theorem outSets_disjoint : ∀ p ∈ (Finset.univ : Finset (Fin 2 × Fin 16)), ∀ p' ∈ (Finset.univ : Finset (Fin 2 × Fin 16)), p ≠ p' →
    Disjoint (outSet (Lof p.1 p.2)) (outSet (Lof p'.1 p'.2)) :=
  tiles_disjoint (fun p => outSet (Lof p.1 p.2)) (fun i => (i 0).val) fun p i h => (mem_outSet_tile p i).mp h
omit [FloatOps F] in
theorem outSets_cover : (Finset.univ : Finset (Fin 2 × Fin 16)).biUnion (fun p => outSet (Lof p.1 p.2)) = Finset.univ :=
  tiles_cover (fun p => outSet (Lof p.1 p.2)) (fun i => (i 0).val) (fun p i h => (mem_outSet_tile p i).mpr h) fun i => (i 0).isLt

/-- Every tile of the grid is tile (c, s) for its own coordinates. -/
theorem Lof_surj (L : grid0.Coords) : ∃ p : Fin 2 × Fin 16, L = Lof p.1 p.2 :=
  ⟨(cL L, sL L), funext fun a => match a with
    | 0 => Fin.ext rfl
    | 1 => Fin.ext rfl⟩

omit [FloatOps F] in
theorem cL_Lof (p : Fin 2 × Fin 16) : cL (Lof p.1 p.2) = p.1 := Fin.ext rfl
omit [FloatOps F] in
theorem sL_Lof (p : Fin 2 × Fin 16) : sL (Lof p.1 p.2) = p.2 := Fin.ext rfl

/-! ## The arrays whole are the tiles' shares -/

omit [FloatOps F] in
theorem ids_split (d : Dev nD) (f : Buf (Elt F) (idsLoc d)) :
    (idsLoc d ↦{fullShare} f : sProp 𝕄) = bigSep Finset.univ fun p : Fin 2 × Fin 16 => idsLoc d ↦[idsSet (Lof p.1 p.2)]{fullShare} f := by
  rw [← pointsTo_biUnion Finset.univ (ℓ := idsLoc d) (fun p : Fin 2 × Fin 16 => idsSet (Lof p.1 p.2)) idsSets_disjoint, idsSets_cover]; try rfl
omit [FloatOps F] in
theorem out_split (d : Dev nD) (f : Buf (Elt F) (outLoc d)) :
    (outLoc d ↦{fullShare} f : sProp 𝕄) = bigSep Finset.univ fun p : Fin 2 × Fin 16 => outLoc d ↦[outSet (Lof p.1 p.2)]{fullShare} f := by
  rw [← pointsTo_biUnion Finset.univ (ℓ := outLoc d) (fun p : Fin 2 × Fin 16 => outSet (Lof p.1 p.2)) outSets_disjoint, outSets_cover]; try rfl

/-- An array every tile reads whole goes out as thirty-two read shares, one SparseCore's half cut in sixteen. -/
theorem shares_split (ℓ : Loc nD τ sig) (f : Buf (Elt F) ℓ) :
    (ℓ ↦{fullShare} f : sProp 𝕄) ⊢ bigSep Finset.univ fun p : Fin 2 × Fin 16 => ℓ ↦{tileShare p.1 p.2} f := by
  rw [BI.bigSep_univ_prod (fun p : Fin 2 × Fin 16 => (ℓ ↦{tileShare p.1 p.2} f : sProp 𝕄))]
  refine (Transfers.pointsTo_toks_split fullShare 2).trans (sep_elim_right.trans ?_)
  exact bigSep_mono fun c _ => (Transfers.pointsTo_toks_split (Transfers.shareTok fullShare 2 c) 16).trans sep_elim_right

/-! ## @main on the TensorCore -/

/-- What @main leaves the claim: the token ids and the `exp` argument whole at their launch contents, the result
    whole at an array whose every row is what the tile that owns it computed. -/
def FIN (hok : IdsOK m) (d : Dev nD) : sProp 𝕄 :=
  iprop((idsLoc d ↦{fullShare} m (idsLoc d)) ∗ (betaLoc d ↦{fullShare} m (betaLoc d))
    ∗ ∃ g, (outLoc d ↦{fullShare} g)
        ∗ ⌜∀ (L : grid0.Coords) (k : Fin k0_t1_loop.trips) (y : S100000.Idx),
            (g : Vec F S1024x100000 .f32) ((outRow L k).view.emb y) = tileRow m d hok (bvOf m d) zc0 L k y⌝)

omit [FloatOps F] in
theorem pts_any (ℓ : Loc nD τ sig) (S : Finset (Idx ℓ)) (f : Buf (Elt F) ℓ) :
    (ℓ ↦[S]{fullShare} f : sProp 𝕄) ⊢ iprop(∃ f', ℓ ↦[S]{fullShare} f') := by
  iintro H; iexists f; iexact H

omit [FloatOps F] in
theorem sep_pure_swap (A : sProp 𝕄) (φ : Prop) : iprop(A ∗ ⌜φ⌝) ⊢ iprop(⌜φ⌝ ∗ A) := by
  iintro ⟨H1, %h2⟩
  isplitr
  · ipureintro; exact h2
  · iexact H1

/-- The tiles' shares from the arrays whole: the token ids and the result by rows, the two arrays every tile reads
    by read shares. -/
theorem deal (d : Dev nD) (bv : Buf (Elt F) (bvLoc d)) (zv : Buf (Elt F) (zLoc d)) (f : Buf (Elt F) (outLoc d)) :
    iprop((idsLoc d ↦{fullShare} m (idsLoc d)) ∗ (bvLoc d ↦{fullShare} bv) ∗ (zLoc d ↦{fullShare} zv) ∗ (outLoc d ↦{fullShare} f))
      ⊢ (bigSep Finset.univ fun p : Fin 2 × Fin 16 => goRes m d bv zv (Lof p.1 p.2) : sProp 𝕄) := by
  unfold goRes
  rw [bigSep_sep', bigSep_sep', bigSep_sep', ids_split, out_split]
  iintro ⟨Hi, Hbv, Hz, Ho⟩
  isplitl [Hi]; · iexact Hi
  isplitl [Hbv]
  · iapply ((shares_split (bvLoc d) bv).trans (Entails.of_eq (bigSep_congr fun p _ => by rw [cL_Lof, sL_Lof]))); iexact Hbv
  isplitl [Hz]
  · iapply ((shares_split (zLoc d) zv).trans (Entails.of_eq (bigSep_congr fun p _ => by rw [cL_Lof, sL_Lof]))); iexact Hz
  iapply (show (bigSep Finset.univ fun p : Fin 2 × Fin 16 => (outLoc d ↦[outSet (Lof p.1 p.2)]{fullShare} f : sProp 𝕄))
      ⊢ bigSep Finset.univ fun p : Fin 2 × Fin 16 => iprop(∃ f', outLoc d ↦[outSet (Lof p.1 p.2)]{fullShare} f')
    from bigSep_mono fun p _ => pts_any (outLoc d) _ f)
  iexact Ho

omit [FloatOps F] in
theorem emb_mem_outSet_tile (L : grid0.Coords) (k : Fin k0_t1_loop.trips) (y : S100000.Idx) : (outRow L k).view.emb y ∈ outSet L := by
  unfold outSet; exact Finset.mem_biUnion.mpr ⟨k, Finset.mem_univ k, View.emb_mem_set _ y⟩

/-- The tiles' rows of the result, each at what its tile left, are one array whole whose every row is what the tile
    that owns it computed. -/
theorem out_join (hok : IdsOK m) (d : Dev nD) (bv : Vec F S16 .f32) (zc : F .f32) :
    (bigSep Finset.univ fun p : Fin 2 × Fin 16 => iprop(∃ f, (outLoc d ↦[outSet (Lof p.1 p.2)]{fullShare} f)
        ∗ ⌜∀ (k : Fin k0_t1_loop.trips) (y : S100000.Idx),
            (f : Vec F S1024x100000 .f32) ((outRow (Lof p.1 p.2) k).view.emb y) = tileRow m d hok bv zc (Lof p.1 p.2) k y⌝) : sProp 𝕄)
      ⊢ iprop(∃ g, (outLoc d ↦{fullShare} g)
          ∗ ⌜∀ (L : grid0.Coords) (k : Fin k0_t1_loop.trips) (y : S100000.Idx),
              (g : Vec F S1024x100000 .f32) ((outRow L k).view.emb y) = tileRow m d hok bv zc L k y⌝) := by
  refine (bigSep_exists_pi Finset.univ (fun (p : Fin 2 × Fin 16) (f : Buf (Elt F) (outLoc d)) =>
    iprop((outLoc d ↦[outSet (Lof p.1 p.2)]{fullShare} f)
      ∗ ⌜∀ (k : Fin k0_t1_loop.trips) (y : S100000.Idx),
          (f : Vec F S1024x100000 .f32) ((outRow (Lof p.1 p.2) k).view.emb y) = tileRow m d hok bv zc (Lof p.1 p.2) k y⌝))).trans ?_
  iintro ⟨%fs, H⟩
  ihave H2 := (show (bigSep Finset.univ fun p : Fin 2 × Fin 16 => iprop((outLoc d ↦[outSet (Lof p.1 p.2)]{fullShare} fs p)
        ∗ ⌜∀ (k : Fin k0_t1_loop.trips) (y : S100000.Idx),
            (fs p : Vec F S1024x100000 .f32) ((outRow (Lof p.1 p.2) k).view.emb y) = tileRow m d hok bv zc (Lof p.1 p.2) k y⌝) : sProp 𝕄)
      ⊢ bigSep Finset.univ fun p : Fin 2 × Fin 16 => iprop(⌜∀ (k : Fin k0_t1_loop.trips) (y : S100000.Idx),
            (fs p : Vec F S1024x100000 .f32) ((outRow (Lof p.1 p.2) k).view.emb y) = tileRow m d hok bv zc (Lof p.1 p.2) k y⌝
        ∗ (outLoc d ↦[outSet (Lof p.1 p.2)]{fullShare} fs p))
    from bigSep_mono fun p _ => sep_pure_swap _ _) $$ H
  ihave H3 := (bigSep_pure_sep (Finset.univ : Finset (Fin 2 × Fin 16))
    (fun p => ∀ (k : Fin k0_t1_loop.trips) (y : S100000.Idx),
      (fs p : Vec F S1024x100000 .f32) ((outRow (Lof p.1 p.2) k).view.emb y) = tileRow m d hok bv zc (Lof p.1 p.2) k y)
    (fun p => (outLoc d ↦[outSet (Lof p.1 p.2)]{fullShare} fs p : sProp 𝕄))) $$ H2
  icases H3 with ⟨%hφ, Hpts⟩
  ihave H' := (pointsTo_biUnion_join Finset.univ (fun p : Fin 2 × Fin 16 => outSet (Lof p.1 p.2)) fs (fs (0, 0)) outSets_disjoint) $$ Hpts
  icases H' with ⟨%g, %hg, Hg⟩
  rw [outSets_cover]
  iexists g
  isplitl [Hg]; · iexact Hg
  ipureintro
  intro L k y
  obtain ⟨p, rfl⟩ := Lof_surj L
  rw [hg p (Finset.mem_univ p) _ (emb_mem_outSet_tile (Lof p.1 p.2) k y)]
  exact hφ p (Finset.mem_univ p) k y

/-- What the tiles hand back is the token ids whole as they were and the result whole, its rows as computed. -/
theorem collect (hok : IdsOK m) (d : Dev nD) (bv : Buf (Elt F) (bvLoc d)) (zv : Buf (Elt F) (zLoc d)) (zc : F .f32) :
    (bigSep Finset.univ fun p : Fin 2 × Fin 16 => tdRes m d hok bv zv zc (Lof p.1 p.2) : sProp 𝕄)
      ⊢ iprop((idsLoc d ↦{fullShare} m (idsLoc d)) ∗ ∃ g, (outLoc d ↦{fullShare} g)
          ∗ ⌜∀ (L : grid0.Coords) (k : Fin k0_t1_loop.trips) (y : S100000.Idx),
              (g : Vec F S1024x100000 .f32) ((outRow L k).view.emb y) = tileRow m d hok bv zc L k y⌝) := by
  unfold tdRes
  rw [bigSep_sep', bigSep_sep', bigSep_sep', ← ids_split]
  iintro ⟨Hi, -, -, Ho⟩
  isplitl [Hi]; · iexact Hi
  iapply (out_join m hok d bv zc); iexact Ho

/-! ### The host operations before the call -/

abbrev r0 : DevRef τ sig := Proc.devRef .tc (main_arg0 : Ref sig .tc)
abbrev r1 : DevRef τ sig := Proc.devRef .tc (main_arg1 : Ref sig .tc)
abbrev r2 : DevRef τ sig := Proc.devRef .tc (main_v0 : Ref sig .tc)
abbrev r3 : DevRef τ sig := Proc.devRef .tc (main_cst : Ref sig .tc)
abbrev r4 : DevRef τ sig := Proc.devRef .tc (main_v1 : Ref sig .tc)
abbrev r5 : DevRef τ sig := Proc.devRef .tc (main_v2 : Ref sig .tc)

/-- The TensorCore's arrays, all unscoped. -/
abbrev S6 : Finset (DevRef τ sig) := {r0, r1, r2, r3, r4, r5}

/-- The broadcast of the `exp` argument, the zero constant, its broadcast. -/
abbrev opB : HloOp τ sig (Elt F) :=
  StableHlo.unary main_arg1 main_v0 (broadcastInDim S16 ![] bcast_S_S16 : (⟨S_, .f32⟩ : BufTy).Contents (Elt F) → (⟨S16, .f32⟩ : BufTy).Contents (Elt F))
abbrev opC : HloOp τ sig (Elt F) := StableHlo.nullary main_cst (constant S_ .f32 0x00000000#32)
abbrev opZ : HloOp τ sig (Elt F) :=
  StableHlo.unary main_cst main_v1 (broadcastInDim S100000 ![] bcast_S_S100000 : (⟨S_, .f32⟩ : BufTy).Contents (Elt F) → (⟨S100000, .f32⟩ : BufTy).Contents (Elt F))

omit [FloatOps F] in
theorem held_S6 (d : Dev nD) (W : Valuation τ sig (Elt F)) :
    (held (T d) S6 W : sProp 𝕄) = iprop((idsLoc d ↦{fullShare} W r0) ∗ (betaLoc d ↦{fullShare} W r1) ∗ (bvLoc d ↦{fullShare} W r2)
      ∗ (cstLoc d ↦{fullShare} W r3) ∗ (zLoc d ↦{fullShare} W r4) ∗ outLoc d ↦{fullShare} W r5) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((idsLoc d ↦{fullShare} W main_arg0) ∗ (betaLoc d ↦{fullShare} W main_arg1) ∗ (bvLoc d ↦{fullShare} W main_v0)
      ∗ (cstLoc d ↦{fullShare} W main_cst) ∗ (zLoc d ↦{fullShare} W main_v1) ∗ outLoc d ↦{fullShare} W main_v2) := by
  unfold unscopedBufs
  rw [show (Finset.univ.filter fun b : Ref sig .tc => ¬ b.isScoped) = {main_arg0, main_arg1, main_v0, main_cst, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the one after the three host operations. -/
def V0 (d : Dev nD) : Valuation τ sig (Elt F) := fun b => m (d, b)
def V3 (d : Dev nD) : Valuation τ sig (Elt F) := (opZ (F := F)).result ((opC (F := F)).result ((opB (F := F)).result (V0 m d)))

theorem unscoped_held (d : Dev nD) : (unscopedBufs d (fun b => m ((SparseCore.T d).loc b)) : sProp 𝕄) = held (T d) S6 (V0 m d) := by
  rw [unscopedBufs_eq, held_S6]; rfl

theorem V3_r0 (d : Dev nD) : V3 m d r0 = m (idsLoc d) := by
  unfold V3
  rw [StableHlo.unary_result_ne _ _ _ _ _ _ (show (main_arg0 : Ref sig .tc) ≠ main_v1 by decide),
    StableHlo.nullary_result_ne _ _ _ _ (show (main_arg0 : Ref sig .tc) ≠ main_cst by decide),
    StableHlo.unary_result_ne _ _ _ _ _ _ (show (main_arg0 : Ref sig .tc) ≠ main_v0 by decide)]
  rfl
theorem V3_r1 (d : Dev nD) : V3 m d r1 = m (betaLoc d) := by
  unfold V3
  rw [StableHlo.unary_result_ne _ _ _ _ _ _ (show (main_arg1 : Ref sig .tc) ≠ main_v1 by decide),
    StableHlo.nullary_result_ne _ _ _ _ (show (main_arg1 : Ref sig .tc) ≠ main_cst by decide),
    StableHlo.unary_result_ne _ _ _ _ _ _ (show (main_arg1 : Ref sig .tc) ≠ main_v0 by decide)]
  rfl
theorem V3_r2 (d : Dev nD) : V3 m d r2 = bvOf m d := by
  unfold V3
  rw [StableHlo.unary_result_ne _ _ _ _ _ _ (show (main_v0 : Ref sig .tc) ≠ main_v1 by decide),
    StableHlo.nullary_result_ne _ _ _ _ (show (main_v0 : Ref sig .tc) ≠ main_cst by decide),
    StableHlo.unary_result]
  rfl
theorem V3_r4 (d : Dev nD) : V3 m d r4 = zvOf (F := F) := by
  unfold V3
  rw [StableHlo.unary_result, StableHlo.nullary_result]
  rfl
theorem V3_r5 (d : Dev nD) : V3 m d r5 = m (outLoc d) := by
  unfold V3
  rw [StableHlo.unary_result_ne _ _ _ _ _ _ (show (main_v2 : Ref sig .tc) ≠ main_v1 by decide),
    StableHlo.nullary_result_ne _ _ _ _ (show (main_v2 : Ref sig .tc) ≠ main_cst by decide),
    StableHlo.unary_result_ne _ _ _ _ _ _ (show (main_v2 : Ref sig .tc) ≠ main_v0 by decide)]
  rfl

theorem hB : (opB (F := F)).bufs ⊆ S6 := show ({r1, r2} : Finset (DevRef τ sig)) ⊆ S6 by decide
theorem hC : (opC (F := F)).bufs ⊆ S6 := show ({r3} : Finset (DevRef τ sig)) ⊆ S6 by decide
theorem hZ : (opZ (F := F)).bufs ⊆ S6 := show ({r3, r4} : Finset (DevRef τ sig)) ⊆ S6 by decide

/-! ### The call -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back: the thirty-two tiles' shares. -/
theorem st0_eq (hok : IdsOK m) (d : Dev nD) :
    (bigSep Finset.univ fun c : Fin ((K (F := F)).nCore 0) => (P m hok).st 0 d c)
      = bigSep Finset.univ fun p : Fin 2 × Fin 16 => goRes m d (bvOf m d) (zvOf (F := F)) (Lof p.1 p.2) :=
  (bigSep_cores (F := F) (fun c => bigSep Finset.univ fun s : Fin 16 => goRes m d (bvOf m d) (zvOf (F := F)) (Lof c s))).trans
    (BI.bigSep_univ_prod (fun p : Fin 2 × Fin 16 => goRes m d (bvOf m d) (zvOf (F := F)) (Lof p.1 p.2))).symm
theorem dn0_eq (hok : IdsOK m) (d : Dev nD) :
    (bigSep Finset.univ fun c : Fin ((K (F := F)).nCore 0) => (P m hok).dn 0 d c)
      = bigSep Finset.univ fun p : Fin 2 × Fin 16 => tdRes m d hok (bvOf m d) (zvOf (F := F)) zc0 (Lof p.1 p.2) :=
  (bigSep_cores (F := F) (fun c => bigSep Finset.univ fun s : Fin 16 => tdRes m d hok (bvOf m d) (zvOf (F := F)) zc0 (Lof c s))).trans
    (BI.bigSep_univ_prod (fun p : Fin 2 × Fin 16 => tdRes m d hok (bvOf m d) (zvOf (F := F)) zc0 (Lof p.1 p.2))).symm

/-- @main on device `d`'s TensorCore: the two broadcasts and the constant, then the call, from the arrays dealt to
    the tiles and back; the token ids and the `exp` argument kept, the result's rows as the tiles computed them. -/
theorem hmain (hok : IdsOK m) (κ : GSem nD τ sig → ℕ) (d : Dev nD) :
    iprop((K (F := F)).ctx EH (P m hok) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hok d) := by
  unfold SparseCore.Cfg.tcRes
  rw [unscoped_held]
  simp only [main, wp_bind, wp_pure]
  iintro ⟨#Hctx, Hst, ⟨Hb, Hheld, -, -⟩, -⟩
  -- the broadcast of the `exp` argument
  iapply (wp_hlo_within 𝒱 (SparseCore.T d) none Set.univ (op := opB) (S := S6) hB (V := V0 m d)) $$ [Hb Hheld]
  · isplitl [Hb]; · iexact Hb
    iexact Hheld
  iintro ⟨Hb, Hheld⟩
  rw [wp_ret]; imodintro
  -- the zero constant
  iapply (wp_hlo_within 𝒱 (SparseCore.T d) none Set.univ (op := opC) (S := S6) hC (V := (opB (F := F)).result (V0 m d))) $$ [Hb Hheld]
  · isplitl [Hb]; · iexact Hb
    iexact Hheld
  iintro ⟨Hb, Hheld⟩
  rw [wp_ret]; imodintro
  -- its broadcast
  iapply (wp_hlo_within 𝒱 (SparseCore.T d) none Set.univ (op := opZ) (S := S6) hZ
    (V := (opC (F := F)).result ((opB (F := F)).result (V0 m d)))) $$ [Hb Hheld]
  · isplitl [Hb]; · iexact Hb
    iexact Hheld
  iintro ⟨Hb, Hheld⟩
  rw [wp_ret]; imodintro
  ihave Hh := (show (held (SparseCore.T d) S6 ((opZ (F := F)).result ((opC (F := F)).result ((opB (F := F)).result (V0 m d)))) : sProp 𝕄) ⊢ _
    from Entails.of_eq (held_S6 (F := F) d (V3 m d))) $$ Hheld
  rw [V3_r0, V3_r1, V3_r2, V3_r4, V3_r5]
  icases Hh with ⟨Hi, Hbeta, Hbv, -, Hz, Ho⟩
  -- the call: the arrays to the tiles and back
  iapply ((K (F := F)).wp_run (D (F := F)) 𝒱 (EH := EH) (P := P m hok) κ d 0) $$ [Hst Hi Hbeta Hbv Hz Ho]
  isplitr; · iexact Hctx
  isplitl [Hst]; · iexact Hst
  isplitl [Hi Hbv Hz Ho]
  · rw [st0_eq]
    iapply (deal m d (bvOf m d) (zvOf (F := F)) (m (outLoc d)))
    isplitl [Hi]; · iexact Hi
    isplitl [Hbv]; · iexact Hbv
    isplitl [Hz]; · iexact Hz
    iexact Ho
  iintro ⟨Hst, Hdn⟩
  ihave Hdn' := (Entails.of_eq (dn0_eq m hok d)) $$ Hdn
  ihave Hc := (collect m hok d (bvOf m d) (zvOf (F := F)) zc0) $$ Hdn'
  icases Hc with ⟨Hi, Ho⟩
  imodintro
  isplitl [Hst]; · iexact Hst
  unfold FIN
  isplitl [Hi]; · iexact Hi
  isplitl [Hbeta]; · iexact Hbeta
  iexact Ho

def fq (hok : IdsOK m) (d : Dev nD) (s' : Phys nD τ sig (Elt F)) : Prop :=
  (∀ (L : grid0.Coords) (k : Fin k0_t1_loop.trips) (y : S100000.Idx),
      (s'.mem.mem (outLoc d) : Vec F S1024x100000 .f32) ((outRow L k).view.emb y) = tileRow m d hok (bvOf m d) zc0 L k y)
    ∧ s'.mem.mem (idsLoc d) = m (idsLoc d) ∧ s'.mem.mem (betaLoc d) = m (betaLoc d)

theorem hfin (hok : IdsOK m) (d : Dev nD) (s' : Phys nD τ sig (Elt F)) : iprop(FIN m hok d ∗ SI s') ⊢ (⌜fq m hok d s'⌝ : sProp 𝕄) := by
  unfold FIN
  iintro ⟨⟨Hi, Hb, %g, Ho, %hg⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := betaLoc d) (I := Finset.univ) (q := fullShare) (f := m (betaLoc d)))) $$ [HSI Hb]
  · isplitl [HSI] <;> iassumption
  icases H with ⟨%h2, HSI, -⟩
  ihave H := (SI_pointsTo_agree (st := s') (ℓ := outLoc d) (I := Finset.univ) (q := fullShare) (f := g)) $$ [HSI Ho]
  · isplitl [HSI] <;> iassumption
  icases H with %h3
  ipureintro
  refine ⟨fun L k y => ?_, funext fun i => h1 i (Finset.mem_univ i), funext fun i => h2 i (Finset.mem_univ i)⟩
  rw [← hg L k y]; exact h3 _ (Finset.mem_univ _)

/-! ## The run -/

theorem run_main [∀ e, Nonempty (Elt F e)] (hok : IdsOK m) :
    θ_run (Cert.KernelIdeal.defs (F := F)) (Cert.KernelIdeal.threads (F := F)) ⟨m, fun _ => 0, ρ⟩ (QC m hok) :=
  SparseCore.Cfg.θ_run_sc (K := K (F := F)) (D := D (F := F)) (𝒱 := 𝒱) (EH := EH) (P := P m hok) facts v₀
    (fun q hq => match q with | 0 => nomatch hq)
    (fun q _ => match q with | 0 => tileObl m facts hok)
    (fun q _ => match q with | 0 => SparseCore.Cfg.VecSplit.of_plain (vecSplit m hok))
    m ρ main (fun _ => iprop(emp)) (FIN m hok) (u₀ (F := F)) (sep_elim_left.trans (hu₀ m hok)) (hmain m ρ hok) (fq m hok) (hfin m hok) (QC m hok) (fun _ h => h)

end Cert.Proof.KI

end
-- ==== Proof.ResB.lean ====
/-
  What the tile task and the launch share: the program as the launch theorem sees it, the resource algebra (the
  handshakes' rounds beside the transfers' counters: the kernel only makes local copies and waits for each before
  it goes on), the arrays and each tile's share of them, and the row a tile leaves in `out` as a pure function of
  the launch memory.

  Tile (c, s) has number w = 2 s + c and owns rows [32 w, 32 w + 32) of the token ids and of the result; the
  broadcast `exp` argument and the zero row are read whole by every tile, so each tile holds a read share of them.
-/
import proofs.«205751_g1185410973873_cont_main3_201_3_alg».proof.Defs
import proofs.«205751_g1185410973873_cont_main3_201_3_alg».proof.Proof.Gen.Kernel
import proofs.«205751_g1185410973873_cont_main3_201_3_alg».proof.Proof.Gen.Kernel.Skeleton
import proofs.«205751_g1185410973873_cont_main3_201_3_alg».proof.Proof.Trip
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev idsLoc (d : Dev nD) : Loc nD τ sig := (SparseCore.T d).loc main_arg0
abbrev betaLoc (d : Dev nD) : Loc nD τ sig := (SparseCore.T d).loc main_arg1
abbrev bvLoc (d : Dev nD) : Loc nD τ sig := (SparseCore.T d).loc main_v0
abbrev cstLoc (d : Dev nD) : Loc nD τ sig := (SparseCore.T d).loc main_cst
abbrev zLoc (d : Dev nD) : Loc nD τ sig := (SparseCore.T d).loc main_v1
abbrev outLoc (d : Dev nD) : Loc nD τ sig := (SparseCore.T d).loc main_v2

/-- The kernel's memrefs, spelt as the body table passes them. -/
abbrev idsW : Memref sig .scVector .hbm S1024x200 .i32 := Memref.whole main_arg0_scv
abbrev bvW : Memref sig .scVector .hbm S16 .f32 := Memref.whole main_v0_scv
abbrev zW : Memref sig .scVector .hbm S100000 .f32 := Memref.whole main_v1_scv
abbrev outW : Memref sig .scVector .hbm S1024x100000 .f32 := Memref.whole main_v2_scv
abbrev s0W : Memref sig .scVector .vmem S32x200 .i32 := Memref.whole cc0_scratch0
abbrev s1W : Memref sig .scVector .vmem S100000 .f32 := Memref.whole cc0_scratch1
abbrev s2W : Memref sig .scVector .vmem S16 .f32 := Memref.whole cc0_scratch2

/-! ## A tile -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The tile's thread. -/
abbrev thrV (d : Dev nD) (L : grid0.Coords) : Thread nD τ := V d (cV L) (jV L)

/-- The tile's 32 rows of token ids, as the task slices them; -/
abbrev idsSl (L : grid0.Coords) : Memref sig .scVector .hbm S32x200 .i32 :=
  (idsW).slice (Rect.unit (s := S1024x200) (k0_off1 L) S32x200.size (k0_off1_inb L)) (fun _ => rfl)
/-- row `k` of the tile's rows of the result, as trip `k` slices and squeezes it. -/
abbrev outRow (L : grid0.Coords) (k : Fin k0_t1_loop.trips) : Memref sig .scVector .hbm S100000 .f32 :=
  ((outW).slice (Rect.unit (s := S1024x100000) (k0_off15 L k) S1x100000.size (k0_off15_inb L k)) (fun _ => rfl)).squeeze S100000 squeezes_S1x100000_S100000

/-- The elements of the token ids a tile owns, -/
abbrev idsSet (L : grid0.Coords) : Finset S1024x200.Idx := (idsSl L).view.set
/-- one row of the result, and the tile's 32 rows of it. -/
abbrev outRowSet (L : grid0.Coords) (k : Fin k0_t1_loop.trips) : Finset S1024x100000.Idx := (outRow L k).view.set
def outSet (L : grid0.Coords) : Finset S1024x100000.Idx := Finset.univ.biUnion (outRowSet L)

/-! ## What a tile computes -/

variable [FloatOps F]

/-- Every token id names an element of a count row. (What the certificate's precondition says of the launch memory.) -/
def IdsOK : Prop := ∀ (d : Dev nD) (i : S1024x200.Idx), ((m (idsLoc d) : Vec F S1024x200 .i32) i).toNat < 100000

variable (d : Dev nD)

/-- The tile's token rows, as its scratch holds them after the fetch. -/
def idsScr (L : grid0.Coords) : Vec F S32x200 .i32 := (idsSl L).view.read (Elt F) (m (idsLoc d))

/-- Sixteen tokens of a scratch row, at the offsets `off`. -/
def laneAt (L : grid0.Coords) (off : Fin 2 → Nat) (hoff : ∀ a, off a + S1x16.size a ≤ S32x200.size a) : IVec S16 32 :=
  shapeCast S16 ((s0W).view.readAt (Elt F) (Rect.unit (s := S32x200) off S1x16.size hoff).toLoadRect (idsScr m d L)) shapeCasts_S1x16_S16

def LaneOK (v : IVec S16 32) : Prop := ∀ a x, ((![v] : Fin 1 → IVec S16 32) a x).toNat < S100000.size a

/-- A lane's words are words of the token ids, so they are in range. -/
theorem laneOK_of_idsOK (hok : IdsOK m) (L : grid0.Coords) (off : Fin 2 → Nat) (hoff : ∀ a, off a + S1x16.size a ≤ S32x200.size a) :
    LaneOK (laneAt m d L off hoff) := by
  intro a x
  have ha : a = 0 := Subsingleton.elim _ _
  subst ha
  exact hok d ((idsSl L).view.emb ((s0W).view.emb ((Rect.unit (s := S32x200) off S1x16.size hoff).toLoadRect.idx
    (Shape.reshapeEquiv shapeCasts_S1x16_S16 x))))

/-- The row's tokens at columns 0..15, as trip `k` loads them. -/
def lane2 (L : grid0.Coords) (k : Fin k0_t1_loop.trips) : IVec S16 32 :=
  laneAt m d L (k0_off2 k) (k0_off2_inb k)
/-- The row's tokens at columns 16..31, as trip `k` loads them. -/
def lane3 (L : grid0.Coords) (k : Fin k0_t1_loop.trips) : IVec S16 32 :=
  laneAt m d L (k0_off3 k) (k0_off3_inb k)
/-- The row's tokens at columns 32..47, as trip `k` loads them. -/
def lane4 (L : grid0.Coords) (k : Fin k0_t1_loop.trips) : IVec S16 32 :=
  laneAt m d L (k0_off4 k) (k0_off4_inb k)
/-- The row's tokens at columns 48..63, as trip `k` loads them. -/
def lane5 (L : grid0.Coords) (k : Fin k0_t1_loop.trips) : IVec S16 32 :=
  laneAt m d L (k0_off5 k) (k0_off5_inb k)
/-- The row's tokens at columns 64..79, as trip `k` loads them. -/
def lane6 (L : grid0.Coords) (k : Fin k0_t1_loop.trips) : IVec S16 32 :=
  laneAt m d L (k0_off6 k) (k0_off6_inb k)
/-- The row's tokens at columns 80..95, as trip `k` loads them. -/
def lane7 (L : grid0.Coords) (k : Fin k0_t1_loop.trips) : IVec S16 32 :=
  laneAt m d L (k0_off7 k) (k0_off7_inb k)
/-- The row's tokens at columns 96..111, as trip `k` loads them. -/
def lane8 (L : grid0.Coords) (k : Fin k0_t1_loop.trips) : IVec S16 32 :=
  laneAt m d L (k0_off8 k) (k0_off8_inb k)
/-- The row's tokens at columns 112..127, as trip `k` loads them. -/
def lane9 (L : grid0.Coords) (k : Fin k0_t1_loop.trips) : IVec S16 32 :=
  laneAt m d L (k0_off9 k) (k0_off9_inb k)
/-- The row's tokens at columns 128..143, as trip `k` loads them. -/
def lane10 (L : grid0.Coords) (k : Fin k0_t1_loop.trips) : IVec S16 32 :=
  laneAt m d L (k0_off10 k) (k0_off10_inb k)
/-- The row's tokens at columns 144..159, as trip `k` loads them. -/
def lane11 (L : grid0.Coords) (k : Fin k0_t1_loop.trips) : IVec S16 32 :=
  laneAt m d L (k0_off11 k) (k0_off11_inb k)
/-- The row's tokens at columns 160..175, as trip `k` loads them. -/
def lane12 (L : grid0.Coords) (k : Fin k0_t1_loop.trips) : IVec S16 32 :=
  laneAt m d L (k0_off12 k) (k0_off12_inb k)
/-- The row's tokens at columns 176..191, as trip `k` loads them. -/
def lane13 (L : grid0.Coords) (k : Fin k0_t1_loop.trips) : IVec S16 32 :=
  laneAt m d L (k0_off13 k) (k0_off13_inb k)
/-- The row's tokens at columns 184..199, as trip `k` loads them. -/
def lane14 (L : grid0.Coords) (k : Fin k0_t1_loop.trips) : IVec S16 32 :=
  laneAt m d L (k0_off14 k) (k0_off14_inb k)

/-- The thirteen index vectors of trip `k`: twelve aligned ones and the tail vector, whose scatter-add stores only
    its upper eight lanes (the lower eight repeat the twelfth vector's upper eight). -/
def tileOps (hok : IdsOK m) (L : grid0.Coords) (k : Fin k0_t1_loop.trips) : List Trip.Lane16 :=
  [
    ⟨lane2 m d L k, laneOK_of_idsOK m d hok L _ _, Trip.allLanes⟩,
    ⟨lane3 m d L k, laneOK_of_idsOK m d hok L _ _, Trip.allLanes⟩,
    ⟨lane4 m d L k, laneOK_of_idsOK m d hok L _ _, Trip.allLanes⟩,
    ⟨lane5 m d L k, laneOK_of_idsOK m d hok L _ _, Trip.allLanes⟩,
    ⟨lane6 m d L k, laneOK_of_idsOK m d hok L _ _, Trip.allLanes⟩,
    ⟨lane7 m d L k, laneOK_of_idsOK m d hok L _ _, Trip.allLanes⟩,
    ⟨lane8 m d L k, laneOK_of_idsOK m d hok L _ _, Trip.allLanes⟩,
    ⟨lane9 m d L k, laneOK_of_idsOK m d hok L _ _, Trip.allLanes⟩,
    ⟨lane10 m d L k, laneOK_of_idsOK m d hok L _ _, Trip.allLanes⟩,
    ⟨lane11 m d L k, laneOK_of_idsOK m d hok L _ _, Trip.allLanes⟩,
    ⟨lane12 m d L k, laneOK_of_idsOK m d hok L _ _, Trip.allLanes⟩,
    ⟨lane13 m d L k, laneOK_of_idsOK m d hok L _ _, Trip.allLanes⟩,
    ⟨lane14 m d L k, laneOK_of_idsOK m d hok L _ _, k0_pay2⟩
  ]

/-- What the tile's scratch holds of the broadcast `exp` argument after its fetch, loaded, and its `exp`. -/
def ebOf (bv : Vec F S16 .f32) : FVec F S16 .f32 :=
  k0_pay1 ((s2W).view.readAt (Elt F) (Rect.unit (s := S16) ![0] S16.size inb_S16_S16_0).toLoadRect ((bvW).view.read (Elt F) bv))

/-- The row trip `k` of tile `L` copies out, from a count row that starts at the constant `zc`. -/
def tileRow (hok : IdsOK m) (bv : Vec F S16 .f32) (zc : F .f32) (L : grid0.Coords) (k : Fin k0_t1_loop.trips) : Vec F S100000 .f32 :=
  Trip.rowOut (tileOps m d hok L k) (k0_pay3 (F := F)) (ebOf bv) (fun _ => zc)

/-! ## A tile's share of the arrays -/

/-- The read share tile (c, s) holds of an array every tile reads whole. -/
abbrev tileShare (c : Fin 2) (s : Fin 16) : PosShare TreeShare := Transfers.shareTok (Transfers.shareTok fullShare 2 c) 16 s

omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

/-- What the launch hands tile `L`: its rows of the token ids, a read share of the broadcast `exp` argument (at `bv`)
    and of the zero row (at `zv`), and its rows of the result (at whatever they hold). -/
def goRes (bv : Buf (Elt F) (bvLoc d)) (zv : Buf (Elt F) (zLoc d)) (L : grid0.Coords) : sProp 𝕄 :=
  iprop((idsLoc d ↦[idsSet L]{fullShare} m (idsLoc d))
    ∗ (bvLoc d ↦{tileShare (cL L) (sL L)} bv)
    ∗ (zLoc d ↦{tileShare (cL L) (sL L)} zv)
    ∗ ∃ f, outLoc d ↦[outSet L]{fullShare} f)

/-- What the tile hands back: the same, its rows of the result at what its trips computed. -/
def tdRes (hok : IdsOK m) (bv : Buf (Elt F) (bvLoc d)) (zv : Buf (Elt F) (zLoc d)) (zc : F .f32) (L : grid0.Coords) : sProp 𝕄 :=
  iprop((idsLoc d ↦[idsSet L]{fullShare} m (idsLoc d))
    ∗ (bvLoc d ↦{tileShare (cL L) (sL L)} bv)
    ∗ (zLoc d ↦{tileShare (cL L) (sL L)} zv)
    ∗ ∃ f, (outLoc d ↦[outSet L]{fullShare} f)
        ∗ ⌜∀ (k : Fin k0_t1_loop.trips) (y : S100000.Idx), (f : Vec F S1024x100000 .f32) ((outRow L k).view.emb y) = tileRow m d hok bv zc L k y⌝)

/-! ## The two arrays @main makes before the call -/

/-- The `exp` argument broadcast to sixteen lanes, and the zero row, as @main's host operations leave them. -/
def bvOf : Vec F S16 .f32 := broadcastInDim S16 ![] bcast_S_S16 (m (betaLoc d) : Vec F S_ .f32)
def zvOf : Vec F S100000 .f32 := broadcastInDim S100000 ![] bcast_S_S100000 (constant S_ .f32 0x00000000#32 : Vec F S_ .f32)
/-- The zero row's one value. -/
def zc0 : F .f32 := (constant S_ .f32 0x00000000#32 : Vec F S_ .f32) (fun a => a.elim0)

theorem zvOf_eq : (zvOf (F := F)) = fun _ => zc0 := by
  funext j
  rfl

/-- Tile (c, s) of the grid. -/
def Lof (c : Fin 2) (s : Fin 16) : grid0.Coords := coordsV (Fin.cast bound_zero.symm c) (Fin.cast bound_one.symm s)

end Cert.Proof.KB

end
-- ==== Proof.RowsB.lean ====
/-
  Which elements of the arrays a tile's memrefs are: tile (c, s) has number w = 2 s + c; its rows of the token ids
  are rows [32 w, 32 w + 32), and row k of its rows of the result is row 32 w + k, all 100000 columns.
-/
import proofs.«205751_g1185410973873_cont_main3_201_3_alg».proof.Proof.ResB

noncomputable section

namespace Cert.Proof.KB

open Cert.Kernel Cert.Kernel.Gen
open Idealize.ShloMosaic

/-- The first row of tile `L`. -/
def baseRow (L : grid0.Coords) : ℕ := 64 * (L 1).val + 32 * (L 0).val

/-- An element of the result is in row `k` of tile `L`'s rows exactly when its row number is the tile's first row plus `k`. -/
theorem mem_outRowSet (L : grid0.Coords) (k : Fin k0_t1_loop.trips) (i : S1024x100000.Idx) :
    i ∈ outRowSet L k ↔ (i 0).val = baseRow L + k.val := by
  show i ∈ (((View.whole main_v2_scv).slice (Rect.unit (s := S1024x100000) (k0_off15 L k) S1x100000.size (k0_off15_inb L k))).reshape
      S100000 squeezes_S1x100000_S100000.numel_eq).set ↔ _
  rw [View.set_reshape, View.set_slice_whole, Rect.mem_set_unit, k0_off15_eq]
  show (∀ a : Fin 2, _) ↔ _
  rw [Fin.forall_fin_two]
  have h1 : (i 1).val < 100000 := (i 1).isLt
  show (64 * (L 1).val + 32 * (L 0).val + k.val ≤ (i 0).val ∧ (i 0).val < 64 * (L 1).val + 32 * (L 0).val + k.val + 1)
      ∧ (0 ≤ (i 1).val ∧ (i 1).val < 0 + 100000) ↔ _
  unfold baseRow
  omega

/-- The element of the result that column `y` of row `k` of tile `L` is: its row number, -/
theorem outRow_emb_row (L : grid0.Coords) (k : Fin k0_t1_loop.trips) (y : S100000.Idx) :
    (((outRow L k).view.emb y : S1024x100000.Idx) 0).val = baseRow L + k.val := by
  -- the squeezed row's element y is the [1 × 100000] row's element matched with y, placed at the row's offsets
  show k0_off15 L k 0
      + 1 * ((Shape.reshapeEquiv (s := S1x100000) (s' := S100000) squeezes_S1x100000_S100000.numel_eq y) 0).val = baseRow L + k.val
  have hoff : k0_off15 L k 0 = 64 * (L 1).val + 32 * (L 0).val + k.val := congrFun (k0_off15_eq L k) 0
  have h0 : ((Shape.reshapeEquiv (s := S1x100000) (s' := S100000) squeezes_S1x100000_S100000.numel_eq y) 0).val < 1 :=
    ((Shape.reshapeEquiv (s := S1x100000) (s' := S100000) squeezes_S1x100000_S100000.numel_eq y) 0).isLt
  unfold baseRow
  omega

/-- and its column. -/
theorem outRow_emb_col (L : grid0.Coords) (k : Fin k0_t1_loop.trips) (y : S100000.Idx) :
    (((outRow L k).view.emb y : S1024x100000.Idx) 1).val = (y 0).val := by
  show k0_off15 L k 1
      + 1 * ((Shape.reshapeEquiv (s := S1x100000) (s' := S100000) squeezes_S1x100000_S100000.numel_eq y) 1).val = (y 0).val
  have hoff : k0_off15 L k 1 = 0 := congrFun (k0_off15_eq L k) 1
  -- dropping the leading axis of size one: the matched element is y behind the coordinate 0
  have hre : ((Shape.reshapeEquiv (s := S1x100000) (s' := S100000) squeezes_S1x100000_S100000.numel_eq y) 1).val = (y 0).val :=
    congrArg (fun z : S1x100000.Idx => (z 1).val)
      (Shape.reshapeEquiv_cons_one (n := 1) (d := ![100000]) squeezes_S1x100000_S100000.numel_eq y)
  omega

/-- An element of the token ids is the tile's exactly when its row is one of the tile's 32. -/
theorem mem_idsSet (L : grid0.Coords) (i : S1024x200.Idx) :
    i ∈ idsSet L ↔ baseRow L ≤ (i 0).val ∧ (i 0).val < baseRow L + 32 := by
  show i ∈ ((View.whole main_arg0_scv).slice (Rect.unit (s := S1024x200) (k0_off1 L) S32x200.size (k0_off1_inb L))).set ↔ _
  rw [View.set_slice_whole, Rect.mem_set_unit, k0_off1_eq]
  show (∀ a : Fin 2, _) ↔ _
  rw [Fin.forall_fin_two]
  have h1 : (i 1).val < 200 := (i 1).isLt
  show (64 * (L 1).val + 32 * (L 0).val ≤ (i 0).val ∧ (i 0).val < 64 * (L 1).val + 32 * (L 0).val + 32)
      ∧ (0 ≤ (i 1).val ∧ (i 1).val < 0 + 200) ↔ _
  unfold baseRow
  omega

/-- The loop makes 32 trips. -/
theorem trips_eq : k0_t1_loop.trips = 32 := by
  decide

/-- Column `y` of one row of a tile is in another row of it only if the rows are the same. -/
theorem outRow_emb_mem_iff (L : grid0.Coords) (k k' : Fin k0_t1_loop.trips) (y : S100000.Idx) :
    (outRow L k').view.emb y ∈ outRowSet L k ↔ k' = k := by
  rw [mem_outRowSet, outRow_emb_row]
  constructor
  · intro h; exact Fin.ext (by omega)
  · intro h; rw [h]

/-- Every row of a tile's rows of the result is among the tile's elements of it. -/
theorem outRowSet_subset (L : grid0.Coords) (k : Fin k0_t1_loop.trips) : outRowSet L k ⊆ outSet L :=
  Finset.subset_biUnion_of_mem (outRowSet L) (Finset.mem_univ k)

end Cert.Proof.KB

end
-- ==== Proof.BodyB.lean ====
/-
  The task of one vector subcore, run once at a symbolic tile: three fetches (its rows of the token ids, the zero
  row, the broadcast `exp` argument), then for each of its 32 rows the three scatter phases over the count row with
  the copy-out of the row between the second and the third.
-/
import proofs.«205751_g1185410973873_cont_main3_201_3_alg».proof.Proof.ResB
import proofs.«205751_g1185410973873_cont_main3_201_3_alg».proof.Proof.RowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-! ## The tile's own semaphores and scratch -/

abbrev cell0 : GSem nD τ sig := (thrV d L, .dma cc0_scoped0.sem)
abbrev cell1 : GSem nD τ sig := (thrV d L, .dma cc0_scoped1.sem)
abbrev cell2 : GSem nD τ sig := (thrV d L, .dma cc0_scoped2.sem)
abbrev cell3 : GSem nD τ sig := (thrV d L, .dma cc0_scoped3.sem)

omit [FloatOps F] in
/-- The four semaphores the task's copies complete on are among the tile's own. -/
theorem ownSems0_V :
    (ownSems0 (thrV d L) : sProp 𝕄)
      = iprop(semVal (cell0 d L) 0 ∗ semVal (cell1 d L) 0 ∗ semVal (cell2 d L) 0 ∗ semVal (cell3 d L) 0
          ∗ bigSep (((((ownCells (thrV d L)).erase (cell0 d L)).erase (cell1 d L)).erase (cell2 d L)).erase (cell3 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped3.sem : SemLoc sig).isScoped .scVector = true; decide⟩⟩⟩⟩)]

omit [FloatOps F] in
/-- The three scratch buffers are among the tile's own. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The arrays as the tile's memrefs address them -/

omit [FloatOps F] in
theorem pts_ids (f : Buf (Elt F) (idsLoc d)) :
    ((idsSl L).view.loc (thrV d L) ↦[(idsSl L).view.set]{fullShare} f : sProp 𝕄) = idsLoc d ↦[idsSet L]{fullShare} f := rfl
omit [FloatOps F] in
theorem pts_bv (q : PosShare TreeShare) (f : Buf (Elt F) (bvLoc d)) :
    ((bvW).view.loc (thrV d L) ↦{q} f : sProp 𝕄) = bvLoc d ↦{q} f := rfl
omit [FloatOps F] in
theorem pts_z (q : PosShare TreeShare) (f : Buf (Elt F) (zLoc d)) :
    ((zW).view.loc (thrV d L) ↦{q} f : sProp 𝕄) = zLoc d ↦{q} f := rfl
omit [FloatOps F] in
theorem pts_s0 (f : Buf (Elt F) ((thrV d L).loc cc0_scratch0)) :
    ((s0W).view.loc (thrV d L) ↦{fullShare} f : sProp 𝕄) = (thrV d L).loc cc0_scratch0 ↦{fullShare} f := rfl
omit [FloatOps F] in
theorem pts_s1 (f : Buf (Elt F) ((thrV d L).loc cc0_scratch1)) :
    ((s1W).view.loc (thrV d L) ↦{fullShare} f : sProp 𝕄) = (thrV d L).loc cc0_scratch1 ↦{fullShare} f := rfl
omit [FloatOps F] in
theorem pts_s2 (f : Buf (Elt F) ((thrV d L).loc cc0_scratch2)) :
    ((s2W).view.loc (thrV d L) ↦{fullShare} f : sProp 𝕄) = (thrV d L).loc cc0_scratch2 ↦{fullShare} f := rfl

/-! ## The indexed store and load of the count row -/

/-- The indexed store (plain or adding) into the count row held whole: the row rewritten to the scatter of what it held. -/
theorem wp_scatter {α : Type} {Q : α → sProp 𝕄} {idxs : Fin S100000.rank → IVec S16 32} {v : Vec F S16 .f32} {mask : IVec S16 1} {add : Bool}
    {hin : ∀ a x, (idxs a x).toNat < S100000.size a} {hs : ((s1W).access (.whole S100000)).Stores Finset.univ}
    {k : PUnit → Prog (TpuEff nD τ sig (Elt F) Λ₀ (thrV d L).2) α} (f : Vec F S100000 .f32) :
    ((s1W).view.loc (thrV d L) ↦{fullShare} f : sProp 𝕄)
      ⊢ iprop((((s1W).view.loc (thrV d L) ↦{fullShare} (storeIdx f idxs v mask add hin : Vec F S100000 .f32))
            -∗ wp frame (wpE (defs₀ (F := F)) 𝒱₀ (thrV d L) none) Set.univ (k ⟨⟩) Q)
        -∗ wp frame (wpE (defs₀ (F := F)) 𝒱₀ (thrV d L) none) Set.univ (SparseCore.vectorStoreIdx s1W idxs v mask add hin hs >>= k) Q) := by
  have h := SparseCore.wp_vectorStoreIdx (defs := defs₀ (F := F)) 𝒱₀ (thrV d L) none Set.univ (base := s1W) (idxs := idxs) (v := v)
    (mask := mask) (add := add) (h := hin) (hs := hs) (k := k) (Q := Q) (f := f)
  have e1 : View.read (Elt F) ((s1W).access (Rect.whole S100000)) f = f := Memref.read_access_whole (Elt F) cc0_scratch1 f
  have e2 : ∀ w : Vec F S100000 .f32, View.write (Elt F) ((s1W).access (Rect.whole S100000)) f w Finset.univ = w :=
    fun w => Memref.write_access_whole_univ (Elt F) cc0_scratch1 f w
  have e0 : ((s1W).access (Rect.whole S100000)).set = Finset.univ := Memref.set_access_whole cc0_scratch1
  rw [e1, e2, e0] at h
  exact h

/-- The same, the scattered row named `g`. -/
theorem wp_scatter_to {α : Type} {Q : α → sProp 𝕄} {idxs : Fin S100000.rank → IVec S16 32} {v : Vec F S16 .f32} {mask : IVec S16 1} {add : Bool}
    {hin : ∀ a x, (idxs a x).toNat < S100000.size a} {hs : ((s1W).access (.whole S100000)).Stores Finset.univ}
    {k : PUnit → Prog (TpuEff nD τ sig (Elt F) Λ₀ (thrV d L).2) α} (f g : Vec F S100000 .f32)
    (h : (storeIdx f idxs v mask add hin : Vec F S100000 .f32) = g) :
    ((s1W).view.loc (thrV d L) ↦{fullShare} f : sProp 𝕄)
      ⊢ iprop((((s1W).view.loc (thrV d L) ↦{fullShare} g)
            -∗ wp frame (wpE (defs₀ (F := F)) 𝒱₀ (thrV d L) none) Set.univ (k ⟨⟩) Q)
        -∗ wp frame (wpE (defs₀ (F := F)) 𝒱₀ (thrV d L) none) Set.univ (SparseCore.vectorStoreIdx s1W idxs v mask add hin hs >>= k) Q) := by
  subst h; exact wp_scatter (F := F) d L f

/-- The indexed load from the count row held whole: the gather of what it holds. -/
theorem wp_gather {α : Type} {Q : α → sProp 𝕄} {idxs : Fin S100000.rank → IVec S16 32}
    {hin : ∀ a x, (idxs a x).toNat < S100000.size a} {hl : (s1W).view.Loads}
    {k : Vec F S16 .f32 → Prog (TpuEff nD τ sig (Elt F) Λ₀ (thrV d L).2) α} (f : Vec F S100000 .f32) :
    ((s1W).view.loc (thrV d L) ↦{fullShare} f : sProp 𝕄)
      ⊢ iprop((((s1W).view.loc (thrV d L) ↦{fullShare} f)
            -∗ wp frame (wpE (defs₀ (F := F)) 𝒱₀ (thrV d L) none) Set.univ (k (loadIdx f idxs hin)) Q)
        -∗ wp frame (wpE (defs₀ (F := F)) 𝒱₀ (thrV d L) none) Set.univ (SparseCore.vectorLoadIdx s1W idxs hin hl >>= k) Q) := by
  have h := SparseCore.wp_vectorLoadIdx (defs := defs₀ (F := F)) 𝒱₀ (thrV d L) none Set.univ (base := s1W) (idxs := idxs)
    (h := hin) (hl := hl) (k := k) (Q := Q) (S := ((s1W).access (Rect.whole S100000)).set) (q := fullShare) (f := f) subset_rfl
  have e1 : View.read (Elt F) ((s1W).access (Rect.whole S100000)) f = f := Memref.read_access_whole (Elt F) cc0_scratch1 f
  have e0 : ((s1W).access (Rect.whole S100000)).set = Finset.univ := Memref.set_access_whole cc0_scratch1
  rw [e1, e0] at h
  exact h

omit [FloatOps F] in
/-- The count row held at contents equal to `g` is held at `g`. -/
theorem pts_s1_congr (f g : Vec F S100000 .f32) (h : f = g) :
    ((s1W).view.loc (thrV d L) ↦{fullShare} f : sProp 𝕄) ⊢ (s1W).view.loc (thrV d L) ↦{fullShare} g := by
  subst h; exact Entails.of_eq rfl

omit [FloatOps F] in
/-- A row of the result written whole with `w` reads `w` at its own elements, -/
theorem outRow_writes_emb (k : Fin k0_t1_loop.trips) (fo : (outRow L k).view.ty.Contents (Elt F)) (w : S100000.Idx → Elt F .f32) (y : S100000.Idx) :
    ((outRow L k).view.writes (Elt F) fo [⟨Rect.whole S100000, w⟩]) ((outRow L k).view.emb y) = w y := by
  have h1 := View.read_writes_cons_emb (outRow L k).view fo (Rect.whole S100000) w [] y
  rw [Rect.emb_whole_apply] at h1
  exact ((View.read_apply _ _).trans (cast_eq _ _)).symm.trans h1

omit [FloatOps F] in
/-- and keeps every other element of the array. -/
theorem outRow_writes_off (k : Fin k0_t1_loop.trips) (fo : (outRow L k).view.ty.Contents (Elt F)) (Lp : List (View.Piece (Elt F) S100000 .f32))
    (i : (outRow L k).view.ty.Idx) (hi : ∀ y, (outRow L k).view.emb y ≠ i) :
    (outRow L k).view.writes (Elt F) fo Lp i = fo i :=
  View.writes_apply_of_forall_ne _ _ _ hi

/-! ## One trip -/

set_option hygiene false in
local macro "scat" : tactic => `(tactic| (iapply (wp_scatter (F := F) d L _) $$ Hs1; iintro Hs1))
set_option hygiene false in
local macro "gath" : tactic => `(tactic| (iapply (wp_gather (F := F) d L _) $$ Hs1; iintro Hs1))

set_option maxHeartbeats 4000000 in
/-- One trip at a symbolic row `k`: from the token rows, the constant count row and row `k` of the tile's rows of the
    result, the three phases and the copy-out between the second and the third leave the count row constant again and
    row `k` at the encoded counts, every other element of the result as it was. -/
theorem trip (hok : IdsOK m) (v2 : BitVec 32) (v3 : Vec F S16 .f32) (k : Fin k0_t1_loop.trips)
    (O : CellTallies nD τ sig (HIx 1)) (W : Waits sig (HIx 1)) (fo : Buf (Elt F) (outLoc d)) :
    (iprop(Transfers.MayWaits (thrV d L) (default : HIx 1) O
        ∗ ((s0W).view.loc (thrV d L) ↦{fullShare} (idsScr m d L : Vec F S32x200 .i32))
        ∗ ((s1W).view.loc (thrV d L) ↦{fullShare} (fun _ => zc0 : Vec F S100000 .f32))
        ∗ ((outRow L k).view.loc (thrV d L) ↦[(outRow L k).view.set]{fullShare} fo)
        ∗ semVal (thrV d L, SemLoc.dma cc0_scoped3.sem) 0 ∗ owes (thrV d L) O W) : sProp 𝕄)
      ⊢ wp frame (wpE (defs₀ (F := F)) 𝒱₀ (thrV d L) none) Set.univ
          (k0_t1_body L idsW (Memref.isWhole_whole _) bvW (Memref.isWhole_whole _) zW (Memref.isWhole_whole _) outW (Memref.isWhole_whole _)
            s0W (Memref.isWhole_whole _) s1W (Memref.isWhole_whole _) s2W (Memref.isWhole_whole _) cc0_scoped0 cc0_scoped1 cc0_scoped2 cc0_scoped3 v2 v3 k ())
          fun _ => iprop(Transfers.MayWaits (thrV d L) (default : HIx 1) O
            ∗ ((s0W).view.loc (thrV d L) ↦{fullShare} (idsScr m d L : Vec F S32x200 .i32))
            ∗ ((s1W).view.loc (thrV d L) ↦{fullShare} (fun _ => zc0 : Vec F S100000 .f32))
            ∗ (∃ f' : Buf (Elt F) (outLoc d), ((outRow L k).view.loc (thrV d L) ↦[(outRow L k).view.set]{fullShare} f')
                ∗ ⌜(∀ y : S100000.Idx, (f' : Vec F S1024x100000 .f32) ((outRow L k).view.emb y)
                      = Trip.rowOut (tileOps m d hok L k) (k0_pay3 (F := F)) (k0_pay1 v3) (fun _ => zc0) y)
                    ∧ ∀ i : S1024x100000.Idx, (∀ y, (outRow L k).view.emb y ≠ i) → (f' : Vec F S1024x100000 .f32) i = (fo : Vec F S1024x100000 .f32) i⌝)
            ∗ semVal (thrV d L, SemLoc.dma cc0_scoped3.sem) 0
            ∗ owes (thrV d L) O (insert (SemLoc.dma cc0_scoped3.sem, (default : HIx 1)) W)) := by
  have hL := laneOK_of_idsOK m d hok L
  iintro ⟨Hmw, Hs0, Hs1, Hrow, Hsem3, HO⟩
  unfold k0_t1_body
  sl_exec (disch := first | exact ⟨hL _ _, hL _ _, hL _ _, hL _ _⟩)
  scat; scat; scat; scat; scat; scat; scat; scat; scat; scat; scat; scat
  -- the last store of phase 1 leaves the counts
  iapply (wp_scatter_to (F := F) d L _ (Trip.counted (tileOps m d hok L k) (k0_pay3 (F := F)) (fun _ => zc0)) ?h1) $$ Hs1
  case h1 =>
    unfold Trip.counted tileOps
    simp only [List.foldl_cons, List.foldl_nil]
    rfl
  iintro Hs1
  gath; gath; gath; gath; gath; gath; gath; gath; gath; gath; gath; gath; gath
  scat; scat; scat
  sl_exec
  scat; scat; scat; scat; scat; scat
  sl_exec
  scat; scat; scat
  -- the last store of phase 2 leaves the encoded row
  iapply (wp_scatter_to (F := F) d L _ (Trip.rowOut (tileOps m d hok L k) (k0_pay3 (F := F)) (k0_pay1 v3) (fun _ => zc0)) ?h2) $$ Hs1
  case h2 =>
    unfold Trip.rowOut Trip.encoded tileOps
    simp only [List.foldl_cons, List.foldl_nil]
    rfl
  iintro Hs1
  sl_exec
  scat; scat; scat; scat; scat; scat; scat; scat; scat; scat; scat; scat
  -- the last store of phase 3 has the constant back at every named token
  iapply (wp_scatter_to (F := F) d L _ (fun _ => zc0) ?h3) $$ Hs1
  case h3 =>
    refine Eq.trans ?_ (Trip.cleared_rowOut (tileOps m d hok L k) (k0_pay3 (F := F)) (k0_pay1 v3) zc0)
    unfold Trip.cleared tileOps
    simp only [List.foldl_cons, List.foldl_nil]
    rfl
  iintro Hs1
  sl_exec
  sl_step
  isplitl [Hmw]; · iexact Hmw
  isplitl [Hs0]; · iexact Hs0
  isplitl [Hs1]; · iexact Hs1
  isplitl [Hrow]
  · iexists _; isplitl [Hrow]; · iexact Hrow
    ipureintro
    refine ⟨fun y => ?_, fun i hi => ?_⟩
    · exact (outRow_writes_emb (F := F) L k _ _ y).trans rfl
    · exact outRow_writes_off (F := F) L k _ _ i hi
  isplitl [Hsem3]; · iexact Hsem3
  iexact HO

omit [FloatOps F] in
theorem pts_s0_congr (f g : Vec F S32x200 .i32) (h : f = g) :
    ((s0W).view.loc (thrV d L) ↦{fullShare} f : sProp 𝕄) ⊢ (s0W).view.loc (thrV d L) ↦{fullShare} g := by
  subst h; exact Entails.of_eq rfl

omit [FloatOps F] in
theorem pts_row (k : Fin k0_t1_loop.trips) (f : Buf (Elt F) (outLoc d)) :
    ((outRow L k).view.loc (thrV d L) ↦[(outRow L k).view.set]{fullShare} f : sProp 𝕄) = outLoc d ↦[outRowSet L k]{fullShare} f := rfl

/-! ## The loop -/

/-- Before trip `kk`: the token rows and the constant count row in their scratches, the tile's rows of the result at
    contents whose rows before `kk` are what their trips copied out, the copy-out's semaphore at zero. -/
def inv (hok : IdsOK m) (v3 : Vec F S16 .f32) (O : CellTallies nD τ sig (HIx 1)) (W : Waits sig (HIx 1)) (kk : Nat) (_ : PUnit) : sProp 𝕄 :=
  iprop(Transfers.MayWaits (thrV d L) (default : HIx 1) O
    ∗ ((s0W).view.loc (thrV d L) ↦{fullShare} (idsScr m d L : Vec F S32x200 .i32))
    ∗ ((s1W).view.loc (thrV d L) ↦{fullShare} (fun _ => zc0 : Vec F S100000 .f32))
    ∗ (∃ f : Buf (Elt F) (outLoc d), (outLoc d ↦[outSet L]{fullShare} f)
        ∗ ⌜∀ k' : Fin k0_t1_loop.trips, k'.val < kk → ∀ y : S100000.Idx, (f : Vec F S1024x100000 .f32) ((outRow L k').view.emb y)
              = Trip.rowOut (tileOps m d hok L k') (k0_pay3 (F := F)) (k0_pay1 v3) (fun _ => zc0) y⌝)
    ∗ semVal (thrV d L, SemLoc.dma cc0_scoped3.sem) 0
    ∗ ∃ W', ⌜∀ p ∈ W', p ∈ W ∨ p.2 = none⌝ ∗ owes (thrV d L) O W')

set_option maxHeartbeats 4000000 in
/-- The task on tile `L` of device `d`: from its share of the arrays (the zero row at the constant `zc`) to the same
    with its rows of the result at what its trips computed; its scratch and semaphores as it found them. -/
theorem tile_body (hF : (K (F := F)).Facts) (hok : IdsOK m) (bv : Buf (Elt F) (bvLoc d)) (zv : Buf (Elt F) (zLoc d)) (zc : F .f32)
    (hz : (zv : Vec F S100000 .f32) = fun _ => zc) (hzc : zc = zc0)
    (O : CellTallies nD τ sig (HIx 1)) (W : Waits sig (HIx 1)) (hO : ∀ g, O g none = 0) :
    iprop(levAts (K (F := F)).L (K (F := F)).lev ∗ emp ∗ goRes m d bv zv L
        ∗ scopedBufs (thrV d L) ∗ scopedSems0 (thrV d L) ∗ owes (thrV d L) O W)
      ⊢ wp frame (wpE (defs₀ (F := F)) 𝒱₀ (thrV d L) none) Set.univ
          (cc0__sc_body L idsW (Memref.isWhole_whole _) bvW (Memref.isWhole_whole _) zW (Memref.isWhole_whole _) outW (Memref.isWhole_whole _)
            s0W (Memref.isWhole_whole _) s1W (Memref.isWhole_whole _) s2W (Memref.isWhole_whole _) cc0_scoped0 cc0_scoped1 cc0_scoped2 cc0_scoped3)
          fun _ => iprop(tdRes m d hok bv zv zc L ∗ scopedBufs (thrV d L) ∗ scopedSems0 (thrV d L)
            ∗ ∃ W', ⌜∀ p ∈ W', p ∈ W ∨ p.2 = none⌝ ∗ owes (thrV d L) O W') := by
  subst hzc
  rw [(K (F := F)).scopedBufs_V hF d (cV L) (jV L), SparseCore.Cfg.scopedSems0_V (Val := Elt F) d (cV L) (jV L), ownSems0_V, ownBufs_V]
  unfold goRes
  iintro ⟨#Hlv, -, ⟨Hids, Hbv, Hzv, ⟨%fo, Hout⟩⟩, ⟨⟨%f0, Hs0⟩, ⟨%f1, Hs1⟩, ⟨%f2, Hs2⟩, Hbufs⟩, ⟨Hsem0, Hsem1, Hsem2, Hsem3, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hids' := (Entails.of_eq (pts_ids (F := F) d L _).symm) $$ Hids
  ihave Hbv' := (Entails.of_eq (pts_bv (F := F) d L _ _).symm) $$ Hbv
  ihave Hzv' := (Entails.of_eq (pts_z (F := F) d L _ _).symm) $$ Hzv
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_unfold [cc0__sc_body]
  sl_exec
  sl_for (inv m d L hok (View.readAt (Elt F) (s2W).view (Rect.unit (s := S16) ![0] S16.size inb_S16_S16_0).toLoadRect (View.write (Elt F) (s2W).view f2 (tile_body.sl.dma0_2 d bv) Finset.univ)) O W) $$ [Hmw Hs0' Hs1' Hout Hsem3 HO]
  case region =>
    intro k _
    unfold inv
    iintro ⟨Hmw, Hs0, Hs1, ⟨%f, Hout, %hf⟩, Hsem3, %W', %hW', HO⟩
    -- row k of the tile's rows, and the rest of them
    ihave Hsp := (pointsTo_split_subset (q := fullShare) (f := f) (outRowSet_subset L k)).1 $$ Hout
    icases Hsp with ⟨Hrow, Hrest⟩
    ihave Hrow' := (Entails.of_eq (pts_row (F := F) d L k _).symm) $$ Hrow
    iapply (wp_wand_r Idealize.ShloMosaic.frame (wpE (defs₀ (F := F)) 𝒱₀ (thrV d L) none) Set.univ)
    isplitl [Hmw Hs0 Hs1 Hrow' Hsem3 HO]
    · iapply (trip m d L hok _ _ k O W' f)
      isplitl [Hmw]; · iexact Hmw
      isplitl [Hs0]; · iexact Hs0
      isplitl [Hs1]; · iexact Hs1
      isplitl [Hrow']; · iexact Hrow'
      isplitl [Hsem3]; · iexact Hsem3
      iexact HO
    iintro %_ ⟨Hmw, Hs0, Hs1, ⟨%f', Hrow', %hf'⟩, Hsem3, HO⟩
    ihave Hrow := (Entails.of_eq (pts_row (F := F) d L k _)) $$ Hrow'
    ihave Hj := (pointsTo_join (ℓ := outLoc d) (q := fullShare) (I := outRowSet L k) (J := outSet L \ outRowSet L k) Finset.disjoint_sdiff) $$ [Hrow Hrest]
    · isplitl [Hrow] <;> iassumption
    rw [Finset.union_sdiff_of_subset (outRowSet_subset L k)]
    isplitl [Hmw]; · iexact Hmw
    isplitl [Hs0]; · iexact Hs0
    isplitl [Hs1]; · iexact Hs1
    isplitl [Hj]
    · iexists _; isplitl [Hj]; · iexact Hj
      ipureintro
      intro k' hk' y
      by_cases hkk : k' = k
      · subst hkk
        have hnot : (outRow L k').view.emb y ∉ outSet L \ outRowSet L k' :=
          fun h => (Finset.mem_sdiff.mp h).2 (View.emb_mem_set _ y)
        exact (Finset.piecewise_eq_of_notMem (outSet L \ outRowSet L k') f f' hnot).trans (hf'.1 y)
      · have hmem : (outRow L k').view.emb y ∈ outSet L \ outRowSet L k :=
          Finset.mem_sdiff.mpr ⟨outRowSet_subset L k' (View.emb_mem_set _ y), fun h => hkk ((outRow_emb_mem_iff L k k' y).mp h)⟩
        exact (Finset.piecewise_eq_of_mem (outSet L \ outRowSet L k) f f' hmem).trans (hf k' (by omega) y)
    isplitl [Hsem3]; · iexact Hsem3
    iexists _; isplitr
    swap; · iexact HO
    ipureintro; intro p hp
    rcases Finset.mem_insert.mp hp with hp | hp
    · exact .inr (hp ▸ rfl)
    · exact hW' p hp
  · unfold inv
    isplitl [Hmw]; · iexact Hmw
    isplitl [Hs0']
    · iapply (pts_s0_congr (F := F) d L _ _ ?h0)
      swap; · iexact Hs0'
      exact View.write_whole_univ _ _ _
    isplitl [Hs1']
    · iapply (pts_s1_congr (F := F) d L _ _ ?h1)
      swap; · iexact Hs1'
      exact (View.write_whole_univ _ _ _).trans hz
    isplitl [Hout]
    · iexists fo; isplitl [Hout]; · iexact Hout
      ipureintro; intro k' hk'; exact absurd hk' (Nat.not_lt_zero _)
    isplitl [Hsem3]; · iexact Hsem3
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro %_ HI
  unfold inv
  icases HI with ⟨-, Hs0, Hs1, ⟨%f, Hout, %hf⟩, Hsem3, %W', %hW', HO⟩
  sl_exec
  sl_step
  unfold tdRes
  have e2 : View.write (Elt F) (s2W).view f2 (tile_body.sl.dma0_2 d bv) Finset.univ = (bvW).view.read (Elt F) bv :=
    View.write_whole_univ _ _ _
  isplitl [Hids' Hbv' Hzv' Hout]
  · isplitl [Hids']; · iapply (Entails.of_eq (pts_ids (F := F) d L _)); iexact Hids'
    isplitl [Hbv']; · iapply (Entails.of_eq (pts_bv (F := F) d L _ _)); iexact Hbv'
    isplitl [Hzv']; · iapply (Entails.of_eq (pts_z (F := F) d L _ _)); iexact Hzv'
    iexists f; isplitl [Hout]; · iexact Hout
    ipureintro; intro k y
    have h := hf k k.isLt y
    rw [e2] at h
    exact h
  isplitl [Hs0 Hs1 Hs2' Hbufs]
  · isplitl [Hs0]; · iexists _; iapply (Entails.of_eq (pts_s0 (F := F) d L _)); iexact Hs0
    isplitl [Hs1]; · iexists _; iapply (Entails.of_eq (pts_s1 (F := F) d L _)); iexact Hs1
    isplitl [Hs2']; · iexists _; iapply (Entails.of_eq (pts_s2 (F := F) d L _)); iexact Hs2'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists W'; isplitr
  · ipureintro; exact hW'
  · iexact HO

end Cert.Proof.KB

end
-- ==== Proof.LaunchB.lean ====
/-
  The launch: what each handshake of the one SparseCore call carries, the tile task as the launch theorem's
  obligation, @main on the TensorCore (two broadcasts and a constant, the call, nothing after it), and the run of the
  whole thread family with its strongest post: the arguments unchanged and every row of the result at what the
  tile that owns it computed.
-/
import proofs.«205751_g1185410973873_cont_main3_201_3_alg».proof.Proof.ResB
import proofs.«205751_g1185410973873_cont_main3_201_3_alg».proof.Proof.BodyB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-- The call hands SparseCore `c` its sixteen tiles' shares and takes them back; a tile is handed its own. Neither
    the sequencers nor the tiles keep anything of the launch's between calls. -/
def P (hok : IdsOK m) : (K (F := F)).Pay (nD := nD) (Val := Elt F) (Name := ℕ) (U := UU) where
  st := fun q d c => match q with
    | 0 => bigSep Finset.univ fun s : Fin 16 => goRes m d (bvOf m d) (zvOf (F := F)) (Lof (Fin.cast nCore_zero c) s)
  dn := fun q d c => match q with
    | 0 => bigSep Finset.univ fun s : Fin 16 => tdRes m d hok (bvOf m d) (zvOf (F := F)) zc0 (Lof (Fin.cast nCore_zero c) s)
  go := fun q d c i => match q with
    | 0 => goRes m d (bvOf m d) (zvOf (F := F)) (Lof (Fin.cast nCore_zero c) (Fin.cast nSub_zero i))
  td := fun q d c i => match q with
    | 0 => tdRes m d hok (bvOf m d) (zvOf (F := F)) zc0 (Lof (Fin.cast nCore_zero c) (Fin.cast nSub_zero i))
  x := fun _ _ => iprop(emp)

/-- What the run leaves: on every device each row of the result at what its tile's trip computed, the token ids
    and the `exp` argument as they were. -/
def QC (hok : IdsOK m) : PUnit × MemSt nD τ sig (Elt F) → Prop := fun r => ∀ c : Dev nD,
  (∀ (L : grid0.Coords) (k : Fin k0_t1_loop.trips) (y : S100000.Idx),
      (r.2.mem (outLoc c) : Vec F S1024x100000 .f32) ((outRow L k).view.emb y) = tileRow m c hok (bvOf m c) zc0 L k y)
    ∧ r.2.mem (idsLoc c) = m (idsLoc c) ∧ r.2.mem (betaLoc c) = m (betaLoc c)

/-! ## The payloads travel inside the cells' invariants -/

instance goRes_storable (d : Dev nD) (bv : Buf (Elt F) (bvLoc d)) (zv : Buf (Elt F) (zLoc d)) (L : grid0.Coords) :
    BI.Storable (upEmb : UEmb _ 𝕄) (goRes m d bv zv L) := by
  unfold goRes; infer_instance

instance tdRes_storable (hok : IdsOK m) (d : Dev nD) (bv : Buf (Elt F) (bvLoc d)) (zv : Buf (Elt F) (zLoc d)) (zc : F .f32) (L : grid0.Coords) :
    BI.Storable (upEmb : UEmb _ 𝕄) (tdRes m d hok bv zv zc L) := by
  unfold tdRes; infer_instance

instance P_storable (hok : IdsOK m) : (P (F := F) m hok).IsStorable where
  st q d c := match q with
    | 0 => (inferInstance : BI.Storable (upEmb : UEmb _ 𝕄)
        (bigSep Finset.univ fun s : Fin 16 => goRes m d (bvOf m d) (zvOf (F := F)) (Lof (Fin.cast nCore_zero c) s)))
  dn q d c := match q with
    | 0 => (inferInstance : BI.Storable (upEmb : UEmb _ 𝕄)
        (bigSep Finset.univ fun s : Fin 16 => tdRes m d hok (bvOf m d) (zvOf (F := F)) zc0 (Lof (Fin.cast nCore_zero c) s)))
  go q d c i := match q with
    | 0 => (inferInstance : BI.Storable (upEmb : UEmb _ 𝕄)
        (goRes m d (bvOf m d) (zvOf (F := F)) (Lof (Fin.cast nCore_zero c) (Fin.cast nSub_zero i))))
  td q d c i := match q with
    | 0 => (inferInstance : BI.Storable (upEmb : UEmb _ 𝕄)
        (tdRes m d hok (bvOf m d) (zvOf (F := F)) zc0 (Lof (Fin.cast nCore_zero c) (Fin.cast nSub_zero i))))

/-! ## The tile task as the launch theorem's obligation -/

theorem defs₀_vector (c : Fin τ.nSC) (s : Fin τ.nSub) :
    defs₀ (F := F) (.scVector c s) 0 ()
      = SparseCore.onTile hcore0 hsub0 (fun c s => cc0__sc_body (coordsV c s)
          idsW (Memref.isWhole_whole _) bvW (Memref.isWhole_whole _) zW (Memref.isWhole_whole _) outW (Memref.isWhole_whole _)
          s0W (Memref.isWhole_whole _) s1W (Memref.isWhole_whole _) s2W (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hok : IdsOK m) : (K (F := F)).TileObl (D (F := F)) 𝒱 (P m hok) v₀ 0 := by
  intro d c i O W hO _ _
  -- the kernel owes nothing for a protocol of its own
  simp only [show (P m hok).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hok (bvOf m d) (zvOf (F := F)) zc0 zvOf_eq rfl O W hO).trans
    (wp_mono frame _ _ fun _ => obl_post)

/-! ## A SparseCore's share is its sixteen tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (hok : IdsOK m) : (K (F := F)).VecSplit' (P m hok) 0 := by
  intro d c
  show (bigSep Finset.univ fun s : Fin 16 => goRes m d (bvOf m d) (zvOf (F := F)) (Lof (Fin.cast nCore_zero c) s))
    ⊢ |={Set.univ}=> iprop(
      (bigSep Finset.univ fun i : Fin ((K (F := F)).nSub 0) =>
        goRes m d (bvOf m d) (zvOf (F := F)) (Lof (Fin.cast nCore_zero c) (Fin.cast nSub_zero i)))
      ∗ ((bigSep Finset.univ fun i : Fin ((K (F := F)).nSub 0) =>
          tdRes m d hok (bvOf m d) (zvOf (F := F)) zc0 (Lof (Fin.cast nCore_zero c) (Fin.cast nSub_zero i)))
          -∗ bigSep Finset.univ fun s : Fin 16 => tdRes m d hok (bvOf m d) (zvOf (F := F)) zc0 (Lof (Fin.cast nCore_zero c) s)))
  rw [bigSep_tasks (F := F) (fun s => goRes m d (bvOf m d) (zvOf (F := F)) (Lof (Fin.cast nCore_zero c) s)),
    bigSep_tasks (F := F) (fun s => tdRes m d hok (bvOf m d) (zvOf (F := F)) zc0 (Lof (Fin.cast nCore_zero c) s))]
  iintro H; imodintro
  isplitl [H]; · iexact H
  iintro H; iexact H

/-! ## The launch element: the handshakes' rounds; the transfers' counters start at nothing -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (hok : IdsOK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hok).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The tiles' rows: pairwise apart, together everything

Tile (c, s) has number w = 2 s + c; an element of the token ids or of the result belongs to it exactly when its row
lies in [32 w, 32 w + 32). -/

/-- The number of tile (c, s). -/
def wOf (p : Fin 2 × Fin 16) : ℕ := 2 * p.2.val + p.1.val

theorem tiles_disjoint {X : Type} [DecidableEq X] (Kf : Fin 2 × Fin 16 → Finset X) (r : X → ℕ)
    (hK : ∀ p i, i ∈ Kf p → 32 * wOf p ≤ r i ∧ r i < 32 * wOf p + 32) :
    ∀ p ∈ (Finset.univ : Finset (Fin 2 × Fin 16)), ∀ p' ∈ (Finset.univ : Finset (Fin 2 × Fin 16)), p ≠ p' → Disjoint (Kf p) (Kf p') := by
  intro p _ p' _ hne
  rw [Finset.disjoint_left]
  intro i h1 h2
  have a1 := hK p i h1
  have a2 := hK p' i h2
  have b1 := p.1.isLt
  have b2 := p'.1.isLt
  unfold wOf at a1 a2
  exact hne (Prod.ext (Fin.ext (by omega)) (Fin.ext (by omega)))

theorem tiles_cover {X : Type} [Fintype X] [DecidableEq X] (Kf : Fin 2 × Fin 16 → Finset X) (r : X → ℕ)
    (hK : ∀ p i, 32 * wOf p ≤ r i ∧ r i < 32 * wOf p + 32 → i ∈ Kf p) (hr : ∀ i, r i < 1024) :
    (Finset.univ : Finset (Fin 2 × Fin 16)).biUnion Kf = Finset.univ := by
  ext i
  simp only [Finset.mem_biUnion, Finset.mem_univ, true_and, iff_true]
  have := hr i
  refine ⟨(⟨(r i / 32) % 2, by omega⟩, ⟨r i / 64, by omega⟩), hK _ i ?_⟩
  unfold wOf; dsimp only; omega

omit [FloatOps F] in
theorem Lof_zero (p : Fin 2 × Fin 16) : ((Lof p.1 p.2) 0).val = p.1.val := rfl
omit [FloatOps F] in
theorem Lof_one (p : Fin 2 × Fin 16) : ((Lof p.1 p.2) 1).val = p.2.val := rfl

/-- Membership in a unit-stride rectangle of a matrix, axis by axis. -/
theorem mem_unit2 {n0 n1 : ℕ} (off size : Fin 2 → ℕ) (inb : ∀ a, off a + size a ≤ (⟨2, ![n0, n1]⟩ : Shape).size a)
    (i : (⟨2, ![n0, n1]⟩ : Shape).Idx) :
    i ∈ (Rect.unit (s := ⟨2, ![n0, n1]⟩) off size inb).set
      ↔ (off 0 ≤ (i 0).val ∧ (i 0).val < off 0 + size 0) ∧ (off 1 ≤ (i 1).val ∧ (i 1).val < off 1 + size 1) := by
  rw [Rect.mem_set_unit]; exact Fin.forall_fin_two

omit [FloatOps F] in
theorem mem_idsSet_tile (p : Fin 2 × Fin 16) (i : S1024x200.Idx) :
    i ∈ idsSet (Lof p.1 p.2) ↔ 32 * wOf p ≤ (i 0).val ∧ (i 0).val < 32 * wOf p + 32 := by
  show i ∈ ((View.whole (main_arg0_scv : Ref sig .scVector)).slice
      (Rect.unit (s := S1024x200) (k0_off1 (Lof p.1 p.2)) S32x200.size (k0_off1_inb (Lof p.1 p.2)))).set ↔ _
  rw [View.set_slice_whole]
  refine (mem_unit2 (n0 := 1024) (n1 := 200) _ _ _ i).trans ?_
  rw [k0_off1_eq]
  have h1 : (i 1).val < 200 := (i 1).isLt
  have e0 := Lof_zero p
  have e1 := Lof_one p
  show (64 * ((Lof p.1 p.2) 1).val + 32 * ((Lof p.1 p.2) 0).val ≤ (i 0).val
        ∧ (i 0).val < 64 * ((Lof p.1 p.2) 1).val + 32 * ((Lof p.1 p.2) 0).val + 32)
      ∧ (0 ≤ (i 1).val ∧ (i 1).val < 0 + 200) ↔ _
  unfold wOf
  omega

theorem loop_trips : k0_t1_loop.trips = 32 := by decide

omit [FloatOps F] in
theorem mem_outRowSet_tile (p : Fin 2 × Fin 16) (k : Fin k0_t1_loop.trips) (i : S1024x100000.Idx) :
    i ∈ outRowSet (Lof p.1 p.2) k ↔ (i 0).val = 32 * wOf p + k.val := by
  show i ∈ (((View.whole (main_v2_scv : Ref sig .scVector)).slice
      (Rect.unit (s := S1024x100000) (k0_off15 (Lof p.1 p.2) k) S1x100000.size (k0_off15_inb (Lof p.1 p.2) k))).reshape S100000
        squeezes_S1x100000_S100000.numel_eq).set ↔ _
  rw [View.set_reshape, View.set_slice_whole]
  refine (mem_unit2 (n0 := 1024) (n1 := 100000) _ _ _ i).trans ?_
  rw [k0_off15_eq]
  have h1 : (i 1).val < 100000 := (i 1).isLt
  have e0 := Lof_zero p
  have e1 := Lof_one p
  show (64 * ((Lof p.1 p.2) 1).val + 32 * ((Lof p.1 p.2) 0).val + k.val ≤ (i 0).val
        ∧ (i 0).val < 64 * ((Lof p.1 p.2) 1).val + 32 * ((Lof p.1 p.2) 0).val + k.val + 1)
      ∧ (0 ≤ (i 1).val ∧ (i 1).val < 0 + 100000) ↔ _
  unfold wOf
  omega

omit [FloatOps F] in
theorem mem_outSet_tile (p : Fin 2 × Fin 16) (i : S1024x100000.Idx) :
    i ∈ outSet (Lof p.1 p.2) ↔ 32 * wOf p ≤ (i 0).val ∧ (i 0).val < 32 * wOf p + 32 := by
  unfold outSet
  simp only [Finset.mem_biUnion, Finset.mem_univ, true_and, mem_outRowSet_tile]
  constructor
  · rintro ⟨k, hk⟩
    have : k.val < 32 := Nat.lt_of_lt_of_le k.isLt (le_of_eq loop_trips)
    omega
  · intro h
    exact ⟨⟨(i 0).val - 32 * wOf p, by rw [loop_trips]; omega⟩, by dsimp only; omega⟩

omit [FloatOps F] in
theorem idsSets_disjoint : ∀ p ∈ (Finset.univ : Finset (Fin 2 × Fin 16)), ∀ p' ∈ (Finset.univ : Finset (Fin 2 × Fin 16)), p ≠ p' →
    Disjoint (idsSet (Lof p.1 p.2)) (idsSet (Lof p'.1 p'.2)) :=
  tiles_disjoint (fun p => idsSet (Lof p.1 p.2)) (fun i => (i 0).val) fun p i h => (mem_idsSet_tile p i).mp h
omit [FloatOps F] in
theorem idsSets_cover : (Finset.univ : Finset (Fin 2 × Fin 16)).biUnion (fun p => idsSet (Lof p.1 p.2)) = Finset.univ :=
  tiles_cover (fun p => idsSet (Lof p.1 p.2)) (fun i => (i 0).val) (fun p i h => (mem_idsSet_tile p i).mpr h) fun i => (i 0).isLt
omit [FloatOps F] in
theorem outSets_disjoint : ∀ p ∈ (Finset.univ : Finset (Fin 2 × Fin 16)), ∀ p' ∈ (Finset.univ : Finset (Fin 2 × Fin 16)), p ≠ p' →
    Disjoint (outSet (Lof p.1 p.2)) (outSet (Lof p'.1 p'.2)) :=
  tiles_disjoint (fun p => outSet (Lof p.1 p.2)) (fun i => (i 0).val) fun p i h => (mem_outSet_tile p i).mp h
omit [FloatOps F] in
theorem outSets_cover : (Finset.univ : Finset (Fin 2 × Fin 16)).biUnion (fun p => outSet (Lof p.1 p.2)) = Finset.univ :=
  tiles_cover (fun p => outSet (Lof p.1 p.2)) (fun i => (i 0).val) (fun p i h => (mem_outSet_tile p i).mpr h) fun i => (i 0).isLt

/-- Every tile of the grid is tile (c, s) for its own coordinates. -/
theorem Lof_surj (L : grid0.Coords) : ∃ p : Fin 2 × Fin 16, L = Lof p.1 p.2 :=
  ⟨(cL L, sL L), funext fun a => match a with
    | 0 => Fin.ext rfl
    | 1 => Fin.ext rfl⟩

omit [FloatOps F] in
theorem cL_Lof (p : Fin 2 × Fin 16) : cL (Lof p.1 p.2) = p.1 := Fin.ext rfl
omit [FloatOps F] in
theorem sL_Lof (p : Fin 2 × Fin 16) : sL (Lof p.1 p.2) = p.2 := Fin.ext rfl

/-! ## The arrays whole are the tiles' shares -/

omit [FloatOps F] in
theorem ids_split (d : Dev nD) (f : Buf (Elt F) (idsLoc d)) :
    (idsLoc d ↦{fullShare} f : sProp 𝕄) = bigSep Finset.univ fun p : Fin 2 × Fin 16 => idsLoc d ↦[idsSet (Lof p.1 p.2)]{fullShare} f := by
  rw [← pointsTo_biUnion Finset.univ (ℓ := idsLoc d) (fun p : Fin 2 × Fin 16 => idsSet (Lof p.1 p.2)) idsSets_disjoint, idsSets_cover]; try rfl
omit [FloatOps F] in
theorem out_split (d : Dev nD) (f : Buf (Elt F) (outLoc d)) :
    (outLoc d ↦{fullShare} f : sProp 𝕄) = bigSep Finset.univ fun p : Fin 2 × Fin 16 => outLoc d ↦[outSet (Lof p.1 p.2)]{fullShare} f := by
  rw [← pointsTo_biUnion Finset.univ (ℓ := outLoc d) (fun p : Fin 2 × Fin 16 => outSet (Lof p.1 p.2)) outSets_disjoint, outSets_cover]; try rfl

/-- An array every tile reads whole goes out as thirty-two read shares, one SparseCore's half cut in sixteen. -/
theorem shares_split (ℓ : Loc nD τ sig) (f : Buf (Elt F) ℓ) :
    (ℓ ↦{fullShare} f : sProp 𝕄) ⊢ bigSep Finset.univ fun p : Fin 2 × Fin 16 => ℓ ↦{tileShare p.1 p.2} f := by
  rw [BI.bigSep_univ_prod (fun p : Fin 2 × Fin 16 => (ℓ ↦{tileShare p.1 p.2} f : sProp 𝕄))]
  refine (Transfers.pointsTo_toks_split fullShare 2).trans (sep_elim_right.trans ?_)
  exact bigSep_mono fun c _ => (Transfers.pointsTo_toks_split (Transfers.shareTok fullShare 2 c) 16).trans sep_elim_right

/-! ## @main on the TensorCore -/

/-- What @main leaves the claim: the token ids and the `exp` argument whole at their launch contents, the result
    whole at an array whose every row is what the tile that owns it computed. -/
def FIN (hok : IdsOK m) (d : Dev nD) : sProp 𝕄 :=
  iprop((idsLoc d ↦{fullShare} m (idsLoc d)) ∗ (betaLoc d ↦{fullShare} m (betaLoc d))
    ∗ ∃ g, (outLoc d ↦{fullShare} g)
        ∗ ⌜∀ (L : grid0.Coords) (k : Fin k0_t1_loop.trips) (y : S100000.Idx),
            (g : Vec F S1024x100000 .f32) ((outRow L k).view.emb y) = tileRow m d hok (bvOf m d) zc0 L k y⌝)

omit [FloatOps F] in
theorem pts_any (ℓ : Loc nD τ sig) (S : Finset (Idx ℓ)) (f : Buf (Elt F) ℓ) :
    (ℓ ↦[S]{fullShare} f : sProp 𝕄) ⊢ iprop(∃ f', ℓ ↦[S]{fullShare} f') := by
  iintro H; iexists f; iexact H

omit [FloatOps F] in
theorem sep_pure_swap (A : sProp 𝕄) (φ : Prop) : iprop(A ∗ ⌜φ⌝) ⊢ iprop(⌜φ⌝ ∗ A) := by
  iintro ⟨H1, %h2⟩
  isplitr
  · ipureintro; exact h2
  · iexact H1

/-- The tiles' shares from the arrays whole: the token ids and the result by rows, the two arrays every tile reads
    by read shares. -/
theorem deal (d : Dev nD) (bv : Buf (Elt F) (bvLoc d)) (zv : Buf (Elt F) (zLoc d)) (f : Buf (Elt F) (outLoc d)) :
    iprop((idsLoc d ↦{fullShare} m (idsLoc d)) ∗ (bvLoc d ↦{fullShare} bv) ∗ (zLoc d ↦{fullShare} zv) ∗ (outLoc d ↦{fullShare} f))
      ⊢ (bigSep Finset.univ fun p : Fin 2 × Fin 16 => goRes m d bv zv (Lof p.1 p.2) : sProp 𝕄) := by
  unfold goRes
  rw [bigSep_sep', bigSep_sep', bigSep_sep', ids_split, out_split]
  iintro ⟨Hi, Hbv, Hz, Ho⟩
  isplitl [Hi]; · iexact Hi
  isplitl [Hbv]
  · iapply ((shares_split (bvLoc d) bv).trans (Entails.of_eq (bigSep_congr fun p _ => by rw [cL_Lof, sL_Lof]))); iexact Hbv
  isplitl [Hz]
  · iapply ((shares_split (zLoc d) zv).trans (Entails.of_eq (bigSep_congr fun p _ => by rw [cL_Lof, sL_Lof]))); iexact Hz
  iapply (show (bigSep Finset.univ fun p : Fin 2 × Fin 16 => (outLoc d ↦[outSet (Lof p.1 p.2)]{fullShare} f : sProp 𝕄))
      ⊢ bigSep Finset.univ fun p : Fin 2 × Fin 16 => iprop(∃ f', outLoc d ↦[outSet (Lof p.1 p.2)]{fullShare} f')
    from bigSep_mono fun p _ => pts_any (outLoc d) _ f)
  iexact Ho

omit [FloatOps F] in
theorem emb_mem_outSet_tile (L : grid0.Coords) (k : Fin k0_t1_loop.trips) (y : S100000.Idx) : (outRow L k).view.emb y ∈ outSet L := by
  unfold outSet; exact Finset.mem_biUnion.mpr ⟨k, Finset.mem_univ k, View.emb_mem_set _ y⟩

/-- The tiles' rows of the result, each at what its tile left, are one array whole whose every row is what the tile
    that owns it computed. -/
theorem out_join (hok : IdsOK m) (d : Dev nD) (bv : Vec F S16 .f32) (zc : F .f32) :
    (bigSep Finset.univ fun p : Fin 2 × Fin 16 => iprop(∃ f, (outLoc d ↦[outSet (Lof p.1 p.2)]{fullShare} f)
        ∗ ⌜∀ (k : Fin k0_t1_loop.trips) (y : S100000.Idx),
            (f : Vec F S1024x100000 .f32) ((outRow (Lof p.1 p.2) k).view.emb y) = tileRow m d hok bv zc (Lof p.1 p.2) k y⌝) : sProp 𝕄)
      ⊢ iprop(∃ g, (outLoc d ↦{fullShare} g)
          ∗ ⌜∀ (L : grid0.Coords) (k : Fin k0_t1_loop.trips) (y : S100000.Idx),
              (g : Vec F S1024x100000 .f32) ((outRow L k).view.emb y) = tileRow m d hok bv zc L k y⌝) := by
  refine (bigSep_exists_pi Finset.univ (fun (p : Fin 2 × Fin 16) (f : Buf (Elt F) (outLoc d)) =>
    iprop((outLoc d ↦[outSet (Lof p.1 p.2)]{fullShare} f)
      ∗ ⌜∀ (k : Fin k0_t1_loop.trips) (y : S100000.Idx),
          (f : Vec F S1024x100000 .f32) ((outRow (Lof p.1 p.2) k).view.emb y) = tileRow m d hok bv zc (Lof p.1 p.2) k y⌝))).trans ?_
  iintro ⟨%fs, H⟩
  ihave H2 := (show (bigSep Finset.univ fun p : Fin 2 × Fin 16 => iprop((outLoc d ↦[outSet (Lof p.1 p.2)]{fullShare} fs p)
        ∗ ⌜∀ (k : Fin k0_t1_loop.trips) (y : S100000.Idx),
            (fs p : Vec F S1024x100000 .f32) ((outRow (Lof p.1 p.2) k).view.emb y) = tileRow m d hok bv zc (Lof p.1 p.2) k y⌝) : sProp 𝕄)
      ⊢ bigSep Finset.univ fun p : Fin 2 × Fin 16 => iprop(⌜∀ (k : Fin k0_t1_loop.trips) (y : S100000.Idx),
            (fs p : Vec F S1024x100000 .f32) ((outRow (Lof p.1 p.2) k).view.emb y) = tileRow m d hok bv zc (Lof p.1 p.2) k y⌝
        ∗ (outLoc d ↦[outSet (Lof p.1 p.2)]{fullShare} fs p))
    from bigSep_mono fun p _ => sep_pure_swap _ _) $$ H
  ihave H3 := (bigSep_pure_sep (Finset.univ : Finset (Fin 2 × Fin 16))
    (fun p => ∀ (k : Fin k0_t1_loop.trips) (y : S100000.Idx),
      (fs p : Vec F S1024x100000 .f32) ((outRow (Lof p.1 p.2) k).view.emb y) = tileRow m d hok bv zc (Lof p.1 p.2) k y)
    (fun p => (outLoc d ↦[outSet (Lof p.1 p.2)]{fullShare} fs p : sProp 𝕄))) $$ H2
  icases H3 with ⟨%hφ, Hpts⟩
  ihave H' := (pointsTo_biUnion_join Finset.univ (fun p : Fin 2 × Fin 16 => outSet (Lof p.1 p.2)) fs (fs (0, 0)) outSets_disjoint) $$ Hpts
  icases H' with ⟨%g, %hg, Hg⟩
  rw [outSets_cover]
  iexists g
  isplitl [Hg]; · iexact Hg
  ipureintro
  intro L k y
  obtain ⟨p, rfl⟩ := Lof_surj L
  rw [hg p (Finset.mem_univ p) _ (emb_mem_outSet_tile (Lof p.1 p.2) k y)]
  exact hφ p (Finset.mem_univ p) k y

/-- What the tiles hand back is the token ids whole as they were and the result whole, its rows as computed. -/
theorem collect (hok : IdsOK m) (d : Dev nD) (bv : Buf (Elt F) (bvLoc d)) (zv : Buf (Elt F) (zLoc d)) (zc : F .f32) :
    (bigSep Finset.univ fun p : Fin 2 × Fin 16 => tdRes m d hok bv zv zc (Lof p.1 p.2) : sProp 𝕄)
      ⊢ iprop((idsLoc d ↦{fullShare} m (idsLoc d)) ∗ ∃ g, (outLoc d ↦{fullShare} g)
          ∗ ⌜∀ (L : grid0.Coords) (k : Fin k0_t1_loop.trips) (y : S100000.Idx),
              (g : Vec F S1024x100000 .f32) ((outRow L k).view.emb y) = tileRow m d hok bv zc L k y⌝) := by
  unfold tdRes
  rw [bigSep_sep', bigSep_sep', bigSep_sep', ← ids_split]
  iintro ⟨Hi, -, -, Ho⟩
  isplitl [Hi]; · iexact Hi
  iapply (out_join m hok d bv zc); iexact Ho

/-! ### The host operations before the call -/

abbrev r0 : DevRef τ sig := Proc.devRef .tc (main_arg0 : Ref sig .tc)
abbrev r1 : DevRef τ sig := Proc.devRef .tc (main_arg1 : Ref sig .tc)
abbrev r2 : DevRef τ sig := Proc.devRef .tc (main_v0 : Ref sig .tc)
abbrev r3 : DevRef τ sig := Proc.devRef .tc (main_cst : Ref sig .tc)
abbrev r4 : DevRef τ sig := Proc.devRef .tc (main_v1 : Ref sig .tc)
abbrev r5 : DevRef τ sig := Proc.devRef .tc (main_v2 : Ref sig .tc)

/-- The TensorCore's arrays, all unscoped. -/
abbrev S6 : Finset (DevRef τ sig) := {r0, r1, r2, r3, r4, r5}

/-- The broadcast of the `exp` argument, the zero constant, its broadcast. -/
abbrev opB : HloOp τ sig (Elt F) :=
  StableHlo.unary main_arg1 main_v0 (broadcastInDim S16 ![] bcast_S_S16 : (⟨S_, .f32⟩ : BufTy).Contents (Elt F) → (⟨S16, .f32⟩ : BufTy).Contents (Elt F))
abbrev opC : HloOp τ sig (Elt F) := StableHlo.nullary main_cst (constant S_ .f32 0x00000000#32)
abbrev opZ : HloOp τ sig (Elt F) :=
  StableHlo.unary main_cst main_v1 (broadcastInDim S100000 ![] bcast_S_S100000 : (⟨S_, .f32⟩ : BufTy).Contents (Elt F) → (⟨S100000, .f32⟩ : BufTy).Contents (Elt F))

omit [FloatOps F] in
theorem held_S6 (d : Dev nD) (W : Valuation τ sig (Elt F)) :
    (held (T d) S6 W : sProp 𝕄) = iprop((idsLoc d ↦{fullShare} W r0) ∗ (betaLoc d ↦{fullShare} W r1) ∗ (bvLoc d ↦{fullShare} W r2)
      ∗ (cstLoc d ↦{fullShare} W r3) ∗ (zLoc d ↦{fullShare} W r4) ∗ outLoc d ↦{fullShare} W r5) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((idsLoc d ↦{fullShare} W main_arg0) ∗ (betaLoc d ↦{fullShare} W main_arg1) ∗ (bvLoc d ↦{fullShare} W main_v0)
      ∗ (cstLoc d ↦{fullShare} W main_cst) ∗ (zLoc d ↦{fullShare} W main_v1) ∗ outLoc d ↦{fullShare} W main_v2) := by
  unfold unscopedBufs
  rw [show (Finset.univ.filter fun b : Ref sig .tc => ¬ b.isScoped) = {main_arg0, main_arg1, main_v0, main_cst, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the one after the three host operations. -/
def V0 (d : Dev nD) : Valuation τ sig (Elt F) := fun b => m (d, b)
def V3 (d : Dev nD) : Valuation τ sig (Elt F) := (opZ (F := F)).result ((opC (F := F)).result ((opB (F := F)).result (V0 m d)))

theorem unscoped_held (d : Dev nD) : (unscopedBufs d (fun b => m ((SparseCore.T d).loc b)) : sProp 𝕄) = held (T d) S6 (V0 m d) := by
  rw [unscopedBufs_eq, held_S6]; rfl

theorem V3_r0 (d : Dev nD) : V3 m d r0 = m (idsLoc d) := by
  unfold V3
  rw [StableHlo.unary_result_ne _ _ _ _ _ _ (show (main_arg0 : Ref sig .tc) ≠ main_v1 by decide),
    StableHlo.nullary_result_ne _ _ _ _ (show (main_arg0 : Ref sig .tc) ≠ main_cst by decide),
    StableHlo.unary_result_ne _ _ _ _ _ _ (show (main_arg0 : Ref sig .tc) ≠ main_v0 by decide)]
  rfl
theorem V3_r1 (d : Dev nD) : V3 m d r1 = m (betaLoc d) := by
  unfold V3
  rw [StableHlo.unary_result_ne _ _ _ _ _ _ (show (main_arg1 : Ref sig .tc) ≠ main_v1 by decide),
    StableHlo.nullary_result_ne _ _ _ _ (show (main_arg1 : Ref sig .tc) ≠ main_cst by decide),
    StableHlo.unary_result_ne _ _ _ _ _ _ (show (main_arg1 : Ref sig .tc) ≠ main_v0 by decide)]
  rfl
theorem V3_r2 (d : Dev nD) : V3 m d r2 = bvOf m d := by
  unfold V3
  rw [StableHlo.unary_result_ne _ _ _ _ _ _ (show (main_v0 : Ref sig .tc) ≠ main_v1 by decide),
    StableHlo.nullary_result_ne _ _ _ _ (show (main_v0 : Ref sig .tc) ≠ main_cst by decide),
    StableHlo.unary_result]
  rfl
theorem V3_r4 (d : Dev nD) : V3 m d r4 = zvOf (F := F) := by
  unfold V3
  rw [StableHlo.unary_result, StableHlo.nullary_result]
  rfl
theorem V3_r5 (d : Dev nD) : V3 m d r5 = m (outLoc d) := by
  unfold V3
  rw [StableHlo.unary_result_ne _ _ _ _ _ _ (show (main_v2 : Ref sig .tc) ≠ main_v1 by decide),
    StableHlo.nullary_result_ne _ _ _ _ (show (main_v2 : Ref sig .tc) ≠ main_cst by decide),
    StableHlo.unary_result_ne _ _ _ _ _ _ (show (main_v2 : Ref sig .tc) ≠ main_v0 by decide)]
  rfl

theorem hB : (opB (F := F)).bufs ⊆ S6 := show ({r1, r2} : Finset (DevRef τ sig)) ⊆ S6 by decide
theorem hC : (opC (F := F)).bufs ⊆ S6 := show ({r3} : Finset (DevRef τ sig)) ⊆ S6 by decide
theorem hZ : (opZ (F := F)).bufs ⊆ S6 := show ({r3, r4} : Finset (DevRef τ sig)) ⊆ S6 by decide

/-! ### The call -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back: the thirty-two tiles' shares. -/
theorem st0_eq (hok : IdsOK m) (d : Dev nD) :
    (bigSep Finset.univ fun c : Fin ((K (F := F)).nCore 0) => (P m hok).st 0 d c)
      = bigSep Finset.univ fun p : Fin 2 × Fin 16 => goRes m d (bvOf m d) (zvOf (F := F)) (Lof p.1 p.2) :=
  (bigSep_cores (F := F) (fun c => bigSep Finset.univ fun s : Fin 16 => goRes m d (bvOf m d) (zvOf (F := F)) (Lof c s))).trans
    (BI.bigSep_univ_prod (fun p : Fin 2 × Fin 16 => goRes m d (bvOf m d) (zvOf (F := F)) (Lof p.1 p.2))).symm
theorem dn0_eq (hok : IdsOK m) (d : Dev nD) :
    (bigSep Finset.univ fun c : Fin ((K (F := F)).nCore 0) => (P m hok).dn 0 d c)
      = bigSep Finset.univ fun p : Fin 2 × Fin 16 => tdRes m d hok (bvOf m d) (zvOf (F := F)) zc0 (Lof p.1 p.2) :=
  (bigSep_cores (F := F) (fun c => bigSep Finset.univ fun s : Fin 16 => tdRes m d hok (bvOf m d) (zvOf (F := F)) zc0 (Lof c s))).trans
    (BI.bigSep_univ_prod (fun p : Fin 2 × Fin 16 => tdRes m d hok (bvOf m d) (zvOf (F := F)) zc0 (Lof p.1 p.2))).symm

/-- @main on device `d`'s TensorCore: the two broadcasts and the constant, then the call, from the arrays dealt to
    the tiles and back; the token ids and the `exp` argument kept, the result's rows as the tiles computed them. -/
theorem hmain (hok : IdsOK m) (κ : GSem nD τ sig → ℕ) (d : Dev nD) :
    iprop((K (F := F)).ctx EH (P m hok) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hok d) := by
  unfold SparseCore.Cfg.tcRes
  rw [unscoped_held]
  simp only [main, wp_bind, wp_pure]
  iintro ⟨#Hctx, Hst, ⟨Hb, Hheld, -, -⟩, -⟩
  -- the broadcast of the `exp` argument
  iapply (wp_hlo_within 𝒱 (SparseCore.T d) none Set.univ (op := opB) (S := S6) hB (V := V0 m d)) $$ [Hb Hheld]
  · isplitl [Hb]; · iexact Hb
    iexact Hheld
  iintro ⟨Hb, Hheld⟩
  rw [wp_ret]; imodintro
  -- the zero constant
  iapply (wp_hlo_within 𝒱 (SparseCore.T d) none Set.univ (op := opC) (S := S6) hC (V := (opB (F := F)).result (V0 m d))) $$ [Hb Hheld]
  · isplitl [Hb]; · iexact Hb
    iexact Hheld
  iintro ⟨Hb, Hheld⟩
  rw [wp_ret]; imodintro
  -- its broadcast
  iapply (wp_hlo_within 𝒱 (SparseCore.T d) none Set.univ (op := opZ) (S := S6) hZ
    (V := (opC (F := F)).result ((opB (F := F)).result (V0 m d)))) $$ [Hb Hheld]
  · isplitl [Hb]; · iexact Hb
    iexact Hheld
  iintro ⟨Hb, Hheld⟩
  rw [wp_ret]; imodintro
  ihave Hh := (show (held (SparseCore.T d) S6 ((opZ (F := F)).result ((opC (F := F)).result ((opB (F := F)).result (V0 m d)))) : sProp 𝕄) ⊢ _
    from Entails.of_eq (held_S6 (F := F) d (V3 m d))) $$ Hheld
  rw [V3_r0, V3_r1, V3_r2, V3_r4, V3_r5]
  icases Hh with ⟨Hi, Hbeta, Hbv, -, Hz, Ho⟩
  -- the call: the arrays to the tiles and back
  iapply ((K (F := F)).wp_run (D (F := F)) 𝒱 (EH := EH) (P := P m hok) κ d 0) $$ [Hst Hi Hbeta Hbv Hz Ho]
  isplitr; · iexact Hctx
  isplitl [Hst]; · iexact Hst
  isplitl [Hi Hbv Hz Ho]
  · rw [st0_eq]
    iapply (deal m d (bvOf m d) (zvOf (F := F)) (m (outLoc d)))
    isplitl [Hi]; · iexact Hi
    isplitl [Hbv]; · iexact Hbv
    isplitl [Hz]; · iexact Hz
    iexact Ho
  iintro ⟨Hst, Hdn⟩
  ihave Hdn' := (Entails.of_eq (dn0_eq m hok d)) $$ Hdn
  ihave Hc := (collect m hok d (bvOf m d) (zvOf (F := F)) zc0) $$ Hdn'
  icases Hc with ⟨Hi, Ho⟩
  imodintro
  isplitl [Hst]; · iexact Hst
  unfold FIN
  isplitl [Hi]; · iexact Hi
  isplitl [Hbeta]; · iexact Hbeta
  iexact Ho

def fq (hok : IdsOK m) (d : Dev nD) (s' : Phys nD τ sig (Elt F)) : Prop :=
  (∀ (L : grid0.Coords) (k : Fin k0_t1_loop.trips) (y : S100000.Idx),
      (s'.mem.mem (outLoc d) : Vec F S1024x100000 .f32) ((outRow L k).view.emb y) = tileRow m d hok (bvOf m d) zc0 L k y)
    ∧ s'.mem.mem (idsLoc d) = m (idsLoc d) ∧ s'.mem.mem (betaLoc d) = m (betaLoc d)

theorem hfin (hok : IdsOK m) (d : Dev nD) (s' : Phys nD τ sig (Elt F)) : iprop(FIN m hok d ∗ SI s') ⊢ (⌜fq m hok d s'⌝ : sProp 𝕄) := by
  unfold FIN
  iintro ⟨⟨Hi, Hb, %g, Ho, %hg⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := betaLoc d) (I := Finset.univ) (q := fullShare) (f := m (betaLoc d)))) $$ [HSI Hb]
  · isplitl [HSI] <;> iassumption
  icases H with ⟨%h2, HSI, -⟩
  ihave H := (SI_pointsTo_agree (st := s') (ℓ := outLoc d) (I := Finset.univ) (q := fullShare) (f := g)) $$ [HSI Ho]
  · isplitl [HSI] <;> iassumption
  icases H with %h3
  ipureintro
  refine ⟨fun L k y => ?_, funext fun i => h1 i (Finset.mem_univ i), funext fun i => h2 i (Finset.mem_univ i)⟩
  rw [← hg L k y]; exact h3 _ (Finset.mem_univ _)

/-! ## The run -/

theorem run_main [∀ e, Nonempty (Elt F e)] (hok : IdsOK m) :
    θ_run (Cert.Kernel.defs (F := F)) (Cert.Kernel.threads (F := F)) ⟨m, fun _ => 0, ρ⟩ (QC m hok) :=
  SparseCore.Cfg.θ_run_sc (K := K (F := F)) (D := D (F := F)) (𝒱 := 𝒱) (EH := EH) (P := P m hok) facts v₀
    (fun q hq => match q with | 0 => nomatch hq)
    (fun q _ => match q with | 0 => tileObl m facts hok)
    (fun q _ => match q with | 0 => SparseCore.Cfg.VecSplit.of_plain (vecSplit m hok))
    m ρ main (fun _ => iprop(emp)) (FIN m hok) (u₀ (F := F)) (sep_elim_left.trans (hu₀ m hok)) (hmain m ρ hok) (fq m hok) (hfin m hok) (QC m hok) (fun _ h => h)

end Cert.Proof.KB

end
-- ==== Proof.Spec.lean ====
import Idealize.ShloMosaic.PureOps.Ideal

/-!
# The encoded bag-of-words features, stated directly

For token ids `ids : int32[1024, 200]` and a scalar `β`, the value at row `b` and token `v` is
`x / (x + exp β)` where `x` is the number of positions of row `b` that hold token `v`, except
that the column of the padding token (token 1) has `x = 0`. Everything is on the extended reals
with the library's ideal division and exponential.
-/

noncomputable section

namespace Cert.Spec

open Idealize.ShloMosaic

abbrev SIds : Shape := ⟨2, ![1024, 200]⟩
abbrev SOut : Shape := ⟨2, ![1024, 100000]⟩
abbrev S0 : Shape := ⟨0, ![]⟩

/-- How many positions of row `b` hold token `v` (rows and tokens as numbers, so no coordinate
    types are involved). -/
def cnt (ids : IVec SIds 32) (b v : ℕ) : ℕ :=
  (Finset.univ.filter fun i : SIds.Idx => (i 0).val = b ∧ (ids i).toNat = v).card

/-- The bag-of-words feature with the padding token's column (token 1) zeroed. -/
def feat (ids : IVec SIds 32) (i : SOut.Idx) : EReal :=
  if (i 1).val = 1 then 0 else ((cnt ids (i 0).val (i 1).val : ℕ) : EReal)

/-- The encoded features: `x / (x + exp β)`, on the extended reals, with the library's ideal
    division and exponential. -/
def enc (ids : IVec SIds 32) (β : FVec Ideal S0 .f32) : FVec Ideal SOut .f32 :=
  fun i => Ideal.div (feat ids i) (feat ids i + Ideal.exp (β (fun a => a.elim0)))

end Cert.Spec

end
-- ==== Proof.KernelValue.lean ====
/-
  The value the kernel leaves in its result, at the ideal instance: every element of the result is the encoded
  bag-of-words feature of its row and token.

  A tile's trip copies out one row of the result. Its thirteen index vectors are the row's 200 tokens (the tail
  vector overlaps the twelfth, and its scatter-add stores only the upper eight lanes), so the count the row holds at
  a token is the number of the row's columns with that token, and the encoding stored there is that count divided by
  itself plus exp β, zero at the padding token; a token no column holds keeps the zero the row started with.
-/
import proofs.«205751_g1185410973873_cont_main3_201_3_alg».proof.Proof.Res
import proofs.«205751_g1185410973873_cont_main3_201_3_alg».proof.Proof.Trip
import proofs.«205751_g1185410973873_cont_main3_201_3_alg».proof.Proof.Spec

noncomputable section

/-! ### Counting along windows of a row -/

namespace Cert.Cnt

section Intervals
variable (q : ℕ → Prop) [DecidablePred q]

/-- How many numbers of [a, b) satisfy q. -/
def cI (a b : ℕ) : ℕ := ((Finset.Ico a b).filter q).card

theorem cI_add {a b d : ℕ} (hab : a ≤ b) (hbd : b ≤ d) : cI q a b + cI q b d = cI q a d := by
  unfold cI
  rw [← Finset.card_union_of_disjoint (Finset.disjoint_filter_filter (Finset.Ico_disjoint_Ico_consecutive a b d)),
    ← Finset.filter_union, Finset.Ico_union_Ico_eq_Ico hab hbd]

/-- Counting along a window of n numbers from off. -/
theorem card_range_shift (off n : ℕ) :
    ((Finset.range n).filter fun l => q (off + l)).card = cI q off (off + n) := by
  unfold cI
  have h := Finset.map_add_left_Ico 0 n off
  rw [Nat.add_zero] at h
  rw [← h, Finset.filter_map, Finset.card_map, Finset.range_eq_Ico]
  rfl

/-- The upper half of a 16-window from off counts [off + 8, off + 16). -/
theorem card_range_upper (off : ℕ) :
    ((Finset.range 16).filter fun l => 8 ≤ l ∧ q (off + l)).card = cI q (off + 8) (off + 16) := by
  rw [show off + 16 = (off + 8) + 8 by omega, ← card_range_shift]
  refine Finset.card_nbij' (fun l => l - 8) (fun l => l + 8) ?_ ?_ ?_ ?_
  · intro l hl
    simp only [Finset.coe_filter, Finset.mem_range, Set.mem_setOf_eq] at hl ⊢
    refine ⟨by omega, ?_⟩
    have : off + 8 + (l - 8) = off + l := by omega
    rw [this]; exact hl.2.2
  · intro l hl
    simp only [Finset.coe_filter, Finset.mem_range, Set.mem_setOf_eq] at hl ⊢
    refine ⟨by omega, by omega, ?_⟩
    have : off + (l + 8) = off + 8 + l := by omega
    rw [this]; exact hl.2
  · intro l hl
    simp only [Finset.coe_filter, Finset.mem_range, Set.mem_setOf_eq] at hl
    show l - 8 + 8 = l
    omega
  · intro l _
    show l + 8 - 8 = l
    omega

/-- Twelve aligned 16-windows and the upper half of the window at 184 count [0, 200) once. -/
theorem windows_sum :
    (([0, 16, 32, 48, 64, 80, 96, 112, 128, 144, 160, 176].map fun off => cI q off (off + 16)).sum) + cI q (184 + 8) (184 + 16)
      = cI q 0 200 := by
  simp only [List.map_cons, List.map_nil, List.sum_cons, List.sum_nil, Nat.reduceAdd]
  have h1 := cI_add q (a := 0) (b := 16) (d := 32) (by omega) (by omega)
  have h2 := cI_add q (a := 0) (b := 32) (d := 48) (by omega) (by omega)
  have h3 := cI_add q (a := 0) (b := 48) (d := 64) (by omega) (by omega)
  have h4 := cI_add q (a := 0) (b := 64) (d := 80) (by omega) (by omega)
  have h5 := cI_add q (a := 0) (b := 80) (d := 96) (by omega) (by omega)
  have h6 := cI_add q (a := 0) (b := 96) (d := 112) (by omega) (by omega)
  have h7 := cI_add q (a := 0) (b := 112) (d := 128) (by omega) (by omega)
  have h8 := cI_add q (a := 0) (b := 128) (d := 144) (by omega) (by omega)
  have h9 := cI_add q (a := 0) (b := 144) (d := 160) (by omega) (by omega)
  have h10 := cI_add q (a := 0) (b := 160) (d := 176) (by omega) (by omega)
  have h11 := cI_add q (a := 0) (b := 176) (d := 192) (by omega) (by omega)
  have h12 := cI_add q (a := 0) (b := 192) (d := 200) (by omega) (by omega)
  omega

end Intervals

end Cert.Cnt

/-! ### A row of tokens and its thirteen index vectors -/

namespace Cert.Row

open Idealize.ShloMosaic Cert.Trip Cert.Cnt

/-- Two index vectors with the same words and the same mask are the same. -/
theorem lane_ext {i i' : IVec L16 32} (hi : i = i') {inb inb'} {mk mk' : IVec L16 1} (hm : mk = mk') :
    (⟨i, inb, mk⟩ : Lane16) = ⟨i', inb', mk'⟩ := by
  subst hi; subst hm; rfl

section
variable (tok : ℕ → BitVec 32) (hb : ∀ j, (tok j).toNat < 100000)

/-- The sixteen tokens of the row from column `off`, with a mask. -/
def mkLane (off : ℕ) (mask : IVec L16 1) : Lane16 :=
  ⟨fun x => tok (off + (x 0).val),
   fun a x => by
    have ha : a = 0 := Subsingleton.elim _ _
    subst ha
    exact hb _,
   mask⟩

/-- The upper eight lanes. -/
def up8 : IVec L16 1 := fun x => if 8 ≤ (x 0).val then 1#1 else 0#1

theorem up8_eq_one (x : L16.Idx) : up8 x = 1 ↔ 8 ≤ (x 0).val := by
  unfold up8
  by_cases h : 8 ≤ (x 0).val
  · simp [h]
  · simp [h]

def offs : List ℕ := [0, 16, 32, 48, 64, 80, 96, 112, 128, 144, 160, 176]

/-- Twelve aligned vectors, and the vector at column 184 storing its upper eight lanes. -/
def rowOps : List Lane16 := (offs.map fun off => mkLane tok hb off allLanes) ++ [mkLane tok hb 184 up8]

/-- A lane names a token exactly when its word is the token. -/
theorem mkLane_at_eq (off : ℕ) (mask : IVec L16 1) (x : L16.Idx) (y : N.Idx) :
    (mkLane tok hb off mask).at x = y ↔ (tok (off + (x 0).val)).toNat = (y 0).val := by
  constructor
  · intro h
    exact congrArg (fun i : N.Idx => (i 0).val) h
  · intro h
    funext a
    have ha : a = 0 := Subsingleton.elim _ _
    subst ha
    exact Fin.ext h

/-- The lane with a given number. -/
def laneOf (l : ℕ) : L16.Idx := Shape.ofLane (d := ![16]) ⟨l % 16, Nat.mod_lt _ (by norm_num)⟩

theorem laneOf_val (l : ℕ) (hl : l < 16) : ((laneOf l) 0).val = l := Nat.mod_eq_of_lt hl

theorem laneOf_self (x : L16.Idx) : laneOf (x 0).val = x := by
  funext a
  have ha : a = 0 := Subsingleton.elim _ _
  subst ha
  exact Fin.ext (Nat.mod_eq_of_lt (x 0).isLt)

/-- The masked lanes of a vector that name a token, counted by lane number. -/
theorem card_mkLane (off : ℕ) (mask : IVec L16 1) (msk : ℕ → Prop) [DecidablePred msk]
    (hm : ∀ x, mask x = 1 ↔ msk (x 0).val) (y : N.Idx) :
    (Finset.univ.filter fun x : L16.Idx => (mkLane tok hb off mask).mask x = 1 ∧ (mkLane tok hb off mask).at x = y).card
      = ((Finset.range 16).filter fun l => msk l ∧ (tok (off + l)).toNat = (y 0).val).card := by
  refine Finset.card_nbij' (fun x => (x 0).val) laneOf ?_ ?_ ?_ ?_
  · intro x hx
    simp only [Finset.coe_filter, Finset.mem_univ, true_and, Set.mem_setOf_eq, Finset.mem_range] at hx ⊢
    exact ⟨(x 0).isLt, (hm x).1 hx.1, (mkLane_at_eq tok hb off mask x y).1 hx.2⟩
  · intro l hl
    simp only [Finset.coe_filter, Finset.mem_univ, true_and, Set.mem_setOf_eq, Finset.mem_range] at hl ⊢
    refine ⟨(hm _).2 ?_, (mkLane_at_eq tok hb off mask _ y).2 ?_⟩
    · rw [laneOf_val l hl.1]; exact hl.2.1
    · rw [laneOf_val l hl.1]; exact hl.2.2
  · intro x _
    exact laneOf_self x
  · intro l hl
    simp only [Finset.coe_filter, Set.mem_setOf_eq, Finset.mem_range] at hl
    exact laneOf_val l hl.1

/-- The masked lanes of the thirteen vectors that name a token are the row's columns that hold it. -/
theorem sum_card_rowOps (y : N.Idx) :
    ((rowOps tok hb).map fun o => (Finset.univ.filter fun x : L16.Idx => o.mask x = 1 ∧ o.at x = y).card).sum
      = cI (fun j => (tok j).toNat = (y 0).val) 0 200 := by
  unfold rowOps
  rw [List.map_append, List.sum_append, List.map_map, List.map_cons, List.map_nil, List.sum_cons, List.sum_nil, Nat.add_zero,
    ← windows_sum (fun j => (tok j).toNat = (y 0).val), ← card_range_upper, ← card_mkLane tok hb 184 up8 (fun l => 8 ≤ l) up8_eq_one y]
  congr 2
  refine List.map_congr_left (fun off _ => ?_)
  show (Finset.univ.filter fun x : L16.Idx => (mkLane tok hb off allLanes).mask x = 1 ∧ (mkLane tok hb off allLanes).at x = y).card = _
  rw [card_mkLane tok hb off allLanes (fun _ => True) (fun _ => ⟨fun _ => trivial, fun _ => rfl⟩) y, ← card_range_shift]
  simp only [true_and]

end

/-- A token no lane names is counted by no masked lane. -/
theorem sum_card_of_not_named {ops : List Lane16} {y : N.Idx} (hn : ¬ Named ops y) :
    (ops.map fun o => (Finset.univ.filter fun x : L16.Idx => o.mask x = 1 ∧ o.at x = y).card).sum = 0 := by
  apply List.sum_eq_zero
  intro n hnm
  obtain ⟨o, ho, rfl⟩ := List.mem_map.1 hnm
  rw [Finset.card_eq_zero, Finset.filter_eq_empty_iff]
  intro x _ hx
  exact hn ⟨o, ho, x, hx.2⟩

/-- The encoding of a lane at the ideal instance. -/
theorem encLane_ideal (e : FVec Ideal L16 .f32) (idx : IVec L16 32) (c : Vec Ideal L16 .f32) (x : L16.Idx) :
    encLane (F := Ideal) e idx c x = if idx x = 1#32 then (0 : EReal) else Ideal.div (c x) (c x + e x) := by
  have h0 : Ideal.ofBits .f32 0x00000000#32 = 0 := by simp [Ideal.ofBits, Ideal.ieee]
  simp only [encLane, select, cmpi, broadcast, divf, addf, Scalar.select, IntOp.cmpi, Scalar.ofBits, Ideal.ofBits_def,
    Ideal.divf_def, Ideal.addf_def, h0]
  by_cases h : idx x = 1#32
  · have hb : (idx x == 1#32) = true := by rw [h]; exact beq_self_eq_true _
    simp [hb, h]
  · have hb : (idx x == 1#32) = false := beq_false_of_ne h
    simp [hb, h]

/-- The row that is copied out, at the ideal instance: at every token the count of the columns that hold it (zero
    at the padding token), divided by itself plus `ec`. -/
theorem rowOut_rowOps (tok : ℕ → BitVec 32) (hb : ∀ j, (tok j).toNat < 100000) (ec : EReal)
    (hec : Ideal.div 0 (0 + ec) = 0) (y : N.Idx) :
    rowOut (F := Ideal) (rowOps tok hb) (fun _ => (1 : EReal)) (fun _ => ec) (fun _ => (0 : EReal)) y
      = Ideal.div (if (y 0).val = 1 then 0 else ((cI (fun j => (tok j).toNat = (y 0).val) 0 200 : ℕ) : EReal))
          ((if (y 0).val = 1 then 0 else ((cI (fun j => (tok j).toNat = (y 0).val) 0 200 : ℕ) : EReal)) + ec) := by
  by_cases hn : Named (rowOps tok hb) y
  · obtain ⟨o, ho, x, hx⟩ := hn
    rw [rowOut_of_named (F := Ideal) (rowOps tok hb) (fun _ => (1 : EReal)) ec (fun _ => (0 : EReal)) y o ho x hx,
      counted_ideal, sum_card_rowOps, encLane_ideal]
    have htok : (o.idx x).toNat = (y 0).val := congrArg (fun i : N.Idx => (i 0).val) hx
    by_cases h1 : (y 0).val = 1
    · have h2 : o.idx x = 1#32 := BitVec.eq_of_toNat_eq (by rw [htok, h1]; rfl)
      rw [if_pos h2, if_pos h1, hec]
    · have h2 : o.idx x ≠ 1#32 := fun h => h1 (by rw [← htok, h]; rfl)
      rw [if_neg h2, if_neg h1]
  · rw [rowOut_of_not_named (F := Ideal) _ _ _ _ y hn]
    have hc : cI (fun j => (tok j).toNat = (y 0).val) 0 200 = 0 := by
      rw [← sum_card_rowOps tok hb y]; exact sum_card_of_not_named hn
    have h0 : (if (y 0).val = 1 then (0 : EReal) else (((0 : ℕ) : ℕ) : EReal)) = 0 := by
      split_ifs <;> simp
    rw [hc, h0, hec]

end Cert.Row

/-! ### The kernel's row against the row of tokens -/

namespace Cert.Proof.KI

open Cert.KernelIdeal Cert.KernelIdeal.Gen

open Idealize.ShloMosaic
open Idealize.ShloMosaic.SparseCore (S V T)

section
variable (m : (ℓ : Loc nD τ sig) → Buf (Elt Ideal) ℓ) (c : Dev nD)

/-- The token ids of the launch memory. -/
abbrev idsOf : IVec S1024x200 32 := (m (idsLoc c) : Vec Ideal S1024x200 .i32)

theorem trips_eq : k0_t1_loop.trips = 32 := by decide

/-- The row of the result (and of the token ids) trip `k` of tile `L` works on. -/
def rowOf (L : grid0.Coords) (k : Fin k0_t1_loop.trips) : ℕ := 64 * (L 1).val + 32 * (L 0).val + k.val

theorem rowOf_lt (L : grid0.Coords) (k : Fin k0_t1_loop.trips) : rowOf L k < 1024 := by
  have h1 : (L 1).val < 16 := (L 1).isLt
  have h0 : (L 0).val < 2 := (L 0).isLt
  have hk : k.val < 32 := lt_of_lt_of_eq k.isLt trips_eq
  unfold rowOf; omega

/-! #### Where a trip's row sits in the result -/

theorem outRow_emb_val (L : grid0.Coords) (k : Fin k0_t1_loop.trips) (y : S100000.Idx) (a : Fin 2) :
    (((outRow L k).view.emb y : S1024x100000.Idx) a).val
      = (k0_off15 L k) a + 1 * ((Shape.reshapeEquiv squeezes_S1x100000_S100000.numel_eq y : S1x100000.Idx) a).val := rfl

theorem outRow_emb_zero (L : grid0.Coords) (k : Fin k0_t1_loop.trips) (y : S100000.Idx) :
    (((outRow L k).view.emb y : S1024x100000.Idx) 0).val = rowOf L k := by
  rw [outRow_emb_val, Shape.reshapeEquiv_cons_one (n := 1) (d := ![100000]), k0_off15_eq]
  show (64 * (L 1).val + 32 * (L 0).val + k.val) + 1 * 0 = rowOf L k
  unfold rowOf; omega

theorem outRow_emb_one (L : grid0.Coords) (k : Fin k0_t1_loop.trips) (y : S100000.Idx) :
    (((outRow L k).view.emb y : S1024x100000.Idx) 1).val = (y 0).val := by
  rw [outRow_emb_val, Shape.reshapeEquiv_cons_one (n := 1) (d := ![100000]), k0_off15_eq]
  show 0 + 1 * (y 0).val = (y 0).val
  omega

/-- Every element of the result is in the row some trip of some tile copies out. -/
theorem cover (i : S1024x100000.Idx) : ∃ (L : grid0.Coords) (k : Fin k0_t1_loop.trips) (y : S100000.Idx),
    ((outRow L k).view.emb y : S1024x100000.Idx) = i ∧ rowOf L k = (i 0).val ∧ (y 0).val = (i 1).val := by
  have hb : (i 0).val < 1024 := (i 0).isLt
  let L : grid0.Coords := coordsV ⟨((i 0).val % 64) / 32, by show _ < 2; omega⟩ ⟨(i 0).val / 64, by show _ < 16; omega⟩
  let k : Fin k0_t1_loop.trips := ⟨(i 0).val % 32, by rw [trips_eq]; omega⟩
  let y : S100000.Idx := Shape.ofLane (d := ![100000]) ⟨(i 1).val, (i 1).isLt⟩
  have hrow : rowOf L k = (i 0).val := by
    show 64 * ((i 0).val / 64) + 32 * (((i 0).val % 64) / 32) + (i 0).val % 32 = (i 0).val
    omega
  have hcol : (y 0).val = (i 1).val := rfl
  refine ⟨L, k, y, ?_, hrow, hcol⟩
  show ((outRow L k).view.emb y : S1024x100000.Idx) = i
  exact funext (Fin.forall_fin_two.2 ⟨Fin.ext ((outRow_emb_zero L k y).trans hrow), Fin.ext ((outRow_emb_one L k y).trans hcol)⟩)

/-! #### A lane's words are the row's tokens -/

/-- The tokens of row `b` by column number. -/
def tokRow (ids : IVec S1024x200 32) (b j : ℕ) : BitVec 32 :=
  ids (Shape.pair (d := ![1024, 200]) ⟨b % 1024, Nat.mod_lt _ (by norm_num)⟩ ⟨j % 200, Nat.mod_lt _ (by norm_num)⟩)

theorem laneAt_apply (L : grid0.Coords) (off : Fin 2 → Nat) (hoff : ∀ a, off a + S1x16.size a ≤ S32x200.size a)
    (x : S16.Idx) (i : S1024x200.Idx)
    (h0 : (i 0).val = (k0_off1 L) 0 + off 0) (h1 : (i 1).val = (k0_off1 L) 1 + (off 1 + (x 0).val)) :
    laneAt m c L off hoff x = idsOf m c i := by
  have h : laneAt m c L off hoff x = idsOf m c
      ((idsSl L).view.emb ((s0W).view.emb ((Rect.unit (s := S32x200) off S1x16.size hoff).toLoadRect.idx
        (Shape.reshapeEquiv shapeCasts_S1x16_S16 x)))) := rfl
  rw [h]
  congr 1
  have e : ∀ a : Fin 2, ((((idsSl L).view.emb ((s0W).view.emb ((Rect.unit (s := S32x200) off S1x16.size hoff).toLoadRect.idx
        (Shape.reshapeEquiv shapeCasts_S1x16_S16 x)))) : S1024x200.Idx) a).val
      = (k0_off1 L) a + 1 * (off a + 1 * ((Shape.reshapeEquiv shapeCasts_S1x16_S16 x : S1x16.Idx) a).val) := fun _ => rfl
  have hz := Shape.reshapeEquiv_cons_one (n := 1) (d := ![16]) shapeCasts_S1x16_S16 x
  refine funext (Fin.forall_fin_two.2 ⟨Fin.ext ?_, Fin.ext ?_⟩)
  · rw [e, hz, h0]
    show (k0_off1 L) 0 + 1 * (off 0 + 1 * 0) = _
    omega
  · rw [e, hz, h1]
    show (k0_off1 L) 1 + 1 * (off 1 + 1 * (x 0).val) = _
    omega

/-- The sixteen words loaded at column `o` of trip `k`'s scratch row are the row's tokens from column `o`. -/
theorem laneAt_tok (L : grid0.Coords) (k : Fin k0_t1_loop.trips) (off : Fin 2 → Nat)
    (hoff : ∀ a, off a + S1x16.size a ≤ S32x200.size a) (o : ℕ) (ho : off = ![k.val, o]) (ho16 : o + 16 ≤ 200) (x : S16.Idx) :
    laneAt m c L off hoff x = tokRow (idsOf m c) (rowOf L k) (o + (x 0).val) := by
  have hx : (x 0).val < 16 := (x 0).isLt
  have hr := rowOf_lt L k
  unfold tokRow
  apply laneAt_apply
  · rw [k0_off1_eq, ho]
    show rowOf L k % 1024 = (64 * (L 1).val + 32 * (L 0).val) + k.val
    rw [Nat.mod_eq_of_lt hr]; rfl
  · rw [k0_off1_eq, ho]
    show (o + (x 0).val) % 200 = 0 + (o + (x 0).val)
    rw [Nat.mod_eq_of_lt (show o + (x 0).val < 200 by omega)]; omega

/-! #### The trip's thirteen index vectors are the row's -/

theorem tokRow_lt (hok : IdsOK m) (b j : ℕ) : (tokRow (idsOf m c) b j).toNat < 100000 := hok c _

/-- The tail vector's mask: the upper eight lanes. -/
theorem pay2_eq : k0_pay2 = Row.up8 := by
  have key : ∀ l : Fin 16, k0_pay2 (Shape.ofLane (d := ![16]) l) = Row.up8 (Shape.ofLane (d := ![16]) l) := by decide
  funext x
  rw [← Trip.ofLane_zero x]
  exact key (x 0)

theorem mkLane_eq (hok : IdsOK m) (L : grid0.Coords) (k : Fin k0_t1_loop.trips) {off : Fin 2 → Nat}
    {hoff : ∀ a, off a + S1x16.size a ≤ S32x200.size a} {o : ℕ} (ho : off = ![k.val, o]) (ho16 : o + 16 ≤ 200)
    {h : LaneOK (laneAt m c L off hoff)} {mk mk' : IVec S16 1} (hm : mk = mk') :
    (⟨laneAt m c L off hoff, h, mk⟩ : Trip.Lane16)
      = Row.mkLane (tokRow (idsOf m c) (rowOf L k)) (tokRow_lt m c hok (rowOf L k)) o mk' :=
  Row.lane_ext (funext fun x => laneAt_tok m c L k off hoff o ho ho16 x) hm

theorem tileOps_eq (hok : IdsOK m) (L : grid0.Coords) (k : Fin k0_t1_loop.trips) :
    tileOps m c hok L k = Row.rowOps (tokRow (idsOf m c) (rowOf L k)) (tokRow_lt m c hok (rowOf L k)) := by
  simp only [tileOps, Row.rowOps, Row.offs, List.map_cons, List.map_nil, List.cons_append, List.nil_append,
    List.cons.injEq, and_true]
  exact ⟨mkLane_eq m c hok L k (k0_off2_eq k) (by norm_num) rfl, mkLane_eq m c hok L k (k0_off3_eq k) (by norm_num) rfl,
    mkLane_eq m c hok L k (k0_off4_eq k) (by norm_num) rfl, mkLane_eq m c hok L k (k0_off5_eq k) (by norm_num) rfl,
    mkLane_eq m c hok L k (k0_off6_eq k) (by norm_num) rfl, mkLane_eq m c hok L k (k0_off7_eq k) (by norm_num) rfl,
    mkLane_eq m c hok L k (k0_off8_eq k) (by norm_num) rfl, mkLane_eq m c hok L k (k0_off9_eq k) (by norm_num) rfl,
    mkLane_eq m c hok L k (k0_off10_eq k) (by norm_num) rfl, mkLane_eq m c hok L k (k0_off11_eq k) (by norm_num) rfl,
    mkLane_eq m c hok L k (k0_off12_eq k) (by norm_num) rfl, mkLane_eq m c hok L k (k0_off13_eq k) (by norm_num) rfl,
    mkLane_eq m c hok L k (k0_off14_eq k) (by norm_num) pay2_eq⟩

/-! #### The constants of the trip at the ideal instance -/

theorem pay3_eq : (k0_pay3 (F := Ideal)) = fun _ => (1 : EReal) := by
  funext x
  show Ideal.ofBits .f32 0x3F800000#32 = 1
  simp [Ideal.ofBits, Ideal.ieee, -EReal.coe_mul]; norm_num

theorem zc0_eq : (zc0 (F := Ideal)) = (0 : EReal) := by
  show Ideal.ofBits .f32 0x00000000#32 = 0
  simp [Ideal.ofBits, Ideal.ieee]

/-- Every lane of the broadcast argument's exponential is exp β. -/
theorem ebOf_bvOf : ebOf (bvOf m c) = fun _ => Ideal.exp ((m (betaLoc c) : Vec Ideal S_ .f32) (fun a => a.elim0)) := by
  funext x
  show Ideal.exp ((m (betaLoc c) : Vec Ideal S_ .f32) _) = Ideal.exp ((m (betaLoc c) : Vec Ideal S_ .f32) (fun a => a.elim0))
  congr 2
  funext a
  exact a.elim0

end

/-! #### The count against the specification's, and the result -/

theorem pair_eq_of_val {d : Fin 2 → ℕ} (r : Fin (d 0)) (cc : Fin (d 1)) (i : (⟨2, d⟩ : Shape).Idx)
    (h0 : r.val = (i 0).val) (h1 : cc.val = (i 1).val) : Shape.pair r cc = i :=
  funext (Fin.forall_fin_two.2 ⟨Fin.ext h0, Fin.ext h1⟩)

/-- The columns of row `b` that hold a token, as the specification counts them. -/
theorem cnt_eq (ids : IVec S1024x200 32) (b : ℕ) (hb : b < 1024) (v : ℕ) :
    Cert.Spec.cnt ids b v = Cnt.cI (fun j => (tokRow ids b j).toNat = v) 0 200 := by
  unfold Cert.Spec.cnt Cnt.cI
  refine Finset.card_nbij' (fun i : S1024x200.Idx => (i 1).val)
    (fun j => Shape.pair (d := ![1024, 200]) ⟨b % 1024, Nat.mod_lt _ (by norm_num)⟩ ⟨j % 200, Nat.mod_lt _ (by norm_num)⟩)
    ?_ ?_ ?_ ?_
  · intro i hi
    simp only [Finset.coe_filter, Finset.mem_univ, true_and, Set.mem_setOf_eq, Finset.mem_Ico] at hi ⊢
    have h1 : (i 1).val < 200 := (i 1).isLt
    refine ⟨⟨Nat.zero_le _, h1⟩, ?_⟩
    unfold tokRow
    rw [pair_eq_of_val _ _ i (by show b % 1024 = _; rw [Nat.mod_eq_of_lt hb]; exact hi.1.symm)
      (by show (i 1).val % 200 = _; exact Nat.mod_eq_of_lt h1)]
    exact hi.2
  · intro j hj
    simp only [Finset.coe_filter, Finset.mem_univ, true_and, Set.mem_setOf_eq, Finset.mem_Ico] at hj ⊢
    exact ⟨Nat.mod_eq_of_lt hb, hj.2⟩
  · intro i hi
    simp only [Finset.coe_filter, Finset.mem_univ, true_and, Set.mem_setOf_eq] at hi
    exact pair_eq_of_val _ _ i (by show b % 1024 = _; rw [Nat.mod_eq_of_lt hb]; exact hi.1.symm)
      (by show (i 1).val % 200 = _; exact Nat.mod_eq_of_lt (i 1).isLt)
  · intro j hj
    simp only [Finset.coe_filter, Set.mem_setOf_eq, Finset.mem_Ico] at hj
    exact Nat.mod_eq_of_lt hj.1.2

/-- Zero over zero plus the exponential of a finite real is zero. -/
theorem div_zero_exp (r : ℝ) : Ideal.div 0 (0 + Ideal.exp (r : EReal)) = 0 := by
  rw [zero_add, Ideal.exp_coe, Ideal.div_coe (Real.exp_ne_zero r), zero_mul]

/-- What the kernel leaves in its result: at the ideal instance, a result every row of which is what its trip copied
    out is the encoded bag-of-words features of the token ids. -/
theorem kernel_enc (m : (ℓ : Loc nD τ sig) → Buf (Elt Ideal) ℓ) (hok : IdsOK m) (c : Dev nD)
    (hβ : ∃ r : ℝ, (m (betaLoc c) : Vec Ideal S_ .f32) (fun a => a.elim0) = (r : EReal))
    (g : Vec Ideal S1024x100000 .f32)
    (hg : ∀ (L : grid0.Coords) (k : Fin k0_t1_loop.trips) (y : S100000.Idx),
      g ((outRow L k).view.emb y) = tileRow m c hok (bvOf m c) zc0 L k y) :
    g = Cert.Spec.enc (m (idsLoc c)) (m (betaLoc c)) := by
  obtain ⟨r, hr⟩ := hβ
  funext i
  obtain ⟨L, k, y, hi, hrow, hcol⟩ := cover i
  have h1 := hg L k y
  rw [hi] at h1
  rw [h1]
  unfold tileRow
  rw [tileOps_eq m c hok L k, pay3_eq, ebOf_bvOf m c, zc0_eq, hr,
    Row.rowOut_rowOps _ _ _ (div_zero_exp r) y]
  unfold Cert.Spec.enc Cert.Spec.feat
  have he : Ideal.exp (r : EReal)
      = Ideal.exp ((m (betaLoc c) : FVec Ideal Cert.Spec.S0 .f32) (fun a => a.elim0)) := (congrArg Ideal.exp hr).symm
  have hc : Cnt.cI (fun j => (tokRow (idsOf m c) (rowOf L k) j).toNat = (y 0).val) 0 200
      = Cert.Spec.cnt (m (idsLoc c)) (i 0).val (i 1).val := by
    rw [hcol, hrow]; exact (cnt_eq (idsOf m c) (i 0).val (i 0).isLt (i 1).val).symm
  have hA : (if (y 0).val = 1 then (0 : EReal)
        else ((Cnt.cI (fun j => (tokRow (idsOf m c) (rowOf L k) j).toNat = (y 0).val) 0 200 : ℕ) : EReal))
      = (if (i 1).val = 1 then (0 : EReal) else ((Cert.Spec.cnt (m (idsLoc c)) (i 0).val (i 1).val : ℕ) : EReal)) := by
    rw [hc, hcol]
  exact congrArg₂ (fun a t : EReal => Ideal.div a (a + t)) hA he

end Cert.Proof.KI

end
-- ==== Proof.RefValue.lean ====
import proofs.«205751_g1185410973873_cont_main3_201_3_alg».proof.Proof.Spec
import proofs.«205751_g1185410973873_cont_main3_201_3_alg».proof.Proof.Gen.ReferenceIdeal.Read
import Idealize.ShloMosaic.Lib.IdealHost
import Idealize.ShloMosaic.Lib.StableHlo.Predicate

/-!
# The reference's result is the encoded bag-of-words features

The reference scatters a one into a zero array at (row of the flat position, token at the flat position) for
each of the 204800 flat positions, sets column 1 to zero, and divides the result `x` by `x + exp β`.
Read at an element `(b, v)`:

* the accumulating scatter from zeros with every update one is the NUMBER of flat positions whose index pair
  is `(b, v)`; the index pair of flat position `j` is `(j / 200, ids (j / 200, j % 200))` (the wrap of a
  negative index is the identity on both columns, rows and tokens being non-negative), and flat positions
  correspond row-major to (row, position) pairs, so that number is `Spec.cnt ids b v`;
* the second scatter writes zero at column 1 of every row and nothing else, which gives `Spec.feat`;
* the quotient and the exponential at the ideal instance are the ones `Spec.enc` is stated with.
-/

noncomputable section

namespace Cert.Proof.RefValue

open Idealize.ShloMosaic Cert.ReferenceIdeal Cert.ReferenceIdeal.Gen Cert.ReferenceIdeal.Read
open Idealize.ShloMosaic.StableHlo.Predicate

/-- A scatter whose body returns the update, with every update the same value `c`: an element is `c`
    if some update lands on it, and the operand's otherwise. -/
theorem scatter_set_const {s si u : Shape} {w : Nat} {α : Type} (d : ScatterDims s si u) (x : s.Idx → α)
    (idx : IVec si w) (c : α) (i' : s.Idx) :
    Host.scatter d (fun _ b => b) x idx (fun _ => c) i'
      = if ∃ j : u.Idx, d.resultIdx? j idx = some i' then c else x i' := by
  classical
  unfold Host.scatter
  have key : ∀ (l : List (Fin u.numel)) (x : s.Idx → α),
      (l.foldl (fun r n =>
        match d.resultIdx? (u.rowMajor.symm n) idx with
        | some i => fun i' => if i' = i then (fun _ b => b) (r i) ((fun _ => c) (u.rowMajor.symm n)) else r i'
        | none => r) x) i'
      = if ∃ n ∈ l, d.resultIdx? (u.rowMajor.symm n) idx = some i' then c else x i' := by
    intro l
    induction l with
    | nil => intro x; simp
    | cons a l ih =>
      intro x
      rw [List.foldl_cons, ih]
      cases h : d.resultIdx? (u.rowMajor.symm a) idx with
      | none => simp [h]
      | some i =>
        by_cases hi : i' = i
        · subst hi; simp [h]
        · have : ¬ i = i' := fun e => hi e.symm
          simp [h, hi, this]
  refine (key (List.finRange u.numel) x).trans ?_
  congr 1
  apply propext
  constructor
  · rintro ⟨n, _, hn⟩; exact ⟨_, hn⟩
  · rintro ⟨j, hj⟩; exact ⟨u.rowMajor j, List.mem_finRange _, by simpa using hj⟩

/-- An update lands on element `i` exactly when, on every axis, its start plus its window coordinate is
    `i`'s coordinate. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro e a
      have := congrArg (fun f => ((f a).val : Int)) e
      simp only at this
      have h0 := (h a).1
      omega
    · intro e
      funext a
      apply Fin.ext
      have := e a
      show (d.start j idx a + (d.window j a : Int)).toNat = (i a).val
      omega
  · next h =>
    constructor
    · intro e; exact absurd e (by simp)
    · intro e
      exfalso; apply h
      intro a
      have := e a
      have hi := (i a).isLt
      constructor <;> omega

/-- The dimension numbers of the column set: one scatter index, naming operand axis 1; the update's one
    axis is a window over operand axis 0. -/
abbrev d22 := scatter_S1024x100000_S1_S1024_0_1_1_0
/-- The dimension numbers of the accumulation: one index pair per update, naming operand axes 0 and 1; no
    window axis. -/
abbrev d19 := scatter_S1024x100000_S204800x2_S204800_n_01_01_1

/-! ### Starts and window coordinates of the two scatters, axis by axis -/

theorem d22_start0 (j : S1024.Idx) (idx : IVec S1 32) : d22.start j idx 0 = 0 := by
  unfold ScatterDims.start
  rw [dif_neg (by decide)]

/-- The one-element shape has one index. -/
theorem S1_idx_eq (k k' : S1.Idx) : k = k' := by
  funext b
  apply Fin.ext
  have h1 := (k b).isLt
  have h2 := (k' b).isLt
  have hb : S1.size b = 1 := by
    match b with
    | ⟨0, _⟩ => rfl
  omega

theorem d22_start1 (j : S1024.Idx) (idx : IVec S1 32) (k : S1.Idx) : d22.start j idx 1 = (idx k).toInt := by
  unfold ScatterDims.start
  rw [dif_pos (by decide)]
  congr 2
  exact S1_idx_eq _ _

theorem d22_window0 (j : S1024.Idx) : d22.window j 0 = (j 0).val := by
  unfold ScatterDims.window
  rw [dif_pos (by decide)]
  rfl

theorem d22_window1 (j : S1024.Idx) : d22.window j 1 = 0 := by
  unfold ScatterDims.window
  rw [dif_neg (by decide)]

theorem d19_window (j : S204800.Idx) (a : Fin 2) : d19.window j a = 0 := by
  unfold ScatterDims.window
  rw [dif_neg (by revert a; decide)]

theorem d19_start (j : S204800.Idx) (idx : IVec S204800x2 32) (a : Fin 2) (k : S204800x2.Idx)
    (h0 : (k 0).val = (j 0).val) (h1 : (k 1).val = a.val) :
    d19.start j idx a = (idx k).toInt := by
  have ha : a ∈ d19.scatterDimsToOperandDims := by clear h1; revert a; decide
  unfold ScatterDims.start
  rw [dif_pos ha]
  congr 2
  funext b
  apply Fin.ext
  match b, a, h1, ha with
  | ⟨0, _⟩, _, _, _ => exact h0.symm
  | ⟨1, _⟩, ⟨0, _⟩, h1, _ => exact h1.symm
  | ⟨1, _⟩, ⟨1, _⟩, h1, _ => exact h1.symm

/-- A rank-one index is determined by its coordinate. -/
theorem S204800_idx_eq (m m' : S204800.Idx) (h : (m 0).val = (m' 0).val) : m = m' := by
  funext b
  match b with
  | ⟨0, _⟩ => exact Fin.ext h

/-- The row column of the index tensor: the row number of the flat position (the wrap of negative
    indices is the identity, the row number being non-negative). -/
theorem v9_apply (m : S204800.Idx) : val_main_v9 (F := Ideal) m = BitVec.ofNat 32 ((m 0).val / 200) := by
  have h2 : val_main_v2 (F := Ideal) m = BitVec.ofNat 32 ((m 0).val / 200) := by
    rw [val_main_v2_apply, val_main_v1_apply, val_main_v0_apply]
  have hm : (m 0).val < 204800 := (m 0).isLt
  rw [val_main_v9_apply, val_main_v6_apply, val_main_v5_apply, val_main_c_apply, h2]
  have hne : IntOp.cmpi .slt (BitVec.ofNat 32 ((m 0).val / 200)) 0#32 ≠ 1#1 := by
    rw [Ne, slt_iff_toNat (by simp only [BitVec.toNat_ofNat]; omega) (by decide)]
    simp
  exact if_neg hne

/-- The token column of the index tensor: the token at the flat position (the wrap of negative indices is
    the identity, tokens being non-negative). -/
theorem v14_apply (x0 : (⟨S1024x200, .i32⟩ : BufTy).Contents (Elt Ideal)) (hok : ∀ i, (x0 i).toNat < 100000)
    (m : S204800.Idx) : val_main_v14 (F := Ideal) x0 m = x0 (idx_main_v3 m) := by
  rw [val_main_v14_apply, val_main_v11_apply, val_main_v10_apply, val_main_c_1_apply, val_main_v3_apply]
  have hne : IntOp.cmpi .slt (x0 (idx_main_v3 m)) 0#32 ≠ 1#1 := by
    rw [Ne, slt_iff_toNat (by have := hok (idx_main_v3 m); omega) (by decide)]
    simp
  exact if_neg hne

/-- The index tensor at column 0. -/
theorem v17_apply0 (x0 : (⟨S1024x200, .i32⟩ : BufTy).Contents (Elt Ideal)) (k : S204800x2.Idx)
    (h1 : (k 1).val = 0) :
    val_main_v17 (F := Ideal) x0 k = BitVec.ofNat 32 ((k 0).val / 200) := by
  unfold val_main_v17
  have hk0 : (k 0).val < 204800 := (k 0).isLt
  rw [concatenate_pair_apply_left (s₁ := S204800x1) (s₂ := S204800x1) (1 : Fin 2) _ _ _ k rfl
    (fun b => match b with | ⟨0, _⟩ => ⟨(k 0).val, hk0⟩ | ⟨1, _⟩ => ⟨0, Nat.zero_lt_one⟩)
    (fun b => match b with | ⟨0, _⟩ => rfl | ⟨1, _⟩ => h1.symm)]
  rw [val_main_v15_apply, v9_apply]

/-- The index tensor at column 1. -/
theorem v17_apply1 (x0 : (⟨S1024x200, .i32⟩ : BufTy).Contents (Elt Ideal)) (hok : ∀ i, (x0 i).toNat < 100000)
    (k : S204800x2.Idx) (j : S204800.Idx) (h0 : (k 0).val = (j 0).val) (h1 : (k 1).val = 1) :
    val_main_v17 (F := Ideal) x0 k = x0 (idx_main_v3 j) := by
  unfold val_main_v17
  have hk0 : (k 0).val < 204800 := (k 0).isLt
  rw [concatenate_pair_apply_right (s₁ := S204800x1) (s₂ := S204800x1) (1 : Fin 2) _ _ _ k rfl rfl
    (fun b => match b with | ⟨0, _⟩ => ⟨(k 0).val, hk0⟩ | ⟨1, _⟩ => ⟨0, Nat.zero_lt_one⟩)
    (fun b hb => match b, hb with | ⟨0, _⟩, _ => rfl | ⟨1, _⟩, hb => absurd rfl hb)
    (by show 0 + 1 = (k 1).val; omega)]
  rw [val_main_v16_apply, v14_apply x0 hok]
  congr 1
  congr 1
  exact S204800_idx_eq _ _ h0

/-- The one index of the one-element shape. -/
def kS1 : S1.Idx := fun a => match a with | ⟨0, _⟩ => ⟨0, Nat.zero_lt_one⟩

/-- The column-set scatter lands on an element exactly when the element is in column 1 (its one index is the
    constant 1, and its window runs over every row). -/
theorem d22_lands (idx : IVec S1 32) (hidx : ∀ k, idx k = 1#32) (i : S1024x100000.Idx) :
    (∃ j : S1024.Idx, d22.resultIdx? j idx = some i) ↔ (i 1).val = 1 := by
  have h1 : (1#32 : BitVec 32).toInt = 1 := by decide
  constructor
  · rintro ⟨j, hj⟩
    have := (resultIdx?_eq_some_iff d22 j idx i).1 hj 1
    rw [d22_start1 j idx kS1, d22_window1, hidx, h1] at this
    omega
  · intro h
    have hi0 : (i 0).val < 1024 := (i 0).isLt
    refine ⟨fun a => match a with | ⟨0, _⟩ => ⟨(i 0).val, hi0⟩, ?_⟩
    rw [resultIdx?_eq_some_iff, Fin.forall_fin_two, d22_start0, d22_window0,
      d22_start1 _ idx kS1, d22_window1, hidx, h1]
    constructor
    · show (0 : Int) + ((i 0).val : Int) = _
      omega
    · omega

/-- The accumulating scatter's update at flat position `j` lands on element `i` exactly when `j` lies in
    row `i 0` and holds token `i 1`. -/
theorem d19_lands (x0 : (⟨S1024x200, .i32⟩ : BufTy).Contents (Elt Ideal)) (hok : ∀ i, (x0 i).toNat < 100000)
    (j : S204800.Idx) (i : S1024x100000.Idx) :
    d19.resultIdx? j (val_main_v17 (F := Ideal) x0) = some i ↔
      (j 0).val / 200 = (i 0).val ∧ (x0 (idx_main_v3 j)).toNat = (i 1).val := by
  have hj : (j 0).val < 204800 := (j 0).isLt
  obtain ⟨k0, h00, h01⟩ : ∃ k0 : S204800x2.Idx, (k0 0).val = (j 0).val ∧ (k0 1).val = 0 :=
    ⟨fun b => match b with | ⟨0, _⟩ => ⟨(j 0).val, hj⟩ | ⟨1, _⟩ => ⟨0, Nat.zero_lt_two⟩, rfl, rfl⟩
  obtain ⟨k1, h10, h11⟩ : ∃ k1 : S204800x2.Idx, (k1 0).val = (j 0).val ∧ (k1 1).val = 1 :=
    ⟨fun b => match b with | ⟨0, _⟩ => ⟨(j 0).val, hj⟩ | ⟨1, _⟩ => ⟨1, Nat.one_lt_two⟩, rfl, rfl⟩
  have ht := hok (idx_main_v3 j)
  rw [resultIdx?_eq_some_iff, Fin.forall_fin_two,
    d19_start j _ 0 k0 h00 h01, d19_start j _ 1 k1 h10 h11, d19_window, d19_window,
    v17_apply0 x0 k0 h01, v17_apply1 x0 hok k1 j h10 h11, h00,
    toInt_ofNat_small _ (by omega), toInt_eq_toNat_of_lt (by omega)]
  omega

/-- The flat positions and the (row, position) pairs correspond, row-major. -/
theorem card_flat (x0 : (⟨S1024x200, .i32⟩ : BufTy).Contents (Elt Ideal)) (b v : ℕ) :
    (Finset.univ.filter fun j : S204800.Idx => (j 0).val / 200 = b ∧ (x0 (idx_main_v3 j)).toNat = v).card
      = Cert.Spec.cnt x0 b v := by
  unfold Cert.Spec.cnt
  refine Finset.card_bij (fun j _ => idx_main_v3 j) ?_ ?_ ?_
  · intro j hj
    rw [Finset.mem_filter] at hj ⊢
    exact ⟨Finset.mem_univ _, hj.2⟩
  · intro j _ j' _ e
    apply S204800_idx_eq
    have e0 := congrArg (fun f => (f 0).val) e
    have e1 := congrArg (fun f => (f 1).val) e
    have e0' : (j 0).val / 200 = (j' 0).val / 200 := e0
    have e1' : (j 0).val % 200 = (j' 0).val % 200 := e1
    omega
  · intro k hk
    rw [Finset.mem_filter] at hk
    have hk0 : (k 0).val < 1024 := (k 0).isLt
    have hk1 : (k 1).val < 200 := (k 1).isLt
    have hidx : idx_main_v3 (fun a => match a with | ⟨0, _⟩ => ⟨(k 0).val * 200 + (k 1).val, by show _ < 204800; omega⟩) = k := by
      funext a
      match a with
      | ⟨0, _⟩ => apply Fin.ext; show ((k 0).val * 200 + (k 1).val) / 200 = (k 0).val; omega
      | ⟨1, _⟩ => apply Fin.ext; show ((k 0).val * 200 + (k 1).val) % 200 = (k 1).val; omega
    refine ⟨_, ?_, hidx⟩
    rw [Finset.mem_filter, hidx]
    refine ⟨Finset.mem_univ _, ?_, hk.2.2⟩
    show ((k 0).val * 200 + (k 1).val) / 200 = b
    have := hk.2.1
    omega

/-- The scatter-add of ones into zeros is the count. -/
theorem v19_apply (x0 : (⟨S1024x200, .i32⟩ : BufTy).Contents (Elt Ideal)) (hok : ∀ i, (x0 i).toNat < 100000)
    (i : S1024x100000.Idx) :
    val_main_v19 (F := Ideal) x0 i = ((Cert.Spec.cnt x0 (i 0).val (i 1).val : ℕ) : EReal) := by
  have h18 : ∀ j : S204800.Idx, val_main_v18 (F := Ideal) j = (1 : EReal) := fun j => by
    rw [val_main_v18_apply, val_main_cst_3_apply, Ideal.ofBits_def, Ideal.ofBits_one_f32]
  have h4 : val_main_v4 (F := Ideal) i = (0 : EReal) := by
    rw [val_main_v4_apply, val_main_cst_apply, Ideal.ofBits_def, Ideal.ofBits_zero_f32]
  unfold val_main_v19 Host.scatterAdd
  rw [Ideal.hostScatterAdd_def]
  unfold Ideal.hostScatterAdd
  rw [h4, zero_add, Finset.sum_congr rfl (fun j _ => h18 j), Finset.sum_const, nsmul_one,
    Finset.filter_congr (fun j _ => d19_lands x0 hok j i), card_flat]

/-- The bag-of-words feature: the count, with column 1 set to zero. -/
theorem v22_apply (x0 : (⟨S1024x200, .i32⟩ : BufTy).Contents (Elt Ideal)) (hok : ∀ i, (x0 i).toNat < 100000)
    (i : S1024x100000.Idx) :
    val_main_v22 (F := Ideal) x0 i = Cert.Spec.feat x0 i := by
  have h21 : val_main_v21 (F := Ideal) = fun _ => (0 : EReal) := by
    funext m
    rw [val_main_v21_apply, val_main_cst_5_apply, Ideal.ofBits_def, Ideal.ofBits_zero_f32]
  unfold val_main_v22
  rw [h21, scatter_set_const]
  have hl := d22_lands (val_main_v20 (F := Ideal)) (fun k => by rw [val_main_v20_apply, val_main_c_4_apply]) i
  unfold Cert.Spec.feat
  by_cases h : (i 1).val = 1
  · rw [if_pos (hl.2 h), if_pos h]
  · rw [if_neg (fun e => h (hl.1 e)), if_neg h, v19_apply x0 hok]

/-- The reference's result is the encoded features. -/
theorem ref_enc (x0 : (⟨Cert.ReferenceIdeal.S1024x200, .i32⟩ : BufTy).Contents (Elt Ideal))
    (x1 : (⟨Cert.ReferenceIdeal.S_, .f32⟩ : BufTy).Contents (Elt Ideal))
    (hok : ∀ i, (x0 i).toNat < 100000) :
    Cert.ReferenceIdeal.Read.val_main_v26 (F := Ideal) x0 x1 = Cert.Spec.enc x0 x1 := by
  funext i
  rw [val_main_v26_apply, val_main_v25_apply, val_main_v24_apply, val_main_v23_apply, v22_apply x0 hok,
    Ideal.hostDivf_def, Ideal.addf_def, Ideal.hostUnary_exp_def]
  rfl

end Cert.Proof.RefValue

end
-- ==== Proof.RefFrame.lean ====
import proofs.«205751_g1185410973873_cont_main3_201_3_alg».proof.Defs
import proofs.«205751_g1185410973873_cont_main3_201_3_alg».proof.Proof.Gen.ReferenceIdeal
import proofs.«205751_g1185410973873_cont_main3_201_3_alg».proof.Proof.Gen.ReferenceIdeal.Run
import proofs.«205751_g1185410973873_cont_main3_201_3_alg».proof.Proof.Gen.ReferenceIdeal.Read
import proofs.«205751_g1185410973873_cont_main3_201_3_alg».proof.Proof.Gen.Pre_input_domain

noncomputable section

open Idealize.ShloMosaic Idealize.SL.Sem

namespace Cert.Proof.RefFrame

/-- The reference has no kernel: its frame is its run with the result's value dropped. -/
theorem frame_ri [Cert.ReferenceIdeal.Facts] [Cert.Pre_input_domain.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.PreFacts.lean ====
import proofs.«205751_g1185410973873_cont_main3_201_3_alg».proof.Defs
import proofs.«205751_g1185410973873_cont_main3_201_3_alg».proof.Proof.Gen.Pre_input_domain
import Idealize.ShloMosaic.Lib.ReduceAll
import Idealize.ShloMosaic.Lib.StableHlo.Predicate

/-!
# What the input-domain precondition says of the arguments

The precondition is `all(|β| < +∞) ∧ all((0 ≤ ids) ∧ (ids ≤ 99999))`, the comparisons signed, evaluated to the
one-bit word 1. Read back: every token id, as an unsigned word, is below 100000, and (on the extended reals) the
scalar `β` is a real number. Both facts are then restated for the argument arrays of the three programs.
-/

noncomputable section

namespace Cert.Proof.PreFacts

open Idealize.ShloMosaic Idealize.SL.Sem

/-- The rank-0 shape has one index. -/
instance subsingleton_S_ : Subsingleton Cert.Pre_input_domain.S_.Idx := ⟨fun _ _ => funext fun d => d.elim0⟩

/-- The index of the rank-0 shape. -/
abbrev i0 : Cert.Pre_input_domain.S_.Idx := fun a => a.elim0

/-- A 32-bit word that is, read signed, at least 0 and at most 99999 is, read unsigned, below 100000:
    a non-negative signed word is its own unsigned value. -/
theorem word_lt (v : BitVec 32)
    (e : IntOp.andi (IntOp.cmpi .sge v 0#32) (IntOp.cmpi .sle v 99999#32) = 1#1) : v.toNat < 100000 := by
  obtain ⟨h0, h1⟩ := IntOp.andi_eq_one.1 e
  have z : (0#32 : BitVec 32).toInt = 0 := by decide
  have n : (99999#32 : BitVec 32).toInt = 99999 := by decide
  rw [IntOp.cmpi_sge, z, BitVec.toInt_eq_toNat_cond] at h0
  rw [IntOp.cmpi_sle, n, BitVec.toInt_eq_toNat_cond] at h1
  have hv := v.isLt
  omega

/-- An extended real whose absolute value `max x (-x)` is below `+∞` is a real number: at either infinity the
    absolute value is `+∞`. -/
theorem real_of_abs_lt_top (x : EReal) (h : max x (-x) < ⊤) : ∃ r : ℝ, x = (r : EReal) := by
  induction x using EReal.rec with
  | bot => simp at h
  | coe r => exact ⟨r, rfl⟩
  | top => simp at h

variable [Cert.Pre_input_domain.Facts]

/-- The precondition's second conjunct, element by element: every token id is below 100000. -/
theorem ids_lt {F : FTy → Type} [FloatOps F] (x0 : IVec Cert.Pre_input_domain.S1024x200 32)
    (x1 : FVec F Cert.Pre_input_domain.S_ .f32)
    (h : Cert.Pre_input_domain.fn (F := F) x0 x1 = fun _ => 1#1) : ∀ i, (x0 i).toNat < 100000 := by
  intro i
  have e := congrFun h i0
  dsimp only [Cert.Pre_input_domain.fn] at e
  simp only [andi] at e
  obtain ⟨-, e2⟩ := IntOp.andi_eq_one.1 e
  have e3 := Host.reduce_andi_all _ _ _ _ _ e2 i
  simp only [andi, cmpi, broadcastInDim, constantI] at e3
  exact word_lt _ e3

/-- The precondition's first conjunct on the extended reals: the scalar is a real number. -/
theorem beta_real (x0 : IVec Cert.Pre_input_domain.S1024x200 32) (x1 : FVec Ideal Cert.Pre_input_domain.S_ .f32)
    (h : Cert.Pre_input_domain.fn (F := Ideal) x0 x1 = fun _ => 1#1) : ∃ r : ℝ, x1 (fun a => a.elim0) = (r : EReal) := by
  have e := congrFun h i0
  dsimp only [Cert.Pre_input_domain.fn] at e
  simp only [andi] at e
  obtain ⟨e1, -⟩ := IntOp.andi_eq_one.1 e
  have e3 := Host.reduce_andi_all _ _ _ _ _ e1 i0
  simp only [cmpf, Host.absf, constant] at e3
  have htop : Ideal.ofBits .f32 0x7F800000#32 = ⊤ := by simp [Ideal.ofBits, Ideal.ieee]
  change Ideal.cmp .olt (max (x1 i0) (-(x1 i0))) (Ideal.ofBits .f32 0x7F800000#32) = 1#1 at e3
  rw [htop] at e3
  simp only [Ideal.cmp, StableHlo.Predicate.ofBool_eq_one_iff, decide_eq_true_eq] at e3
  exact real_of_abs_lt_top _ e3

/-! ## The same facts, for each program's argument arrays -/

/-- The program as printed: every token id of its first argument is below 100000, on every device. -/
theorem kernel_ids_lt (m : (ℓ : Loc Cert.Kernel.nD Cert.Kernel.τ Cert.Kernel.sig) → Buf (Elt Bits) ℓ)
    (h : Cert.Pre_Kernel m) (c : Dev Cert.Kernel.nD) (i : Cert.Kernel.S1024x200.Idx) :
    ((m ((c.tc : Thread Cert.Kernel.nD Cert.Kernel.τ).loc Cert.Kernel.main_arg0) : IVec Cert.Kernel.S1024x200 32) i).toNat
      < 100000 :=
  ids_lt (F := Bits) _ _ (h c) i

/-- The program on the extended reals: every token id of its first argument is below 100000. -/
theorem kernelIdeal_ids_lt
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1024x200.Idx) :
    ((m ((c.tc : Thread Cert.KernelIdeal.nD Cert.KernelIdeal.τ).loc Cert.KernelIdeal.main_arg0) :
        IVec Cert.KernelIdeal.S1024x200 32) i).toNat < 100000 :=
  ids_lt (F := Ideal) _ _ (h c) i

/-- The program on the extended reals: its scalar argument is a real number. -/
theorem kernelIdeal_beta_real
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : ℝ, (m ((c.tc : Thread Cert.KernelIdeal.nD Cert.KernelIdeal.τ).loc Cert.KernelIdeal.main_arg1) :
        FVec Ideal Cert.KernelIdeal.S_ .f32) (fun a => a.elim0) = (r : EReal) :=
  beta_real _ _ (h c)

/-- The reference on the extended reals: every token id of its first argument is below 100000. -/
theorem referenceIdeal_ids_lt
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) (i : Cert.ReferenceIdeal.S1024x200.Idx) :
    ((m ((c.tc : Thread Cert.ReferenceIdeal.nD Cert.ReferenceIdeal.τ).loc Cert.ReferenceIdeal.main_arg0) :
        IVec Cert.ReferenceIdeal.S1024x200 32) i).toNat < 100000 :=
  ids_lt (F := Ideal) _ _ (h c) i

/-- The reference on the extended reals: its scalar argument is a real number. -/
theorem referenceIdeal_beta_real
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∃ r : ℝ, (m ((c.tc : Thread Cert.ReferenceIdeal.nD Cert.ReferenceIdeal.τ).loc Cert.ReferenceIdeal.main_arg1) :
        FVec Ideal Cert.ReferenceIdeal.S_ .f32) (fun a => a.elim0) = (r : EReal) :=
  beta_real _ _ (h c)

end Cert.Proof.PreFacts

end
-- ==== Proof.Claims.lean ====
/-
  The five claims. Each kernel frame is the run of the whole thread family from the launch, with the value of the
  result dropped: of the program as printed, and of the same text read on the extended reals; both ask of the launch
  memory only that every token id is below 100000, which the precondition says. The reference has no kernel: its
  frame is its run. The idealization rewrote nothing, so there is nothing to preserve. The algebraic claim: the
  kernel's run leaves every row of the result at what the tile that owns it computed, and such an array is the
  encoded bag-of-words features of the token ids and the scalar; the reference's run leaves its result term, which
  is the same features of its own arguments, and the arguments agree.
-/
import proofs.«205751_g1185410973873_cont_main3_201_3_alg».proof.Defs
import proofs.«205751_g1185410973873_cont_main3_201_3_alg».proof.Proof.Launch
import proofs.«205751_g1185410973873_cont_main3_201_3_alg».proof.Proof.LaunchB
import proofs.«205751_g1185410973873_cont_main3_201_3_alg».proof.Proof.KernelValue
import proofs.«205751_g1185410973873_cont_main3_201_3_alg».proof.Proof.RefValue
import proofs.«205751_g1185410973873_cont_main3_201_3_alg».proof.Proof.RefFrame
import proofs.«205751_g1185410973873_cont_main3_201_3_alg».proof.Proof.PreFacts

noncomputable section

namespace Cert.Proof.Claims

open Idealize.ShloMosaic Idealize.SL.Sem

/-- The program as printed runs, and its arguments end as they were. -/
theorem frame_k : Cert.frame_Kernel := fun m ρ hpre =>
  (θ_run Cert.Kernel.defs _ _).mono (fun _ h c => ⟨(h c).2.1, (h c).2.2⟩)
    (Cert.Proof.KB.run_main (F := Bits) m ρ fun d i => Cert.Proof.PreFacts.kernel_ids_lt m hpre d i)

/-- The same text on the extended reals runs, and its arguments end as they were. -/
theorem frame_ki : Cert.frame_KernelIdeal := fun m ρ hpre =>
  (θ_run Cert.KernelIdeal.defs _ _).mono (fun _ h c => ⟨(h c).2.1, (h c).2.2⟩)
    (Cert.Proof.KI.run_main (F := Ideal) m ρ fun d i => Cert.Proof.PreFacts.kernelIdeal_ids_lt m hpre d i)

/-- The reference runs, and its arguments end as they were. -/
theorem frame_ri : Cert.frame_ReferenceIdeal := Cert.Proof.RefFrame.frame_ri

/-- The idealization rewrote no operation. -/
theorem preserves : Cert.preserves_Kernel_KernelIdeal := trivial

/-- On the extended reals, from arguments that agree, the kernel and the reference both end with the encoded
    bag-of-words features of the token ids and the scalar in their results, and with their arguments as they were. -/
theorem algebraic : Cert.algebraic_KernelIdeal_ReferenceIdeal := by
  intro m ρ m' ρ' hpre hagree
  have hok : Cert.Proof.KI.IdsOK m := fun d i => Cert.Proof.PreFacts.kernelIdeal_ids_lt m hpre d i
  refine ⟨fun c => Cert.Spec.enc (m (Cert.Proof.KI.idsLoc c)) (m (Cert.Proof.KI.betaLoc c)), ?_, ?_⟩
  · -- the kernel: every row of the result is what its tile computed, and such an array is the features
    refine (θ_run Cert.KernelIdeal.defs _ _).mono (fun r h c => ⟨?_, (h c).2.1, (h c).2.2⟩)
      (Cert.Proof.KI.run_main (F := Ideal) m ρ hok)
    exact Cert.Proof.KI.kernel_enc m hok c (Cert.Proof.PreFacts.kernelIdeal_beta_real m hpre c)
      (r.2.mem (Cert.Proof.KI.outLoc c)) (h c).1
  · -- the reference: its result term is the features of its own arguments, which are the kernel's
    refine (θ_run Cert.ReferenceIdeal.defs _ _).mono (fun r h c => ⟨?_, (h c).2⟩)
      (Cert.ReferenceIdeal.Value.run (F := Ideal) m' ρ')
    have hok' : ∀ i, ((m' ((c.tc : Thread Cert.ReferenceIdeal.nD Cert.ReferenceIdeal.τ).loc Cert.ReferenceIdeal.main_arg0) :
        IVec Cert.ReferenceIdeal.S1024x200 32) i).toNat < 100000 := by
      intro i
      rw [(hagree c).1]
      exact Cert.Proof.PreFacts.kernelIdeal_ids_lt m hpre c i
    refine (h c).1.trans ((Cert.ReferenceIdeal.Read.val_main_v26_eq _ _).trans
      ((Cert.Proof.RefValue.ref_enc _ _ hok').trans ?_))
    rw [(hagree c).1, (hagree c).2]

end Cert.Proof.Claims

end
-- ==== Proof.lean ====
/- The certificate's claim, from the five claims of Proof/Claims: the two kernel frames (the launch run of the thread
   family with the result's value dropped), the reference's frame (its run), the empty idealization ledger, and the
   algebraic claim (the kernel's result and the reference's are both the encoded features of Proof/Spec). -/
import proofs.«205751_g1185410973873_cont_main3_201_3_alg».proof.Defs
import proofs.«205751_g1185410973873_cont_main3_201_3_alg».proof.Proof.Gen.Kernel
import proofs.«205751_g1185410973873_cont_main3_201_3_alg».proof.Proof.Gen.Kernel.Skeleton
import proofs.«205751_g1185410973873_cont_main3_201_3_alg».proof.Proof.Gen.KernelIdeal
import proofs.«205751_g1185410973873_cont_main3_201_3_alg».proof.Proof.Gen.KernelIdeal.Skeleton
import proofs.«205751_g1185410973873_cont_main3_201_3_alg».proof.Proof.Gen.ReferenceIdeal
import proofs.«205751_g1185410973873_cont_main3_201_3_alg».proof.Proof.Gen.Pre_input_domain
import proofs.«205751_g1185410973873_cont_main3_201_3_alg».proof.Proof.Claims

noncomputable section

namespace Cert.Proof

theorem claim : Cert.Claim := ⟨Cert.Kernel.Gen.facts, Cert.KernelIdeal.Gen.facts, Cert.ReferenceIdeal.Gen.facts, Cert.Pre_input_domain.Gen.facts,
  Claims.frame_k, Claims.frame_ki, Claims.frame_ri, Claims.preserves, Claims.algebraic⟩

end Cert.Proof

end
